-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16x128 : Shape := ⟨3, ![16384, 16, 128]⟩
abbrev S16384x2x128 : Shape := ⟨3, ![16384, 2, 128]⟩
abbrev S16384x16x64 : Shape := ⟨3, ![16384, 16, 64]⟩
abbrev S128x64 : Shape := ⟨2, ![128, 64]⟩
abbrev S64 : Shape := ⟨1, ![64]⟩
abbrev S192x64 : Shape := ⟨2, ![192, 64]⟩
abbrev S192 : Shape := ⟨1, ![192]⟩
abbrev S512x1024 : Shape := ⟨2, ![512, 1024]⟩
abbrev S512 : Shape := ⟨1, ![512]⟩
abbrev S_ : Shape := ⟨0, ![]⟩

class Facts : Prop where
  bcast_S_S16384x16x128 : S_.BroadcastsInDim S16384x16x128 (![] : Fin 0 → Fin S16384x16x128.rank)
  reducesTo_S16384x16x128_S_d0_1_2 : S16384x16x128.ReducesTo [0, 1, 2] S_
  h_S_ : 0 < S_.numel
  bcast_S_S16384x16x64 : S_.BroadcastsInDim S16384x16x64 (![] : Fin 0 → Fin S16384x16x64.rank)
  reducesTo_S16384x16x64_S_d0_1_2 : S16384x16x64.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S16384x2x128 : S_.BroadcastsInDim S16384x2x128 (![] : Fin 0 → Fin S16384x2x128.rank)
  reducesTo_S16384x2x128_S_d0_1_2 : S16384x2x128.ReducesTo [0, 1, 2] S_

variable [Facts]

def fn_part3 {F : FTy → Type} [FloatOps F] (main_arg1 : IVec S16384x2x128 32) (main_v48 : IVec S_ 1) (main_v50 : IVec S16384x2x128 1) : IVec S_ 1 :=
  let main_c_19 : IVec S_ 1 := constantI S_ 1 1#1
  let main_v51 : IVec S_ 1 := (fun x v => Host.reduce IntOp.andi x v reducesTo_S16384x2x128_S_d0_1_2 h_S_) main_v50 main_c_19
  let main_v52 : IVec S_ 1 := andi main_v48 main_v51
  let main_c_20 : IVec S_ 32 := constantI S_ 32 16#32
  let main_v53 : IVec S16384x2x128 32 := broadcastInDim S16384x2x128 ![] bcast_S_S16384x2x128 main_c_20
  let main_v54 : IVec S16384x2x128 1 := cmpi .slt main_arg1 main_v53
  let main_c_21 : IVec S_ 1 := constantI S_ 1 1#1
  let main_v55 : IVec S_ 1 := (fun x v => Host.reduce IntOp.andi x v reducesTo_S16384x2x128_S_d0_1_2 h_S_) main_v54 main_c_21
  let main_v56 : IVec S_ 1 := andi main_v52 main_v55
  main_v56

def fn_part2 {F : FTy → Type} [FloatOps F] (main_arg1 : IVec S16384x2x128 32) (main_arg8 : FVec F S192 .f32) (main_arg9 : FVec F S512x1024 .f32) (main_arg10 : FVec F S512 .f32) (main_v33 : IVec S_ 1) : IVec S_ 1 :=
  let main_v34 : FVec F S192 .f32 := Host.absf main_arg8
  let main_cst_12 : FVec F S_ .f32 := constant S_ .f32 0x7F800000#32
  let main_v35 : FVec F S192 .f32 := broadcastInDim S192 ![] bcast_S_S192 main_cst_12
  let main_v36 : IVec S192 1 := cmpf .olt main_v34 main_v35
  let main_c_13 : IVec S_ 1 := constantI S_ 1 1#1
  let main_v37 : IVec S_ 1 := (fun x v => Host.reduce IntOp.andi x v reducesTo_S192_S_d0 h_S_) main_v36 main_c_13
  let main_v38 : IVec S_ 1 := andi main_v33 main_v37
  let main_v39 : FVec F S512x1024 .f32 := Host.absf main_arg9
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_c_18 : IVec S_ 32 := constantI S_ 32 0#32
  let main_v49 : IVec S16384x2x128 32 := broadcastInDim S16384x2x128 ![] bcast_S_S16384x2x128 main_c_18
  let main_v50 : IVec S16384x2x128 1 := cmpi .sge main_arg1 main_v49
  fn_part3 (F := F) main_arg1 main_v48 main_v50

def fn_part1 {F : FTy → Type} [FloatOps F] (main_arg1 : IVec S16384x2x128 32) (main_arg5 : FVec F S192x64 .f32) (main_arg6 : FVec F S192x64 .f32) (main_arg7 : FVec F S192 .f32) (main_arg8 : FVec F S192 .f32) (main_arg9 : FVec F S512x1024 .f32) (main_arg10 : FVec F S512 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x64 .f32 := Host.absf main_arg5
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192x64 .f32 := Host.absf main_arg6
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192 .f32 := Host.absf main_arg7
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S16384x16x128 .f32) (main_arg1 : IVec S16384x2x128 32) (main_arg2 : FVec F S16384x16x64 .f32) (main_arg3 : FVec F S128x64 .f32) (main_arg4 : FVec F S64 .f32) (main_arg5 : FVec F S192x64 .f32) (main_arg6 : FVec F S192x64 .f32) (main_arg7 : FVec F S192 .f32) (main_arg8 : FVec F S192 .f32) (main_arg9 : FVec F S512x1024 .f32) (main_arg10 : FVec F S512 .f32) : IVec S_ 1 :=
  let main_v0 : FVec F S16384x16x128 .f32 := Host.absf main_arg0
  let main_cst : FVec F S_ .f32 := constant S_ .f32 0x7F800000#32
  let main_v1 : FVec F S16384x16x128 .f32 := broadcastInDim S16384x16x128 ![] bcast_S_S16384x16x128 main_cst
  let main_v2 : IVec S16384x16x128 1 := cmpf .olt main_v0 main_v1
  let main_c : IVec S_ 1 := constantI S_ 1 1#1
  let main_v3 : IVec S_ 1 := (fun x v => Host.reduce IntOp.andi x v reducesTo_S16384x16x128_S_d0_1_2 h_S_) main_v2 main_c
  let main_v4 : FVec F S16384x16x64 .f32 := Host.absf main_arg2
  let main_cst_0 : FVec F S_ .f32 := constant S_ .f32 0x7F800000#32
  let main_v5 : FVec F S16384x16x64 .f32 := broadcastInDim S16384x16x64 ![] bcast_S_S16384x16x64 main_cst_0
  let main_v6 : IVec S16384x16x64 1 := cmpf .olt main_v4 main_v5
  let main_c_1 : IVec S_ 1 := constantI S_ 1 1#1
  let main_v7 : IVec S_ 1 := (fun x v => Host.reduce IntOp.andi x v reducesTo_S16384x16x64_S_d0_1_2 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S16384x16x128 : Shape := ⟨3, ![16384, 16, 128]⟩
abbrev S16384x2x128 : Shape := ⟨3, ![16384, 2, 128]⟩
abbrev S16384x16x64 : Shape := ⟨3, ![16384, 16, 64]⟩
abbrev S128x64 : Shape := ⟨2, ![128, 64]⟩
abbrev S64 : Shape := ⟨1, ![64]⟩
abbrev S192x64 : Shape := ⟨2, ![192, 64]⟩
abbrev S192 : Shape := ⟨1, ![192]⟩
abbrev S512x1024 : Shape := ⟨2, ![512, 1024]⟩
abbrev S512 : Shape := ⟨1, ![512]⟩
abbrev S64x192 : Shape := ⟨2, ![64, 192]⟩
abbrev S1024x512 : Shape := ⟨2, ![1024, 512]⟩
abbrev S16384x512 : Shape := ⟨2, ![16384, 512]⟩
abbrev S16384x1024 : Shape := ⟨2, ![16384, 1024]⟩
abbrev S128x16x128 : Shape := ⟨3, ![128, 16, 128]⟩
abbrev S128x2x128 : Shape := ⟨3, ![128, 2, 128]⟩
abbrev S128x16x64 : Shape := ⟨3, ![128, 16, 64]⟩
abbrev S128x512 : Shape := ⟨2, ![128, 512]⟩
abbrev S128x1024 : Shape := ⟨2, ![128, 1024]⟩
abbrev S128x1x128 : Shape := ⟨3, ![128, 1, 128]⟩
abbrev S128x128 : Shape := ⟨2, ![128, 128]⟩
abbrev S2048x128 : Shape := ⟨2, ![2048, 128]⟩
abbrev S2048x64 : Shape := ⟨2, ![2048, 64]⟩
abbrev S1x16x1 : Shape := ⟨3, ![1, 16, 1]⟩
abbrev S128x16 : Shape := ⟨2, ![128, 16]⟩
abbrev S128x1x16 : Shape := ⟨3, ![128, 1, 16]⟩
abbrev S128x16x16 : Shape := ⟨3, ![128, 16, 16]⟩
abbrev S128x16x1 : Shape := ⟨3, ![128, 16, 1]⟩
abbrev S1x1x64 : Shape := ⟨3, ![1, 1, 64]⟩
abbrev S2048x192 : Shape := ⟨2, ![2048, 192]⟩
abbrev S1x192 : Shape := ⟨2, ![1, 192]⟩
abbrev S128x1x64 : Shape := ⟨3, ![128, 1, 64]⟩
abbrev S1x512 : Shape := ⟨2, ![1, 512]⟩

abbrev nBuf : Space → Nat
  | .hbm => 17
  | .vmem => 18
  | .smem => 0
  | _ => 0

abbrev bufTy : (tb : Table) → Fin (tcTables nBuf tb) → BufTy
  | .hbm, ⟨0, _⟩ => ⟨S16384x16x128, .f32⟩
  | .hbm, ⟨1, _⟩ => ⟨S16384x2x128, .i32⟩
  | .hbm, ⟨2, _⟩ => ⟨S16384x16x64, .f32⟩
  | .hbm, ⟨3, _⟩ => ⟨S128x64, .f32⟩
  | .hbm, ⟨4, _⟩ => ⟨S64, .f32⟩
  | .hbm, ⟨5, _⟩ => ⟨S192x64, .f32⟩
  | .hbm, ⟨6, _⟩ => ⟨S192x64, .f32⟩
  | .hbm, ⟨7, _⟩ => ⟨S192, .f32⟩
  | .hbm, ⟨8, _⟩ => ⟨S192, .f32⟩
  | .hbm, ⟨9, _⟩ => ⟨S512x1024, .f32⟩
  | .hbm, ⟨10, _⟩ => ⟨S512, .f32⟩
  | .hbm, ⟨11, _⟩ => ⟨S64x192, .f32⟩
  | .hbm, ⟨12, _⟩ => ⟨S64x192, .f32⟩
  | .hbm, ⟨13, _⟩ => ⟨S1024x512, .f32⟩
  | .hbm, ⟨14, _⟩ => ⟨S16384x512, .f32⟩
  | .hbm, ⟨15, _⟩ => ⟨S16384x1024, .f32⟩
  | .hbm, ⟨16, _⟩ => ⟨S16384x16x64, .f32⟩
  | .local _ .vmem, ⟨0, _⟩ => ⟨S128x16x128, .f32⟩
  | .local _ .vmem, ⟨1, _⟩ => ⟨S128x16x128, .f32⟩
  | .local _ .vmem, ⟨2, _⟩ => ⟨S128x2x128, .i32⟩
  | .local _ .vmem, ⟨3, _⟩ => ⟨S128x2x128, .i32⟩
  | .local _ .vmem, ⟨4, _⟩ => ⟨S128x16x64, .f32⟩
  | .local _ .vmem, ⟨5, _⟩ => ⟨S128x16x64, .f32⟩
  | .local _ .vmem, ⟨6, _⟩ => ⟨S128x64, .f32⟩
  | .local _ .vmem, ⟨7, _⟩ => ⟨S64, .f32⟩
  | .local _ .vmem, ⟨8, _⟩ => ⟨S64x192, .f32⟩
  | .local _ .vmem, ⟨9, _⟩ => ⟨S192, .f32⟩
  | .local _ .vmem, ⟨10, _⟩ => ⟨S64x192, .f32⟩
  | .local _ .vmem, ⟨11, _⟩ => ⟨S192, .f32⟩
  | .local _ .vmem, ⟨12, _⟩ => ⟨S1024x512, .f32⟩
  | .local _ .vmem, ⟨13, _⟩ => ⟨S512, .f32⟩
  | .local _ .vmem, ⟨14, _⟩ => ⟨S128x512, .f32⟩
  | .local _ .vmem, ⟨15, _⟩ => ⟨S128x512, .f32⟩
  | .local _ .vmem, ⟨16, _⟩ => ⟨S128x1024, .f32⟩
  | .local _ .vmem, ⟨17, _⟩ => ⟨S128x1024, .f32⟩
  | _, _ => ⟨S16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S192x64_S64x192_1_0 : S192x64.Transposes [1, 0] S64x192
  transposes_S512x1024_S1024x512_1_0 : S512x1024.Transposes [1, 0] S1024x512
  inb_S128x16x128_S128x16x128_0_0_0 : ∀ a, (![0, 0, 0] : Fin 3 → Nat) a + S128x16x128.size a ≤ S128x16x128.size a
  h_S128x16x128 : 0 < S128x16x128.numel
  inb_S128x2x128_S128x2x128_0_0_0 : ∀ a, (![0, 0, 0] : Fin 3 → Nat) a + S128x2x128.size a ≤ S128x2x128.size a
  h_S128x2x128 : 0 < S128x2x128.numel
  inb_S128x16x64_S128x16x64_0_0_0 : ∀ a, (![0, 0, 0] : Fin 3 → Nat) a + S128x16x64.size a ≤ S128x16x64.size a
  h_S128x16x64 : 0 < S128x16x64.numel
  slices_S128x2x128_o0_0_0_S128x1x128 : S128x2x128.Slices ![0, 0, 0] S128x1x128
  shapeCasts_S128x1x128_S128x128 : S128x1x128.ShapeCasts S128x128
  slices_S128x2x128_o0_1_0_S128x1x128 : S128x2x128.Slices ![0, 1, 0] S128x1x128
  shapeCasts_S128x16x128_S2048x128 : S128x16x128.ShapeCasts S2048x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S2048x64_S128x16x64 : S2048x64.ShapeCasts S128x16x64
  iota_S1x16x1_d1_w32 : S1x16x1.Iotas .tc 32 [1]
  shapeCasts_S128x128_S128x1x128 : S128x128.ShapeCasts S128x1x128
  broadcasts_S128x1x128_S128x16x128 : S128x1x128.Broadcasts S128x16x128
  broadcasts_S1x16x1_S128x16x128 : S1x16x1.Broadcasts S128x16x128
  natLt_1_32 : 1 < 32
  reduces_S128x16x128_S128x16 : S128x16x128.Reduces [2] S128x16
  shapeCasts_S128x16_S128x1x16 : S128x16.ShapeCasts S128x1x16
  concatenates_S128x1x16_S128x1x16_S128x1x16_S128x1x16_S128x1x16_S128x1x16_S128x1x16_S128x1x16_S128x1x16_S128x1x16_S128x1x16_S128x1x16_S128x1x16_S128x1x16_S128x1x16_S128x1x16_S128x16x16_d1 : Shape.Concatenates [S128x1x16, S128x1x16, S128x1x16, S128x1x16, S128x1x16, S128x1x16, S128x1x16, S128x1x16, S128x1x16, S128x1x16, S128x1x16, S128x1x16, S128x1x16, S128x1x16, S128x1x16, S128x1x16] S128x16x16 1
  reduces_S128x16x16_S128x16 : S128x16x16.Reduces [2] S128x16
  shapeCasts_S128x16_S128x16x1 : S128x16.ShapeCasts S128x16x1
  broadcasts_S128x16x1_S128x16x16 : S128x16x1.Broadcasts S128x16x16
  broadcasts_S128x1x16_S128x16x16 : S128x1x16.Broadcasts S128x16x16
  broadcasts_S128x16x1_S128x16x64 : S128x16x1.Broadcasts S128x16x64
  inb_S64_S64_0 : ∀ a, (![0] : Fin 1 → Nat) a + S64.size a ≤ S64.size a
  h_S64 : 0 < S64.numel
  shapeCasts_S64_S1x1x64 : S64.ShapeCasts S1x1x64
  broadcasts_S1x1x64_S128x16x64 : S1x1x64.Broadcasts S128x16x64
  shapeCasts_S128x16x64_S2048x64 : S128x16x64.ShapeCasts S2048x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S192_S192_0 : ∀ a, (![0] : Fin 1 → Nat) a + S192.size a ≤ S192.size a
  h_S192 : 0 < S192.numel
  shapeCasts_S192_S1x192 : S192.ShapeCasts S1x192
  broadcasts_S1x192_S2048x192 : S1x192.Broadcasts S2048x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  slices_S128x16x64_o0_0_0_S128x1x64 : S128x16x64.Slices ![0, 0, 0] S128x1x64
  shapeCasts_S128x1x64_S128x64 : S128x1x64.ShapeCasts S128x64
  slices_S128x16x64_o0_1_0_S128x1x64 : S128x16x64.Slices ![0, 1, 0] S128x1x64
  slices_S128x16x64_o0_2_0_S128x1x64 : S128x16x64.Slices ![0, 2, 0] S128x1x64
  slices_S128x16x64_o0_3_0_S128x1x64 : S128x16x64.Slices ![0, 3, 0] S128x1x64
  slices_S128x16x64_o0_4_0_S128x1x64 : S128x16x64.Slices ![0, 4, 0] S128x1x64
  slices_S128x16x64_o0_5_0_S128x1x64 : S128x16x64.Slices ![0, 5, 0] S128x1x64
  slices_S128x16x64_o0_6_0_S128x1x64 : S128x16x64.Slices ![0, 6, 0] S128x1x64
  slices_S128x16x64_o0_7_0_S128x1x64 : S128x16x64.Slices ![0, 7, 0] S128x1x64
  slices_S128x16x64_o0_8_0_S128x1x64 : S128x16x64.Slices ![0, 8, 0] S128x1x64
  slices_S128x16x64_o0_9_0_S128x1x64 : S128x16x64.Slices ![0, 9, 0] S128x1x64
  slices_S128x16x64_o0_10_0_S128x1x64 : S128x16x64.Slices ![0, 10, 0] S128x1x64
  slices_S128x16x64_o0_11_0_S128x1x64 : S128x16x64.Slices ![0, 11, 0] S128x1x64
  slices_S128x16x64_o0_12_0_S128x1x64 : S128x16x64.Slices ![0, 12, 0] S128x1x64
  slices_S128x16x64_o0_13_0_S128x1x64 : S128x16x64.Slices ![0, 13, 0] S128x1x64
  slices_S128x16x64_o0_14_0_S128x1x64 : S128x16x64.Slices ![0, 14, 0] S128x1x64
  slices_S128x16x64_o0_15_0_S128x1x64 : S128x16x64.Slices ![0, 15, 0] S128x1x64
  concatenates_S128x64_S128x64_S128x64_S128x64_S128x64_S128x64_S128x64_S128x64_S128x64_S128x64_S128x64_S128x64_S128x64_S128x64_S128x64_S128x64_S128x1024_d1 : Shape.Concatenates [S128x64, S128x64, S128x64, S128x64, S128x64, S128x64, S128x64, S128x64, S128x64, S128x64, S128x64, S128x64, S128x64, S128x64, S128x64, S128x64] S128x1024 1
  inb_S128x1024_S128x1024_0_0 : ∀ a, (![0, 0] : Fin 2 → Nat) a + S128x1024.size a ≤ S128x1024.size a
  h_S128x1024 : 0 < S128x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S16384x1024_S16384x16x64 : S16384x1024.ShapeCasts S16384x16x64
  dot_S2048x128_S128x64_S2048x64_1_0_0_1_n_n_wf : DotDims.WF S2048x128 S128x64 S2048x64 [1] [0] [0] [1] [] []
  dot_S128x16x16_S128x16x64_S128x16x64_2_1_1_2_0_0_wf : DotDims.WF S128x16x16 S128x16x64 S128x16x64 [2] [1] [1] [2] [0] [0]
  dot_S2048x64_S64x192_S2048x192_1_0_0_1_n_n_wf : DotDims.WF S2048x64 S64x192 S2048x192 [1] [0] [0] [1] [] []
  dot_S128x1024_S1024x512_S128x512_1_0_0_1_n_n_wf : DotDims.WF S128x1024 S1024x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x128.size a ≤ S16384x16x128.size a
  hwx0_0 : ∀ i : grid0.Coords, EltTy.bits .f32 = 32 ∨ (Rect.block (s := S16384x16x128) S128x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2x128.size a ≤ S16384x2x128.size a
  hwx0_1 : ∀ i : grid0.Coords, EltTy.bits .i32 = 32 ∨ (Rect.block (s := S16384x2x128) S128x2x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x16x64.size a ≤ S16384x16x64.size a
  hwx0_2 : ∀ i : grid0.Coords, EltTy.bits .f32 = 32 ∨ (Rect.block (s := S16384x16x64) S128x16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x192.size a ≤ S64x192.size a
  hwx0_5 : ∀ i : grid0.Coords, EltTy.bits .f32 = 32 ∨ (Rect.block (s := S64x192) S64x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192.size a ≤ S192.size a
  hwx0_6 : ∀ i : grid0.Coords, EltTy.bits .f32 = 32 ∨ (Rect.block (s := S192) S192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x192.size a ≤ S64x192.size a
  hwx0_7 : ∀ i : grid0.Coords, EltTy.bits .f32 = 32 ∨ (Rect.block (s := S64x192) S64x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192.size a ≤ S192.size a
  hwx0_8 : ∀ i : grid0.Coords, EltTy.bits .f32 = 32 ∨ (Rect.block (s := S192) S192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S1024x512.size a
  hwx0_9 : ∀ i : grid0.Coords, EltTy.bits .f32 = 32 ∨ (Rect.block (s := S1024x512) S1024x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S16384x512.size a
  hwx0_11 : ∀ i : grid0.Coords, EltTy.bits .f32 = 32 ∨ (Rect.block (s := S16384x512) S128x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1024.size a ≤ S16384x1024.size a
  hwx0_12 : ∀ i : grid0.Coords, EltTy.bits .f32 = 32 ∨ (Rect.block (s := S16384x1024) S128x1024.size (cc0_transform_12 i) (hinb0_12 i)).WholeWords (EltTy.packing .f32)

variable [Facts₀]

def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S128x16x16_S128x16x64_S128x16x64_2_1_1_2_0_0 : DotDims S128x16x16 S128x16x64 S128x16x64 where
  lhsContracting := [2]
  rhsContracting := [1]
  lhsNonContracting := [1]
  rhsNonContracting := [2]
  lhsBatch := [0]
  rhsBatch := [0]
  wf := dot_S128x16x16_S128x16x64_S128x16x64_2_1_1_2_0_0_wf
def dot_S2048x64_S64x192_S2048x192_1_0_0_1_n_n : DotDims S2048x64 S64x192 S2048x192 where
  lhsContracting := [1]
  rhsContracting := [0]
  lhsNonContracting := [0]
  rhsNonContracting := [1]
  lhsBatch := []
  rhsBatch := []
  wf := dot_S2048x64_S64x192_S2048x192_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf

abbrev win0_0 : Pipeline.Window sig grid0 :=
  Pipeline.Window.ofSpec (Memref.whole main_arg0) S128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S64x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S1024x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3_0) S128x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3_1) S128x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x16x128 : Shape := ⟨3, ![16384, 16, 128]⟩
abbrev S16384x2x128 : Shape := ⟨3, ![16384, 2, 128]⟩
abbrev S16384x16x64 : Shape := ⟨3, ![16384, 16, 64]⟩
abbrev S128x64 : Shape := ⟨2, ![128, 64]⟩
abbrev S64 : Shape := ⟨1, ![64]⟩
abbrev S192x64 : Shape := ⟨2, ![192, 64]⟩
abbrev S192 : Shape := ⟨1, ![192]⟩
abbrev S512x1024 : Shape := ⟨2, ![512, 1024]⟩
abbrev S512 : Shape := ⟨1, ![512]⟩
abbrev S262144x128 : Shape := ⟨2, ![262144, 128]⟩
abbrev S16384 : Shape := ⟨1, ![16384]⟩
abbrev S_ : Shape := ⟨0, ![]⟩
abbrev S16384x1x1 : Shape := ⟨3, ![16384, 1, 1]⟩
abbrev S16384x1x128 : Shape := ⟨3, ![16384, 1, 128]⟩
abbrev S16384x128 : Shape := ⟨2, ![16384, 128]⟩
abbrev S2097152 : Shape := ⟨1, ![2097152]⟩
abbrev S262144x64 : Shape := ⟨2, ![262144, 64]⟩
abbrev S262144 : Shape := ⟨1, ![262144]⟩
abbrev S2097152x1 : Shape := ⟨2, ![2097152, 1]⟩
abbrev S2097152x64 : Shape := ⟨2, ![2097152, 64]⟩
abbrev S262144x1 : Shape := ⟨2, ![262144, 1]⟩
abbrev S1x64 : Shape := ⟨2, ![1, 64]⟩
abbrev S64x192 : Shape := ⟨2, ![64, 192]⟩
abbrev S262144x192 : Shape := ⟨2, ![262144, 192]⟩
abbrev S1x192 : Shape := ⟨2, ![1, 192]⟩
abbrev S16384x1024 : Shape := ⟨2, ![16384, 1024]⟩
abbrev S1024x512 : Shape := ⟨2, ![1024, 512]⟩
abbrev S16384x512 : Shape := ⟨2, ![16384, 512]⟩
abbrev S1x512 : Shape := ⟨2, ![1, 512]⟩

abbrev nBuf : Space → Nat
  | .hbm => 136
  | .vmem => 0
  | .smem => 0
  | _ => 0

abbrev hbmTy0_0 (i : Nat) : BufTy := match i % 128 with
  | 0 => ⟨S16384x16x128, .f32⟩
  | 1 => ⟨S16384x2x128, .i32⟩
  | 2 => ⟨S16384x16x64, .f32⟩
  | 3 => ⟨S128x64, .f32⟩
  | 4 => ⟨S64, .f32⟩
  | 5 => ⟨S192x64, .f32⟩
  | 6 => ⟨S192x64, .f32⟩
  | 7 => ⟨S192, .f32⟩
  | 8 => ⟨S192, .f32⟩
  | 9 => ⟨S512x1024, .f32⟩
  | 10 => ⟨S512, .f32⟩
  | 11 => ⟨S262144x128, .f32⟩
  | 12 => ⟨S16384, .i32⟩
  | 13 => ⟨S_, .i32⟩
  | 14 => ⟨S16384, .i32⟩
  | 15 => ⟨S16384, .i32⟩
  | 16 => ⟨S16384x1x1, .i32⟩
  | 17 => ⟨S16384x2x128, .i32⟩
  | 18 => ⟨S16384x2x128, .i32⟩
  | 19 => ⟨S16384x1x128, .i32⟩
  | 20 => ⟨S16384x128, .i32⟩
  | 21 => ⟨S2097152, .i32⟩
  | 22 => ⟨S16384x1x128, .i32⟩
  | 23 => ⟨S16384x128, .i32⟩
  | 24 => ⟨S2097152, .i32⟩
  | 25 => ⟨S262144x64, .f32⟩
  | 26 => ⟨S_, .f32⟩
  | 27 => ⟨S2097152, .f32⟩
  | 28 => ⟨S_, .f32⟩
  | 29 => ⟨S262144, .f32⟩
  | 30 => ⟨S_, .f32⟩
  | 31 => ⟨S262144, .f32⟩
  | 32 => ⟨S2097152x1, .i32⟩
  | 33 => ⟨S262144, .f32⟩
  | 34 => ⟨S262144, .f32⟩
  | 35 => ⟨S262144, .f32⟩
  | 36 => ⟨S_, .i32⟩
  | 37 => ⟨S2097152, .i32⟩
  | 38 => ⟨S2097152, .i1⟩
  | 39 => ⟨S_, .i32⟩
  | 40 => ⟨S2097152, .i32⟩
  | 41 => ⟨S2097152, .i32⟩
  | 42 => ⟨S2097152, .i32⟩
  | 43 => ⟨S2097152x1, .i32⟩
  | 44 => ⟨S2097152, .f32⟩
  | 45 => ⟨S_, .i32⟩
  | 46 => ⟨S2097152, .i32⟩
  | 47 => ⟨S2097152, .i1⟩
  | 48 => ⟨S_, .i32⟩
  | 49 => ⟨S2097152, .i32⟩
  | 50 => ⟨S2097152, .i32⟩
  | 51 => ⟨S2097152, .i32⟩
  | 52 => ⟨S2097152x1, .i32⟩
  | 53 => ⟨S2097152, .f32⟩
  | 54 => ⟨S2097152, .f32⟩
  | 55 => ⟨S2097152x1, .f32⟩
  | 56 => ⟨S_, .i32⟩
  | 57 => ⟨S2097152, .i32⟩
  | 58 => ⟨S2097152, .i1⟩
  | 59 => ⟨S_, .i32⟩
  | 60 => ⟨S2097152, .i32⟩
  | 61 => ⟨S2097152, .i32⟩
  | 62 => ⟨S2097152, .i32⟩
  | 63 => ⟨S2097152x1, .i32⟩
  | 64 => ⟨S2097152x64, .f32⟩
  | 65 => ⟨S2097152x64, .f32⟩
  | 66 => ⟨S2097152x64, .f32⟩
  | 67 => ⟨S_, .f32⟩
  | 68 => ⟨S262144x64, .f32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S2097152x1, .i32⟩
  | 77 => ⟨S262144x64, .f32⟩
  | 78 => ⟨S262144x1, .f32⟩
  | 79 => ⟨S262144x64, .f32⟩
  | 80 => ⟨S262144x64, .f32⟩
  | 81 => ⟨S262144x64, .f32⟩
  | 82 => ⟨S1x64, .f32⟩
  | 83 => ⟨S262144x64, .f32⟩
  | 84 => ⟨S262144x64, .f32⟩
  | 85 => ⟨S262144x64, .f32⟩
  | 86 => ⟨S64x192, .f32⟩
  | 87 => ⟨S262144x192, .f32⟩
  | 88 => ⟨S1x192, .f32⟩
  | 89 => ⟨S262144x192, .f32⟩
  | 90 => ⟨S262144x192, .f32⟩
  | 91 => ⟨S64x192, .f32⟩
  | 92 => ⟨S262144x192, .f32⟩
  | 93 => ⟨S1x192, .f32⟩
  | 94 => ⟨S262144x192, .f32⟩
  | 95 => ⟨S262144x192, .f32⟩
  | 96 => ⟨S262144x64, .f32⟩
  | 97 => ⟨S262144x64, .f32⟩
  | 98 => ⟨S262144x64, .f32⟩
  | 99 => ⟨S262144x64, .f32⟩
  | 100 => ⟨S262144x64, .f32⟩
  | 101 => ⟨S262144x64, .f32⟩
  | 102 => ⟨S262144x64, .f32⟩
  | 103 => ⟨S262144x64, .f32⟩
  | 104 => ⟨S262144x64, .f32⟩
  | 105 => ⟨S_, .f32⟩
  | 106 => ⟨S262144x64, .f32⟩
  | 107 => ⟨S262144x64, .f32⟩
  | 108 => ⟨S_, .f32⟩
  | 109 => ⟨S262144x64, .f32⟩
  | 110 => ⟨S262144x64, .f32⟩
  | 111 => ⟨S262144x64, .f32⟩
  | 112 => ⟨S262144x64, .f32⟩
  | 113 => ⟨S262144x64, .f32⟩
  | 114 => ⟨S_, .f32⟩
  | 115 => ⟨S262144x64, .f32⟩
  | 116 => ⟨S262144x64, .f32⟩
  | 117 => ⟨S_, .f32⟩
  | 118 => ⟨S262144x64, .f32⟩
  | 119 => ⟨S262144x64, .f32⟩
  | 120 => ⟨S262144x64, .f32⟩
  | 121 => ⟨S262144x64, .f32⟩
  | 122 => ⟨S262144x64, .f32⟩
  | 123 => ⟨S_, .f32⟩
  | 124 => ⟨S262144x64, .f32⟩
  | 125 => ⟨S262144x64, .f32⟩
  | 126 => ⟨S262144x64, .f32⟩
  | 127 => ⟨S262144x64, .f32⟩
  | _ => ⟨S16384x16x128, .f32⟩

abbrev hbmTy0_1 (i : Nat) : BufTy := match i % 128 with
  | 0 => ⟨S262144x64, .f32⟩
  | 1 => ⟨S16384x1024, .f32⟩
  | 2 => ⟨S1024x512, .f32⟩
  | 3 => ⟨S16384x512, .f32⟩
  | 4 => ⟨S1x512, .f32⟩
  | 5 => ⟨S16384x512, .f32⟩
  | 6 => ⟨S16384x512, .f32⟩
  | 7 => ⟨S16384x16x64, .f32⟩
  | _ => ⟨S16384x16x128, .f32⟩

abbrev hbmTy (i : Nat) : BufTy := match i / 128 with
  | 0 => hbmTy0_0 i
  | 1 => hbmTy0_1 i
  | _ => ⟨S16384x16x128, .f32⟩

abbrev bufTy : (tb : Table) → Fin (tcTables nBuf tb) → BufTy
  | .hbm, ⟨i, _⟩ => hbmTy i
  | _, _ => ⟨S16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_8 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_11 : Ref sig .tc := ⟨.hbm, 105, rfl⟩
abbrev main_v81 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_cst_14 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_15 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩

abbrev nD : Nat := 1
abbrev τ : Topo := Topo.v7x

variable {F : FTy → Type} [FloatOps F]

class Facts₀ : Prop where
  shapeCasts_S16384x16x128_S262144x128 : S16384x16x128.ShapeCasts S262144x128
  bcast_S_S16384 : S_.BroadcastsInDim S16384 (![] : Fin 0 → Fin S16384.rank)
  bcast_S16384_S16384x1x1_0 : S16384.BroadcastsInDim S16384x1x1 (![0] : Fin 1 → Fin S16384x1x1.rank)
  bcast_S16384x1x1_S16384x2x128_0_1_2 : S16384x1x1.BroadcastsInDim S16384x2x128 (![0, 1, 2] : Fin 3 → Fin S16384x2x128.rank)
  slices_S16384x2x128_S16384x1x128_0_0_0 : S16384x2x128.Slices ![0, 0, 0] S16384x1x128
  shapeCasts_S16384x1x128_S16384x128 : S16384x1x128.ShapeCasts S16384x128
  shapeCasts_S16384x128_S2097152 : S16384x128.ShapeCasts S2097152
  slices_S16384x2x128_S16384x1x128_0_1_0 : S16384x2x128.Slices ![0, 1, 0] S16384x1x128
  bcast_S_S2097152 : S_.BroadcastsInDim S2097152 (![] : Fin 0 → Fin S2097152.rank)
  bcast_S_S262144 : S_.BroadcastsInDim S262144 (![] : Fin 0 → Fin S262144.rank)
  bcast_S2097152_S2097152x1_0 : S2097152.BroadcastsInDim S2097152x1 (![0] : Fin 1 → Fin S2097152x1.rank)
  bcast_S2097152x1_S2097152x64_0_1 : S2097152x1.BroadcastsInDim S2097152x64 (![0, 1] : Fin 2 → Fin S2097152x64.rank)
  bcast_S_S262144x64 : S_.BroadcastsInDim S262144x64 (![] : Fin 0 → Fin S262144x64.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  shapeCasts_S16384x16x64_S262144x64 : S16384x16x64.ShapeCasts S262144x64
  transposes_S192x64_S64x192_1_0 : S192x64.Transposes [1, 0] S64x192
  bcast_S192_S1x192_1 : S192.BroadcastsInDim S1x192 (![1] : Fin 1 → Fin S1x192.rank)
  bcast_S1x192_S262144x192_0_1 : S1x192.BroadcastsInDim S262144x192 (![0, 1] : Fin 2 → Fin S262144x192.rank)
  slices_S262144x192_S262144x64_0_0 : S262144x192.Slices ![0, 0] S262144x64
  slices_S262144x192_S262144x64_0_64 : S262144x192.Slices ![0, 64] S262144x64
  slices_S262144x192_S262144x64_0_128 : S262144x192.Slices ![0, 128] S262144x64
  shapeCasts_S262144x64_S16384x1024 : S262144x64.ShapeCasts S16384x1024
  transposes_S512x1024_S1024x512_1_0 : S512x1024.Transposes [1, 0] S1024x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  shapeCasts_S262144x64_S16384x16x64 : S262144x64.ShapeCasts S16384x16x64
  dot_S262144x128_S128x64_S262144x64_1_0_0_1_n_n_wf : DotDims.WF S262144x128 S128x64 S262144x64 [1] [0] [0] [1] [] []
  scatter_S262144_S2097152x1_S2097152_n_0_0_1_wf : ScatterDims.WF S262144 S2097152x1 S2097152 [] [0] [0] 1
  gather_S262144_S2097152x1_S2097152_n_0_n_n_0_1_1_wf : GatherDims.WF S262144 S2097152x1 S2097152 [] [0] [] [0] [] 1 ![1]
  gather_S262144x64_S2097152x1_S2097152x64_1_0_n_n_0_1_164_wf : GatherDims.WF S262144x64 S2097152x1 S2097152x64 [1] [0] [] [0] [] 1 ![1, 64]
  scatter_S262144x64_S2097152x1_S2097152x64_1_0_0_1_wf : ScatterDims.WF S262144x64 S2097152x1 S2097152x64 [1] [0] [0] 1
  dot_S262144x64_S64x192_S262144x192_1_0_0_1_n_n_wf : DotDims.WF S262144x64 S64x192 S262144x192 [1] [0] [0] [1] [] []
  dot_S16384x1024_S1024x512_S16384x512_1_0_0_1_n_n_wf : DotDims.WF S16384x1024 S1024x512 S16384x512 [1] [0] [0] [1] [] []

variable [Facts₀]

def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def gather_S262144_S2097152x1_S2097152_n_0_n_n_0_1_1 : GatherDims S262144 S2097152x1 S2097152 where
  offsetDims := []
  collapsedSliceDims := [0]
  operandBatchingDims := []
  startIndicesBatchingDims := []
  startIndexMap := [0]
  indexVectorDim := 1
  sliceSizes := ![1]
  wf := gather_S262144_S2097152x1_S2097152_n_0_n_n_0_1_1_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S262144x64_S64x192_S262144x192_1_0_0_1_n_n : DotDims S262144x64 S64x192 S262144x192 where
  lhsContracting := [1]
  rhsContracting := [0]
  lhsNonContracting := [0]
  rhsNonContracting := [1]
  lhsBatch := []
  rhsBatch := []
  wf := dot_S262144x64_S64x192_S262144x192_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.KNames.lean ====
/-
  Names for the kernel body's intermediate values as functions of the loaded blocks: the [128, 16, 16] matrix of edge
  counts, the [128, 16] degrees, the [128, 16, 64] aggregation and the [128, 16, 64] new hidden state of a block of 128
  environments.  Each is the printed body's own term; the names only keep the long argument lists in one place.
-/
import proofs.«418072_j41214506172575_3_alg».proof.Proof.Gen.KernelIdeal.Skeleton

noncomputable section

namespace Cert.KernelIdeal.Hand

open Cert.KernelIdeal Cert.KernelIdeal.Gen Idealize.ShloMosaic Idealize.ShloMosaic.TcCoe

variable {F : FTy → Type} [FloatOps F]

/-- The node numbers 0..15 along the middle axis, as the body builds them. -/
abbrev nodeIota : IVec S1x16x1 32 := iota .tc S1x16x1 32 [1] iota_S1x16x1_d1_w32

/-- The matrix of edge counts of a block: entry (b, n, m) counts the edges of environment b from m to n. -/
def Mcnt (v1 : Vec F S128x2x128 .i32) : FVec F S128x16x16 .f32 :=
  k0_pay23 (k0_pay4 v1) nodeIota (k0_pay5 v1) (k0_pay6 v1) (k0_pay9 (F := F) k0_pay7 (k0_pay8 v1))
    (k0_pay10 (F := F) (k0_pay4 v1) nodeIota) (k0_pay11 (F := F) (k0_pay4 v1) nodeIota) (k0_pay12 (F := F) (k0_pay4 v1) nodeIota)
    (k0_pay13 (F := F) (k0_pay4 v1) nodeIota) (k0_pay16 (F := F) (k0_pay14 nodeIota) (k0_pay15 (k0_pay4 v1)))
    (k0_pay17 (F := F) (k0_pay4 v1) nodeIota) (k0_pay18 (F := F) (k0_pay4 v1) nodeIota) (k0_pay19 (F := F) (k0_pay4 v1) nodeIota)
    (k0_pay20 (F := F) (k0_pay4 v1) nodeIota) (k0_pay21 nodeIota) (k0_pay22 (k0_pay4 v1))

/-- The degrees of a block: one plus the row sums of the matrix of edge counts. -/
def Deg (v1 : Vec F S128x2x128 .i32) : FVec F S128x16 .f32 :=
  k0_pay24 (k0_pay4 v1) nodeIota (k0_pay5 v1) (k0_pay6 v1) (k0_pay9 (F := F) k0_pay7 (k0_pay8 v1))
    (k0_pay10 (F := F) (k0_pay4 v1) nodeIota) (k0_pay11 (F := F) (k0_pay4 v1) nodeIota) (k0_pay12 (F := F) (k0_pay4 v1) nodeIota)
    (k0_pay13 (F := F) (k0_pay4 v1) nodeIota) (k0_pay16 (F := F) (k0_pay14 nodeIota) (k0_pay15 (k0_pay4 v1)))
    (k0_pay17 (F := F) (k0_pay4 v1) nodeIota) (k0_pay18 (F := F) (k0_pay4 v1) nodeIota) (k0_pay19 (F := F) (k0_pay4 v1) nodeIota)
    (k0_pay20 (F := F) (k0_pay4 v1) nodeIota) (k0_pay21 nodeIota) (k0_pay22 (k0_pay4 v1))

/-- The aggregation of a block: the normalised matrix of edge counts times the products v12. -/
def Agg (v12 : FVec F S128x16x64 .f32) (v1 : Vec F S128x2x128 .i32) : FVec F S128x16x64 .f32 :=
  k0_pay25 v12 (k0_pay4 v1) nodeIota (k0_pay5 v1) (k0_pay6 v1) (k0_pay9 (F := F) k0_pay7 (k0_pay8 v1))
    (k0_pay10 (F := F) (k0_pay4 v1) nodeIota) (k0_pay11 (F := F) (k0_pay4 v1) nodeIota) (k0_pay12 (F := F) (k0_pay4 v1) nodeIota)
    (k0_pay13 (F := F) (k0_pay4 v1) nodeIota) (k0_pay16 (F := F) (k0_pay14 nodeIota) (k0_pay15 (k0_pay4 v1)))
    (k0_pay17 (F := F) (k0_pay4 v1) nodeIota) (k0_pay18 (F := F) (k0_pay4 v1) nodeIota) (k0_pay19 (F := F) (k0_pay4 v1) nodeIota)
    (k0_pay20 (F := F) (k0_pay4 v1) nodeIota) (k0_pay21 nodeIota) (k0_pay22 (k0_pay4 v1))

/-- The new hidden state of a block, from the eleven loaded blocks the body reads before it. -/
def Hnew (x0 : Vec F S128x16x128 .f32) (x1 : Vec F S128x2x128 .i32) (x2 : Vec F S128x16x64 .f32) (x3 : Vec F S128x64 .f32)
    (x4 : Vec F S64 .f32) (x5 : Vec F S64x192 .f32) (x6 : Vec F S192 .f32) (x7 : Vec F S64x192 .f32) (x8 : Vec F S192 .f32) :
    FVec F S128x16x64 .f32 :=
  k0_pay26 x2 (k0_pay3 x0 x3) (Deg x1) (Agg (k0_pay3 x0 x3) x1) x4 x5 x7 x6 x8

/-- Node 0's slice of the new hidden state, as the body takes it before laying the sixteen side by side. -/
def Hnew0 (x0 : Vec F S128x16x128 .f32) (x1 : Vec F S128x2x128 .i32) (x2 : Vec F S128x16x64 .f32) (x3 : Vec F S128x64 .f32)
    (x4 : Vec F S64 .f32) (x5 : Vec F S64x192 .f32) (x6 : Vec F S192 .f32) (x7 : Vec F S64x192 .f32) (x8 : Vec F S192 .f32) :
    FVec F S128x64 .f32 :=
  k0_pay27 x2 (k0_pay3 x0 x3) (Deg x1) (Agg (k0_pay3 x0 x3) x1) x4 x5 x7 x6 x8

end Cert.KernelIdeal.Hand

end
-- ==== Proof.Spec.lean ====
/-
  The value both programs compute, one environment at a time.

  An environment has 16 nodes with 128 input features each, 128 directed edges (a source "row" and a target "col" per
  edge, both node numbers in [0, 16)), and a hidden state of 64 numbers per node.  The graph convolution multiplies the
  features by a [128, 64] weight, adds for every edge the source's product scaled by 1/sqrt(deg source * deg target)
  to the target, adds the node's own product divided by its degree (a self loop) and a bias; deg n is one plus the
  number of edges whose target is n.  A GRU step (gates r, z, n in that order) of the convolution's output against the
  previous hidden state follows, and a linear head over the 16 new hidden states laid side by side.

  The aggregation is written twice: over the 16 x 16 matrix of edge counts, cnt n m = the number of edges from m to n
  (the sum over sources m of (cnt n m * dinv n * dinv m) times the source's product), and edge by edge (the sum over the
  edges into n of (dinv source * dinv target) times the source's product).
-/
import Idealize.ShloMosaic.PureOps.Ideal
import Idealize.ShloMosaic.Lib.ValueIdx

noncomputable section

namespace Cert.Gnn

open Idealize.ShloMosaic Idealize.ShloMosaic.ValueIdx

/-! ## One environment -/

/-- The features times the convolution's weight: node n, output feature j. -/
def xw (xE : Fin 16 → Fin 128 → EReal) (Wg : Fin 128 → Fin 64 → EReal) (n : Fin 16) (j : Fin 64) : EReal :=
  ∑ k : Fin 128, xE n k * Wg k j

/-- The pair number of an edge: 16 * target + source, as a 32-bit word. -/
def pid (rowE colE : Fin 128 → BitVec 32) (e : Fin 128) : BitVec 32 := colE e * 16#32 + rowE e

/-- The number of edges from node m to node n, as an extended real. -/
def cnt (rowE colE : Fin 128 → BitVec 32) (n m : Fin 16) : EReal :=
  ∑ e : Fin 128, if pid rowE colE e = BitVec.ofNat 32 (16 * n.val + m.val) then (1 : EReal) else 0

/-- One plus the number of edges into node n. -/
def deg (rowE colE : Fin 128 → BitVec 32) (n : Fin 16) : EReal := 1 + ∑ m : Fin 16, cnt rowE colE n m

/-- The reciprocal square root of the degree. -/
def dinv (rowE colE : Fin 128 → BitVec 32) (n : Fin 16) : EReal := Ideal.rsqrt (deg rowE colE n)

/-- The normalised sum over the sources of node n, over the matrix of edge counts. -/
def agg (rowE colE : Fin 128 → BitVec 32) (xwE : Fin 16 → Fin 64 → EReal) (n : Fin 16) (j : Fin 64) : EReal :=
  ∑ m : Fin 16, ((cnt rowE colE n m * dinv rowE colE n) * dinv rowE colE m) * xwE m j

/-- The graph convolution's output: aggregation, self loop, bias. -/
def gcn (rowE colE : Fin 128 → BitVec 32) (xwE : Fin 16 → Fin 64 → EReal) (bg : Fin 64 → EReal) (n : Fin 16) (j : Fin 64) : EReal :=
  (agg rowE colE xwE n j + Ideal.div (xwE n j) (deg rowE colE n)) + bg j

/-- The node a 32-bit word names (the word itself when it is below 16). -/
def nodeOf (w : BitVec 32) : Fin 16 := ⟨w.toNat % 16, Nat.mod_lt _ (by decide)⟩

/-- One plus the number of edges into node n, edge by edge. -/
def degEdge (colE : Fin 128 → BitVec 32) (n : Fin 16) : EReal :=
  1 + ∑ e : Fin 128, if nodeOf (colE e) = n then (1 : EReal) else 0

/-- The normalised sum over the edges into node n, edge by edge. -/
def aggEdge (rowE colE : Fin 128 → BitVec 32) (xwE : Fin 16 → Fin 64 → EReal) (n : Fin 16) (j : Fin 64) : EReal :=
  ∑ e : Fin 128, if nodeOf (colE e) = n then
      (Ideal.rsqrt (degEdge colE (nodeOf (rowE e))) * Ideal.rsqrt (degEdge colE (nodeOf (colE e)))) * xwE (nodeOf (rowE e)) j
    else 0

/-- The graph convolution's output, edge by edge. -/
def gcnEdge (rowE colE : Fin 128 → BitVec 32) (xwE : Fin 16 → Fin 64 → EReal) (bg : Fin 64 → EReal) (n : Fin 16) (j : Fin 64) : EReal :=
  (aggEdge rowE colE xwE n j + Ideal.div (xwE n j) (degEdge colE n)) + bg j

/-! ## One node's GRU step -/

/-- A GRU pre-activation of one node: 64 inputs against a transposed [64, 192] weight, plus a bias. -/
def gates (u : Fin 64 → EReal) (WT : Fin 64 → Fin 192 → EReal) (b : Fin 192 → EReal) (g : Fin 192) : EReal :=
  (∑ j : Fin 64, u j * WT j g) + b g

/-- Column q of gate s (0 = r, 1 = z, 2 = n) among the 192 stacked gate columns. -/
def gcol (s : Fin 3) (q : Fin 64) : Fin 192 := ⟨64 * s.val + q.val, by have := s.isLt; have := q.isLt; omega⟩

/-- One node's GRU step from the pre-activations gx (input side) and gh (hidden side) and the previous state. -/
def gru (gx gh : Fin 192 → EReal) (hN : Fin 64 → EReal) (q : Fin 64) : EReal :=
  (1 - Ideal.logistic (gx (gcol 1 q) + gh (gcol 1 q)))
      * Ideal.tanh (gx (gcol 2 q) + Ideal.logistic (gx (gcol 0 q) + gh (gcol 0 q)) * gh (gcol 2 q))
    + Ideal.logistic (gx (gcol 1 q) + gh (gcol 1 q)) * hN q

/-- The new hidden state of one environment. -/
def hnew (xE : Fin 16 → Fin 128 → EReal) (rowE colE : Fin 128 → BitVec 32) (hE : Fin 16 → Fin 64 → EReal)
    (Wg : Fin 128 → Fin 64 → EReal) (bg : Fin 64 → EReal) (WihT WhhT : Fin 64 → Fin 192 → EReal) (bih bhh : Fin 192 → EReal)
    (n : Fin 16) (q : Fin 64) : EReal :=
  gru (gates (gcn rowE colE (xw xE Wg) bg n) WihT bih) (gates (hE n) WhhT bhh) (hE n) q

/-- Position k of the 16 hidden states laid side by side: node k / 64, feature k % 64. -/
def hcat (hn : Fin 16 → Fin 64 → EReal) (k : Fin 1024) : EReal :=
  hn ⟨k.val / 64, by have := k.isLt; omega⟩ ⟨k.val % 64, Nat.mod_lt _ (by decide)⟩

/-- The linear head of one environment: the 1024 laid-out hidden numbers against a transposed [1024, 512] weight, plus a bias. -/
def logit (hn : Fin 16 → Fin 64 → EReal) (WlinT : Fin 1024 → Fin 512 → EReal) (blin : Fin 512 → EReal) (o : Fin 512) : EReal :=
  (∑ k : Fin 1024, hcat hn k * WlinT k o) + blin o

/-! ## Whole arrays -/

/-- A rank-2 array as a function of two coordinates, and transposed. -/
def mat {r c : Nat} (W : (⟨2, ![r, c]⟩ : Shape).Idx → EReal) (a : Fin r) (b : Fin c) : EReal := W (ix2 a b)
def matT {r c : Nat} (W : (⟨2, ![r, c]⟩ : Shape).Idx → EReal) (a : Fin c) (b : Fin r) : EReal := W (ix2 b a)
/-- A rank-1 array as a function of its coordinate. -/
def vec {n : Nat} (v : (⟨1, ![n]⟩ : Shape).Idx → EReal) (a : Fin n) : EReal := v (ix1 a)

/-- Environment b's slices of rank-3 arrays [B, ·, ·]. -/
def envF {B p q : Nat} (x : (⟨3, ![B, p, q]⟩ : Shape).Idx → EReal) (b : Fin B) (n : Fin p) (k : Fin q) : EReal := x (ix3 b n k)
def envRow {B : Nat} (ei : (⟨3, ![B, 2, 128]⟩ : Shape).Idx → BitVec 32) (b : Fin B) (e : Fin 128) : BitVec 32 := ei (ix3 b 0 e)
def envCol {B : Nat} (ei : (⟨3, ![B, 2, 128]⟩ : Shape).Idx → BitVec 32) (b : Fin B) (e : Fin 128) : BitVec 32 := ei (ix3 b 1 e)

/-- The new hidden state of environment b of a batch of B environments. -/
def hnewB {B : Nat} (x : (⟨3, ![B, 16, 128]⟩ : Shape).Idx → EReal) (ei : (⟨3, ![B, 2, 128]⟩ : Shape).Idx → BitVec 32)
    (h : (⟨3, ![B, 16, 64]⟩ : Shape).Idx → EReal) (Wg : (⟨2, ![128, 64]⟩ : Shape).Idx → EReal) (bg : (⟨1, ![64]⟩ : Shape).Idx → EReal)
    (WihT WhhT : (⟨2, ![64, 192]⟩ : Shape).Idx → EReal) (bih bhh : (⟨1, ![192]⟩ : Shape).Idx → EReal)
    (b : Fin B) (n : Fin 16) (q : Fin 64) : EReal :=
  hnew (envF x b) (envRow ei b) (envCol ei b) (envF h b) (mat Wg) (vec bg) (mat WihT) (mat WhhT) (vec bih) (vec bhh) n q

end Cert.Gnn

end
-- ==== Proof.KCount.lean ====
/-
  The kernel's edge counts and degrees of a block of 128 environments, read at an index.

  The body builds the pair number 16 * target + source of every edge, compares it, for each target node n, with the
  sixteen numbers 16 n + m, and counts the matches along the edge axis: row n of the matrix of edge counts.  The sixteen
  rows are laid one under another, and a node's degree is one plus its row's sum.  Read at an index these are the
  specification's pid, cnt and deg of the environment's edges.
-/
import proofs.«418072_j41214506172575_3_alg».proof.Proof.KNames
import proofs.«418072_j41214506172575_3_alg».proof.Proof.Spec
import Idealize.ShloMosaic.PureOps.Ideal.Laws
import Idealize.ShloMosaic.Lib.ValueLayout
import Idealize.ShloMosaic.Lib.IdealHost

noncomputable section

namespace Cert.KernelIdeal.Hand

open Cert.KernelIdeal Cert.KernelIdeal.Gen Idealize.ShloMosaic Idealize.ShloMosaic.TcCoe Idealize.ShloMosaic.ValueIdx

/-- A 32-bit equality test, widened and converted, is the indicator of the equality. -/
theorem sitofp_cmpi_eq (a b : BitVec 32) :
    FloatOps.sitofp (F := Ideal) .f32 ((IntOp.cmpi .eq a b).setWidth 32) = if a = b then (1 : EReal) else 0 := by
  unfold IntOp.cmpi
  by_cases h : a = b
  · subst h
    simp only [beq_self_eq_true, BitVec.ofBool_true, BitVec.setWidth_one, if_true]
    show (((1#32 : BitVec 32).toInt : ℝ) : EReal) = 1
    rw [show (1#32 : BitVec 32).toInt = 1 by decide]
    simp
  · have hb : (a == b) = false := by simpa using h
    rw [hb, if_neg h]
    show ((((BitVec.ofBool false).setWidth 32 : BitVec 32).toInt : ℝ) : EReal) = 0
    rw [show ((BitVec.ofBool false).setWidth 32 : BitVec 32).toInt = 0 by decide]
    simp

/-- One row of the count matrix: the words pv compared with the targets tv spread over environments and edges, the
    matches counted along the edge axis. -/
def countRow (pv : IVec S128x16x128 32) (tv : IVec S1x16x1 32) : FVec Ideal S128x1x16 .f32 :=
  shapeCast S128x1x16
    (multiReduction (F := Ideal) .add [2] S128x16
      (sitofp .f32 (extui 32 (cmpi .eq pv (broadcastTo S128x16x128 tv broadcasts_S1x16x1_S128x16x128)) natLt_1_32))
      0x00000000#32 reduces_S128x16x128_S128x16 (.inl rfl) rfl)
    shapeCasts_S128x16_S128x1x16

/-- A count row at (bb, 0, m) is the number of edges e whose word at (bb, m, e) is target m. -/
theorem countRow_apply (pv : IVec S128x16x128 32) (tv : IVec S1x16x1 32) (bb : Fin 128) (m : Fin 16) :
    countRow pv tv (ix3 bb 0 m)
      = ∑ e : Fin 128, if pv (ix3 bb m e) = tv (ix3 0 m 0) then (1 : EReal) else 0 := by
  unfold countRow
  refine (shapeCast_apply _ shapeCasts_S128x16_S128x1x16 (ix3 bb 0 m) (ix2 bb m) ?_).trans ?_
  · rw [Shape.rowMajor_val_two, Shape.rowMajor_val_three]
    show bb.val * 16 + m.val = (bb.val * 1 + 0) * 16 + m.val
    omega
  refine (Ideal.multiReduction_add_single _ 0x00000000#32 reduces_S128x16x128_S128x16 (.inl rfl) rfl (ix2 bb m)).trans ?_
  show ∑ e : Fin 128, _ = _
  refine Finset.sum_congr rfl fun e _ => ?_
  have hl : reduces_S128x16x128_S128x16.lift (ix2 bb m) e = ix3 bb m e := by
    funext c
    match c with
    | ⟨0, _⟩ => rfl
    | ⟨1, _⟩ => rfl
    | ⟨2, _⟩ => rfl
  rw [hl]
  show FloatOps.sitofp (F := Ideal) .f32 ((IntOp.cmpi .eq (pv (ix3 bb m e))
      (broadcastTo S128x16x128 tv broadcasts_S1x16x1_S128x16x128 (ix3 bb m e))).setWidth 32) = _
  rw [sitofp_cmpi_eq, broadcastTo_apply tv broadcasts_S1x16x1_S128x16x128 (ix3 bb m e) (ix3 0 m 0) (fun a => by
    match a with
    | ⟨0, _⟩ => rfl
    | ⟨1, _⟩ => rfl
    | ⟨2, _⟩ => rfl)]

/-! ## The pair numbers -/

/-- The sources' slice of the edge block, its unit axis dropped, reads the block at (bb, 0, e). -/
theorem rowSlice_apply {α : Type} (v : S128x2x128.Idx → α) (bb : Fin 128) (e : Fin 128) :
    shapeCast S128x128 (extractStridedSlice S128x1x128 ![0, 0, 0] v slices_S128x2x128_o0_0_0_S128x1x128)
      shapeCasts_S128x1x128_S128x128 (ix2 bb e) = v (ix3 bb 0 e) := by
  refine (shapeCast_apply _ shapeCasts_S128x1x128_S128x128 (ix2 bb e) (ix3 bb 0 e) ?_).trans ?_
  · rw [Shape.rowMajor_val_two, Shape.rowMajor_val_three]
    show (bb.val * 1 + 0) * 128 + e.val = bb.val * 128 + e.val
    omega
  exact slice3_axis1_apply 0 v slices_S128x2x128_o0_0_0_S128x1x128 bb 0 e 0 rfl

/-- The targets' slice of the edge block, its unit axis dropped, reads the block at (bb, 1, e). -/
theorem colSlice_apply {α : Type} (v : S128x2x128.Idx → α) (bb : Fin 128) (e : Fin 128) :
    shapeCast S128x128 (extractStridedSlice S128x1x128 ![0, 1, 0] v slices_S128x2x128_o0_1_0_S128x1x128)
      shapeCasts_S128x1x128_S128x128 (ix2 bb e) = v (ix3 bb 1 e) := by
  refine (shapeCast_apply _ shapeCasts_S128x1x128_S128x128 (ix2 bb e) (ix3 bb 0 e) ?_).trans ?_
  · rw [Shape.rowMajor_val_two, Shape.rowMajor_val_three]
    show (bb.val * 1 + 0) * 128 + e.val = bb.val * 128 + e.val
    omega
  exact slice3_axis1_apply 1 v slices_S128x2x128_o0_1_0_S128x1x128 bb 0 e 1 rfl

/-- The body's pair numbers at (bb, e): 16 times edge e's target plus its source. -/
theorem pay4_apply (v1 : Vec Ideal S128x2x128 .i32) (bb : Fin 128) (e : Fin 128) :
    k0_pay4 (F := Ideal) v1 (ix2 bb e)
      = Cert.Gnn.pid (fun e => v1 (ix3 bb 0 e)) (fun e => v1 (ix3 bb 1 e)) e := by
  unfold k0_pay4 Cert.Gnn.pid
  show (shapeCast S128x128 (extractStridedSlice S128x1x128 ![0, 1, 0] v1 slices_S128x2x128_o0_1_0_S128x1x128)
        shapeCasts_S128x1x128_S128x128 (ix2 bb e)) * 16#32
      + shapeCast S128x128 (extractStridedSlice S128x1x128 ![0, 0, 0] v1 slices_S128x2x128_o0_0_0_S128x1x128)
        shapeCasts_S128x1x128_S128x128 (ix2 bb e) = _
  rw [rowSlice_apply, colSlice_apply]

/-! ## One row of the matrix -/

/-- The pair numbers spread over the sixteen source nodes. -/
def pidB (p : IVec S128x128 32) : IVec S128x16x128 32 :=
  broadcastTo S128x16x128 (shapeCast S128x1x128 p shapeCasts_S128x128_S128x1x128) broadcasts_S128x1x128_S128x16x128

/-- The spread pair numbers at (bb, m, e) are the pair number of edge e. -/
theorem pidB_apply (p : IVec S128x128 32) (bb : Fin 128) (m : Fin 16) (e : Fin 128) :
    pidB p (ix3 bb m e) = p (ix2 bb e) := by
  unfold pidB
  refine (broadcastTo_apply _ broadcasts_S128x1x128_S128x16x128 (ix3 bb m e) (ix3 bb 0 e) (fun a => by
    match a with
    | ⟨0, _⟩ => rfl
    | ⟨1, _⟩ => rfl
    | ⟨2, _⟩ => rfl)).trans ?_
  refine shapeCast_apply p shapeCasts_S128x128_S128x1x128 (ix3 bb 0 e) (ix2 bb e) ?_
  rw [Shape.rowMajor_val_two, Shape.rowMajor_val_three]
  show bb.val * 128 + e.val = (bb.val * 1 + 0) * 128 + e.val
  omega

/-- The sixteen targets of a row: the word c plus the node numbers. -/
def tgt (c : BitVec 32) (io : IVec S1x16x1 32) : IVec S1x16x1 32 := addi (broadcast S1x16x1 c) io

/-- Target m of a row is c plus m. -/
theorem tgt_apply (c : BitVec 32) (m : Fin 16) : tgt c nodeIota (ix3 0 m 0) = c + BitVec.ofNat 32 m.val := by
  unfold tgt
  show c + nodeIota (ix3 0 m 0) = _
  rw [show nodeIota (ix3 0 m 0) = BitVec.ofNat 32 m.val from
    iota_single_apply .tc S1x16x1 32 1 iota_S1x16x1_d1_w32 (ix3 0 m 0)]

/-- Row k of the matrix of edge counts, as the body builds it from the pair numbers p. -/
def cRow (p : IVec S128x128 32) (c : BitVec 32) : FVec Ideal S128x1x16 .f32 := countRow (pidB p) (tgt c nodeIota)

/-- Row k at (bb, 0, m) counts the edges whose pair number is 16 k + m. -/
theorem cRow_apply (p : IVec S128x128 32) (k : Fin 16) (bb : Fin 128) (m : Fin 16) :
    cRow p (BitVec.ofNat 32 (16 * k.val)) (ix3 bb 0 m)
      = ∑ e : Fin 128, if p (ix2 bb e) = BitVec.ofNat 32 (16 * k.val + m.val) then (1 : EReal) else 0 := by
  unfold cRow
  rw [countRow_apply, tgt_apply, ← BitVec.ofNat_add]
  refine Finset.sum_congr rfl fun e _ => ?_
  rw [pidB_apply]

/-! ## The sixteen rows laid one under another -/

/-- Sixteen [128, 1, 16] pieces laid along the middle axis read, at (bb, n, m), piece n at (bb, 0, m). -/
theorem concat16_apply {α : Type} (r : Fin 16 → (S128x1x16.Idx → α)) (bb : Fin 128) (n m : Fin 16) :
    concatenate S128x16x16 1
        [⟨S128x1x16, r 0⟩, ⟨S128x1x16, r 1⟩, ⟨S128x1x16, r 2⟩, ⟨S128x1x16, r 3⟩, ⟨S128x1x16, r 4⟩, ⟨S128x1x16, r 5⟩, ⟨S128x1x16, r 6⟩, ⟨S128x1x16, r 7⟩, ⟨S128x1x16, r 8⟩, ⟨S128x1x16, r 9⟩, ⟨S128x1x16, r 10⟩, ⟨S128x1x16, r 11⟩, ⟨S128x1x16, r 12⟩, ⟨S128x1x16, r 13⟩, ⟨S128x1x16, r 14⟩, ⟨S128x1x16, r 15⟩]
        concatenates_S128x1x16_S128x1x16_S128x1x16_S128x1x16_S128x1x16_S128x1x16_S128x1x16_S128x1x16_S128x1x16_S128x1x16_S128x1x16_S128x1x16_S128x1x16_S128x1x16_S128x1x16_S128x1x16_S128x16x16_d1 (ix3 bb n m)
      = r n (ix3 bb 0 m) :=
  concatenate_ofFn_unit_apply (t := S128x16x16) (s₁ := S128x1x16) 1 r
    concatenates_S128x1x16_S128x1x16_S128x1x16_S128x1x16_S128x1x16_S128x1x16_S128x1x16_S128x1x16_S128x1x16_S128x1x16_S128x1x16_S128x1x16_S128x1x16_S128x1x16_S128x1x16_S128x1x16_S128x16x16_d1 rfl rfl (ix3 bb n m) n rfl (ix3 bb 0 m) (fun b hb => by
      match b with
      | ⟨0, _⟩ => rfl
      | ⟨1, _⟩ => exact absurd rfl hb
      | ⟨2, _⟩ => rfl)

/-- The body's matrix of edge counts is its sixteen rows, row k comparing with 16 k plus the node numbers. -/
theorem Mcnt_eq (v1 : Vec Ideal S128x2x128 .i32) :
    Mcnt (F := Ideal) v1 = concatenate S128x16x16 1
        [⟨S128x1x16, cRow (k0_pay4 v1) 0#32⟩,
        ⟨S128x1x16, cRow (k0_pay4 v1) 16#32⟩,
        ⟨S128x1x16, cRow (k0_pay4 v1) 32#32⟩,
        ⟨S128x1x16, cRow (k0_pay4 v1) 48#32⟩,
        ⟨S128x1x16, cRow (k0_pay4 v1) 64#32⟩,
        ⟨S128x1x16, cRow (k0_pay4 v1) 80#32⟩,
        ⟨S128x1x16, cRow (k0_pay4 v1) 96#32⟩,
        ⟨S128x1x16, cRow (k0_pay4 v1) 112#32⟩,
        ⟨S128x1x16, cRow (k0_pay4 v1) 128#32⟩,
        ⟨S128x1x16, cRow (k0_pay4 v1) 144#32⟩,
        ⟨S128x1x16, cRow (k0_pay4 v1) 160#32⟩,
        ⟨S128x1x16, cRow (k0_pay4 v1) 176#32⟩,
        ⟨S128x1x16, cRow (k0_pay4 v1) 192#32⟩,
        ⟨S128x1x16, cRow (k0_pay4 v1) 208#32⟩,
        ⟨S128x1x16, cRow (k0_pay4 v1) 224#32⟩,
        ⟨S128x1x16, cRow (k0_pay4 v1) 240#32⟩]
        concatenates_S128x1x16_S128x1x16_S128x1x16_S128x1x16_S128x1x16_S128x1x16_S128x1x16_S128x1x16_S128x1x16_S128x1x16_S128x1x16_S128x1x16_S128x1x16_S128x1x16_S128x1x16_S128x1x16_S128x16x16_d1 := rfl

/-- The body's matrix of edge counts at (bb, n, m) is the number of edges of environment bb from m to n. -/
theorem Mcnt_apply (v1 : Vec Ideal S128x2x128 .i32) (bb : Fin 128) (n m : Fin 16) :
    Mcnt (F := Ideal) v1 (ix3 bb n m)
      = Cert.Gnn.cnt (fun e => v1 (ix3 bb 0 e)) (fun e => v1 (ix3 bb 1 e)) n m := by
  rw [Mcnt_eq]
  refine (concat16_apply (fun k : Fin 16 => cRow (k0_pay4 v1) (BitVec.ofNat 32 (16 * k.val))) bb n m).trans ?_
  refine (cRow_apply (k0_pay4 v1) n bb m).trans ?_
  unfold Cert.Gnn.cnt
  refine Finset.sum_congr rfl fun e _ => ?_
  rw [pay4_apply]

/-! ## The degrees -/

/-- The body's degrees are one plus the matrix summed along its last axis. -/
theorem Deg_eq (v1 : Vec Ideal S128x2x128 .i32) :
    Deg (F := Ideal) v1 = addf (broadcast S128x16 (Scalar.ofBits (F := Ideal) .f32 0x3F800000#32))
      (multiReduction (F := Ideal) .add [2] S128x16 (Mcnt (F := Ideal) v1) 0x00000000#32 reduces_S128x16x16_S128x16 (.inl rfl) rfl) := rfl

/-- The body's degree at (bb, n) is one plus the number of edges of environment bb into n. -/
theorem Deg_apply (v1 : Vec Ideal S128x2x128 .i32) (bb : Fin 128) (n : Fin 16) :
    Deg (F := Ideal) v1 (ix2 bb n)
      = Cert.Gnn.deg (fun e => v1 (ix3 bb 0 e)) (fun e => v1 (ix3 bb 1 e)) n := by
  rw [Deg_eq]
  unfold Cert.Gnn.deg
  show Ideal.ofBits .f32 0x3F800000#32
      + multiReduction (F := Ideal) .add [2] S128x16 (Mcnt (F := Ideal) v1) 0x00000000#32 reduces_S128x16x16_S128x16 (.inl rfl) rfl (ix2 bb n) = _
  rw [Ideal.ofBits_one_f32]
  refine congrArg (fun x => (1 : EReal) + x) ?_
  refine (Ideal.multiReduction_add_single _ 0x00000000#32 reduces_S128x16x16_S128x16 (.inl rfl) rfl (ix2 bb n)).trans ?_
  show ∑ m : Fin 16, _ = _
  refine Finset.sum_congr rfl fun m _ => ?_
  have hl : reduces_S128x16x16_S128x16.lift (ix2 bb n) m = ix3 bb n m := by
    funext c
    match c with
    | ⟨0, _⟩ => rfl
    | ⟨1, _⟩ => rfl
    | ⟨2, _⟩ => rfl
  rw [hl, Mcnt_apply]

end Cert.KernelIdeal.Hand

end
-- ==== Proof.KGcn.lean ====
import proofs.«418072_j41214506172575_3_alg».proof.Proof.Gen.KernelIdeal.Skeleton
import proofs.«418072_j41214506172575_3_alg».proof.Proof.Spec
import Idealize.ShloMosaic.Lib.Pipeline.Value
import Idealize.ShloMosaic.Lib.ValueIdx
import Idealize.ShloMosaic.PureOps.Ideal.Laws

/-!
  The two matrix products of the graph convolution on a block of 128 environments, read at an index.

  * The features of the 128 x 16 nodes, laid out as 2048 rows, times the [128, 64] weight: element (b, n, j) is the sum
    over the 128 input features k of x[b, n, k] * W[k, j].
  * The normalised count matrix times the products, one environment at a time: element (b, n, j) is the sum over the
    16 sources m of (count[b, n, m] * dinv[b, n] * dinv[b, m]) * xw[b, m, j], where dinv is the reciprocal square root
    of the degree.
-/

noncomputable section

namespace Cert.KernelIdeal.Hand

open Cert.KernelIdeal Cert.KernelIdeal.Gen Idealize.ShloMosaic Idealize.ShloMosaic.TcCoe Idealize.ShloMosaic.ValueIdx

/-! ## The features times the weight -/

theorem lhs_xw_0 (i : S2048x64.Idx) (q : dot_S2048x128_S128x64_S2048x64_1_0_0_1_n_n.contr.Idx) :
    (dot_S2048x128_S128x64_S2048x64_1_0_0_1_n_n.lhsIdx i q 0).val = (i 0).val := by
  unfold DotDims.lhsIdx
  rw [dif_neg (show ¬(0 : Fin S2048x128.rank) ∈ dot_S2048x128_S128x64_S2048x64_1_0_0_1_n_n.lhsBatch by decide), dif_pos (show (0 : Fin S2048x128.rank) ∈ dot_S2048x128_S128x64_S2048x64_1_0_0_1_n_n.lhsNonContracting by decide)]
  rfl
theorem lhs_xw_1 (i : S2048x64.Idx) (q : dot_S2048x128_S128x64_S2048x64_1_0_0_1_n_n.contr.Idx) :
    (dot_S2048x128_S128x64_S2048x64_1_0_0_1_n_n.lhsIdx i q 1).val = (q ⟨0, by decide⟩).val :=
  dot_S2048x128_S128x64_S2048x64_1_0_0_1_n_n.lhsIdx_val_of_single rfl i q
theorem rhs_xw_0 (i : S2048x64.Idx) (q : dot_S2048x128_S128x64_S2048x64_1_0_0_1_n_n.contr.Idx) :
    (dot_S2048x128_S128x64_S2048x64_1_0_0_1_n_n.rhsIdx i q 0).val = (q ⟨0, by decide⟩).val :=
  dot_S2048x128_S128x64_S2048x64_1_0_0_1_n_n.rhsIdx_val_of_single rfl i q
theorem rhs_xw_1 (i : S2048x64.Idx) (q : dot_S2048x128_S128x64_S2048x64_1_0_0_1_n_n.contr.Idx) :
    (dot_S2048x128_S128x64_S2048x64_1_0_0_1_n_n.rhsIdx i q 1).val = (i 1).val := by
  unfold DotDims.rhsIdx
  rw [dif_neg (show ¬(1 : Fin S128x64.rank) ∈ dot_S2048x128_S128x64_S2048x64_1_0_0_1_n_n.rhsBatch by decide), dif_pos (show (1 : Fin S128x64.rank) ∈ dot_S2048x128_S128x64_S2048x64_1_0_0_1_n_n.rhsNonContracting by decide)]
  rfl

/-- The [2048, 128] by [128, 64] product into a zero accumulator, at row r and column j. -/
theorem matmul_xw_apply (a : FVec Ideal S2048x128 .bf16) (b : FVec Ideal S128x64 .bf16) (r : Fin 2048) (j : Fin 64) :
    matmul dot_S2048x128_S128x64_S2048x64_1_0_0_1_n_n none a b (constant (F := Ideal) S2048x64 .f32 0x00000000#32) (ix2 r j)
      = ∑ k : Fin 128, a (ix2 r k) * b (ix2 k j) := by
  simp only [matmul]
  rw [Ideal.matmul_constant_zero_apply, ← Equiv.sum_comp (ValueIdx.contrEquiv1 dot_S2048x128_S128x64_S2048x64_1_0_0_1_n_n 128 rfl rfl).symm]
  refine Finset.sum_congr rfl fun k _ => ?_
  have hk := ValueIdx.contrEquiv1_symm_val dot_S2048x128_S128x64_S2048x64_1_0_0_1_n_n 128 rfl rfl k
  have el : dot_S2048x128_S128x64_S2048x64_1_0_0_1_n_n.lhsIdx (ix2 r j) ((ValueIdx.contrEquiv1 dot_S2048x128_S128x64_S2048x64_1_0_0_1_n_n 128 rfl rfl).symm k) = ix2 r k := funext fun c => Fin.ext (by
    match c with
    | ⟨0, _⟩ => exact lhs_xw_0 _ _
    | ⟨1, _⟩ => exact (lhs_xw_1 _ _).trans hk)
  have er : dot_S2048x128_S128x64_S2048x64_1_0_0_1_n_n.rhsIdx (ix2 r j) ((ValueIdx.contrEquiv1 dot_S2048x128_S128x64_S2048x64_1_0_0_1_n_n 128 rfl rfl).symm k) = ix2 k j := funext fun c => Fin.ext (by
    match c with
    | ⟨0, _⟩ => exact (rhs_xw_0 _ _).trans hk
    | ⟨1, _⟩ => exact rhs_xw_1 _ _)
  rw [el, er]

/-- Row 16 * b + n of the 2048 rows. -/
def row (bb : Fin 128) (n : Fin 16) : Fin 2048 := ⟨bb.val * 16 + n.val, by have := bb.isLt; have := n.isLt; omega⟩

/-- The features laid out as 2048 rows: row 16 * b + n is node n of environment b. -/
theorem cast_x_apply (v0 : Vec Ideal S128x16x128 .f32) (bb : Fin 128) (n : Fin 16) (k : Fin 128) :
    shapeCast S2048x128 v0 shapeCasts_S128x16x128_S2048x128 (ix2 (row bb n) k) = v0 (ix3 bb n k) :=
  shapeCast_apply v0 shapeCasts_S128x16x128_S2048x128 (ix2 (row bb n) k) (ix3 bb n k)
    (by rewrite [Shape.rowMajor_val_three, Shape.rowMajor_val_two]; show (bb.val * 16 + n.val) * 128 + k.val = (bb.val * 16 + n.val) * 128 + k.val; rfl)

/-- The 2048 rows of products laid back out by environment and node. -/
theorem cast_xw_apply (y : FVec Ideal S2048x64 .f32) (bb : Fin 128) (n : Fin 16) (j : Fin 64) :
    shapeCast S128x16x64 y shapeCasts_S2048x64_S128x16x64 (ix3 bb n j) = y (ix2 (row bb n) j) :=
  shapeCast_apply y shapeCasts_S2048x64_S128x16x64 (ix3 bb n j) (ix2 (row bb n) j)
    (by rewrite [Shape.rowMajor_val_three, Shape.rowMajor_val_two]; show (bb.val * 16 + n.val) * 64 + j.val = (bb.val * 16 + n.val) * 64 + j.val; rfl)

theorem pay3_apply (v0 : Vec Ideal S128x16x128 .f32) (v9 : Vec Ideal S128x64 .f32) (bb : Fin 128) (n : Fin 16) (j : Fin 64) :
    k0_pay3 (F := Ideal) v0 v9 (ix3 bb n j) = Cert.Gnn.xw (fun n k => v0 (ix3 bb n k)) (fun k j => v9 (ix2 k j)) n j := by
  unfold k0_pay3 Cert.Gnn.xw
  rw [cast_xw_apply, matmul_xw_apply]
  refine Finset.sum_congr rfl fun k _ => ?_
  rw [truncf_apply, truncf_apply, cast_x_apply]

/-! ## The normalised count matrix times the products -/

theorem lhs_agg_0 (i : S128x16x64.Idx) (q : dot_S128x16x16_S128x16x64_S128x16x64_2_1_1_2_0_0.contr.Idx) :
    (dot_S128x16x16_S128x16x64_S128x16x64_2_1_1_2_0_0.lhsIdx i q 0).val = (i 0).val := by
  unfold DotDims.lhsIdx
  rw [dif_pos (show (0 : Fin S128x16x16.rank) ∈ dot_S128x16x16_S128x16x64_S128x16x64_2_1_1_2_0_0.lhsBatch by decide)]
  rfl
theorem lhs_agg_1 (i : S128x16x64.Idx) (q : dot_S128x16x16_S128x16x64_S128x16x64_2_1_1_2_0_0.contr.Idx) :
    (dot_S128x16x16_S128x16x64_S128x16x64_2_1_1_2_0_0.lhsIdx i q 1).val = (i 1).val := by
  unfold DotDims.lhsIdx
  rw [dif_neg (show ¬(1 : Fin S128x16x16.rank) ∈ dot_S128x16x16_S128x16x64_S128x16x64_2_1_1_2_0_0.lhsBatch by decide), dif_pos (show (1 : Fin S128x16x16.rank) ∈ dot_S128x16x16_S128x16x64_S128x16x64_2_1_1_2_0_0.lhsNonContracting by decide)]
  rfl
theorem lhs_agg_2 (i : S128x16x64.Idx) (q : dot_S128x16x16_S128x16x64_S128x16x64_2_1_1_2_0_0.contr.Idx) :
    (dot_S128x16x16_S128x16x64_S128x16x64_2_1_1_2_0_0.lhsIdx i q 2).val = (q ⟨0, by decide⟩).val :=
  dot_S128x16x16_S128x16x64_S128x16x64_2_1_1_2_0_0.lhsIdx_val_of_single rfl i q
theorem rhs_agg_0 (i : S128x16x64.Idx) (q : dot_S128x16x16_S128x16x64_S128x16x64_2_1_1_2_0_0.contr.Idx) :
    (dot_S128x16x16_S128x16x64_S128x16x64_2_1_1_2_0_0.rhsIdx i q 0).val = (i 0).val := by
  unfold DotDims.rhsIdx
  rw [dif_pos (show (0 : Fin S128x16x64.rank) ∈ dot_S128x16x16_S128x16x64_S128x16x64_2_1_1_2_0_0.rhsBatch by decide)]
  rfl
theorem rhs_agg_1 (i : S128x16x64.Idx) (q : dot_S128x16x16_S128x16x64_S128x16x64_2_1_1_2_0_0.contr.Idx) :
    (dot_S128x16x16_S128x16x64_S128x16x64_2_1_1_2_0_0.rhsIdx i q 1).val = (q ⟨0, by decide⟩).val :=
  dot_S128x16x16_S128x16x64_S128x16x64_2_1_1_2_0_0.rhsIdx_val_of_single rfl i q
theorem rhs_agg_2 (i : S128x16x64.Idx) (q : dot_S128x16x16_S128x16x64_S128x16x64_2_1_1_2_0_0.contr.Idx) :
    (dot_S128x16x16_S128x16x64_S128x16x64_2_1_1_2_0_0.rhsIdx i q 2).val = (i 2).val := by
  unfold DotDims.rhsIdx
  rw [dif_neg (show ¬(2 : Fin S128x16x64.rank) ∈ dot_S128x16x16_S128x16x64_S128x16x64_2_1_1_2_0_0.rhsBatch by decide), dif_pos (show (2 : Fin S128x16x64.rank) ∈ dot_S128x16x16_S128x16x64_S128x16x64_2_1_1_2_0_0.rhsNonContracting by decide)]
  rfl

/-- The product batched over the environments, [16, 16] by [16, 64] in each, into a zero accumulator: element (b, n, j). -/
theorem matmul_agg_apply (a : FVec Ideal S128x16x16 .bf16) (b : FVec Ideal S128x16x64 .bf16) (bb : Fin 128) (n : Fin 16) (j : Fin 64) :
    matmul dot_S128x16x16_S128x16x64_S128x16x64_2_1_1_2_0_0 none a b (constant (F := Ideal) S128x16x64 .f32 0x00000000#32) (ix3 bb n j)
      = ∑ m : Fin 16, a (ix3 bb n m) * b (ix3 bb m j) := by
  simp only [matmul]
  rw [Ideal.matmul_constant_zero_apply, ← Equiv.sum_comp (ValueIdx.contrEquiv1 dot_S128x16x16_S128x16x64_S128x16x64_2_1_1_2_0_0 16 rfl rfl).symm]
  refine Finset.sum_congr rfl fun m _ => ?_
  have hm := ValueIdx.contrEquiv1_symm_val dot_S128x16x16_S128x16x64_S128x16x64_2_1_1_2_0_0 16 rfl rfl m
  have el : dot_S128x16x16_S128x16x64_S128x16x64_2_1_1_2_0_0.lhsIdx (ix3 bb n j) ((ValueIdx.contrEquiv1 dot_S128x16x16_S128x16x64_S128x16x64_2_1_1_2_0_0 16 rfl rfl).symm m) = ix3 bb n m := funext fun c => Fin.ext (by
    match c with
    | ⟨0, _⟩ => exact lhs_agg_0 _ _
    | ⟨1, _⟩ => exact lhs_agg_1 _ _
    | ⟨2, _⟩ => exact (lhs_agg_2 _ _).trans hm)
  have er : dot_S128x16x16_S128x16x64_S128x16x64_2_1_1_2_0_0.rhsIdx (ix3 bb n j) ((ValueIdx.contrEquiv1 dot_S128x16x16_S128x16x64_S128x16x64_2_1_1_2_0_0 16 rfl rfl).symm m) = ix3 bb m j := funext fun c => Fin.ext (by
    match c with
    | ⟨0, _⟩ => exact rhs_agg_0 _ _
    | ⟨1, _⟩ => exact (rhs_agg_1 _ _).trans hm
    | ⟨2, _⟩ => exact rhs_agg_2 _ _)
  rw [el, er]

/-- A [128, 16] array spread along a new last axis: element (b, n, m) is the array at (b, n). -/
theorem spread_last_apply (d : FVec Ideal S128x16 .f32) (bb : Fin 128) (n m : Fin 16) :
    broadcastTo S128x16x16 (shapeCast S128x16x1 d shapeCasts_S128x16_S128x16x1) broadcasts_S128x16x1_S128x16x16 (ix3 bb n m)
      = d (ix2 bb n) := by
  rw [broadcastTo_apply (shapeCast S128x16x1 d shapeCasts_S128x16_S128x16x1) broadcasts_S128x16x1_S128x16x16 (ix3 bb n m)
    (ix3 bb n (0 : Fin 1)) (fun c => by
      match c with
      | ⟨0, _⟩ => rfl
      | ⟨1, _⟩ => rfl
      | ⟨2, _⟩ => rfl)]
  exact shapeCast_apply d shapeCasts_S128x16_S128x16x1 (ix3 bb n (0 : Fin 1)) (ix2 bb n)
    (by rewrite [Shape.rowMajor_val_three, Shape.rowMajor_val_two]; show bb.val * 16 + n.val = (bb.val * 16 + n.val) * 1 + 0; omega)

/-- A [128, 16] array spread along a new middle axis: element (b, n, m) is the array at (b, m). -/
theorem spread_mid_apply (d : FVec Ideal S128x16 .f32) (bb : Fin 128) (n m : Fin 16) :
    broadcastTo S128x16x16 (shapeCast S128x1x16 d shapeCasts_S128x16_S128x1x16) broadcasts_S128x1x16_S128x16x16 (ix3 bb n m)
      = d (ix2 bb m) := by
  rw [broadcastTo_apply (shapeCast S128x1x16 d shapeCasts_S128x16_S128x1x16) broadcasts_S128x1x16_S128x16x16 (ix3 bb n m)
    (ix3 bb (0 : Fin 1) m) (fun c => by
      match c with
      | ⟨0, _⟩ => rfl
      | ⟨1, _⟩ => rfl
      | ⟨2, _⟩ => rfl)]
  exact shapeCast_apply d shapeCasts_S128x16_S128x1x16 (ix3 bb (0 : Fin 1) m) (ix2 bb m)
    (by rewrite [Shape.rowMajor_val_three, Shape.rowMajor_val_two]; show bb.val * 16 + m.val = (bb.val * 1 + 0) * 16 + m.val; omega)

/-- The reciprocal square root of an array, at an index. -/
theorem rsqrt_apply (d : FVec Ideal S128x16 .f32) (i : S128x16.Idx) : rsqrt d i = Ideal.rsqrt (d i) := rfl

theorem pay25_apply (v12 : FVec Ideal S128x16x64 .f32) (a1 : IVec S128x128 32) (a2 : IVec S1x16x1 32)
    (a3 a4 a5 a6 a7 a8 a9 a10 a11 a12 a13 a14 : FVec Ideal S128x1x16 .f32) (a15 : IVec S1x16x1 32) (a16 : IVec S128x16x128 32)
    (bb : Fin 128) (n : Fin 16) (j : Fin 64) :
    k0_pay25 (F := Ideal) v12 a1 a2 a3 a4 a5 a6 a7 a8 a9 a10 a11 a12 a13 a14 a15 a16 (ix3 bb n j)
      = ∑ m : Fin 16, ((k0_pay23 (F := Ideal) a1 a2 a3 a4 a5 a6 a7 a8 a9 a10 a11 a12 a13 a14 a15 a16 (ix3 bb n m)
            * Ideal.rsqrt (k0_pay24 (F := Ideal) a1 a2 a3 a4 a5 a6 a7 a8 a9 a10 a11 a12 a13 a14 a15 a16 (ix2 bb n)))
            * Ideal.rsqrt (k0_pay24 (F := Ideal) a1 a2 a3 a4 a5 a6 a7 a8 a9 a10 a11 a12 a13 a14 a15 a16 (ix2 bb m))) * v12 (ix3 bb m j) := by
  unfold k0_pay25
  generalize k0_pay24 (F := Ideal) a1 a2 a3 a4 a5 a6 a7 a8 a9 a10 a11 a12 a13 a14 a15 a16 = dg
  generalize k0_pay23 (F := Ideal) a1 a2 a3 a4 a5 a6 a7 a8 a9 a10 a11 a12 a13 a14 a15 a16 = Mc
  rw [matmul_agg_apply]
  refine Finset.sum_congr rfl fun m _ => ?_
  rw [truncf_apply, truncf_apply, mulf_apply, mulf_apply, spread_last_apply, spread_mid_apply, rsqrt_apply, rsqrt_apply]

end Cert.KernelIdeal.Hand

end
-- ==== Proof.KGru.lean ====
/-
  The GRU step and the linear head on a block of 128 environments, read at an index.

  The new hidden state of node n of environment bb at feature q is the GRU step of two gate pre-activations, the
  convolution's output row (aggregation plus the node's own product over its degree plus the bias) against one
  [64, 192] weight and the previous hidden state's row against the other, each plus its bias; the 2048 node rows are
  numbered 16 * bb + n, and the three gates are the column blocks at 0, 64 and 128. The sixteen new hidden states of an
  environment laid side by side read node k / 64 at feature k % 64, and the head is their product with a [1024, 512]
  weight plus a bias.
-/
import proofs.«418072_j41214506172575_3_alg».proof.Proof.Gen.KernelIdeal.Skeleton
import proofs.«418072_j41214506172575_3_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

namespace KGru

/-- Row 16 * bb + n of the 2048 node rows of a block: environment bb, node n. -/
def row (bb : Fin 128) (n : Fin 16) : Fin 2048 := ⟨16 * bb.val + n.val, by have := bb.isLt; have := n.isLt; omega⟩

/-- The [128,16,64] block viewed as [2048,64] reads row 16 * bb + n at (bb, n). -/
theorem flat_apply {α : Type} (x : S128x16x64.Idx → α) (bb : Fin 128) (n : Fin 16) (q : Fin 64) :
    shapeCast S2048x64 x shapeCasts_S128x16x64_S2048x64 (ix2 (row bb n) q) = x (ix3 bb n q) :=
  shapeCast_apply x _ _ _ (by
    rw [Shape.rowMajor_val_three, Shape.rowMajor_val_two]
    show (bb.val * 16 + n.val) * 64 + q.val = (16 * bb.val + n.val) * 64 + q.val
    omega)

/-- The [2048,64] rows viewed as [128,16,64] read (bb, n) at row 16 * bb + n. -/
theorem unflat_apply {α : Type} (y : S2048x64.Idx → α) (bb : Fin 128) (n : Fin 16) (q : Fin 64) :
    shapeCast S128x16x64 y shapeCasts_S2048x64_S128x16x64 (ix3 bb n q) = y (ix2 (row bb n) q) :=
  shapeCast_apply y _ _ _ (by
    rw [Shape.rowMajor_val_three, Shape.rowMajor_val_two]
    show (16 * bb.val + n.val) * 64 + q.val = (bb.val * 16 + n.val) * 64 + q.val
    omega)

/-! ## The [2048,64] x [64,192] product -/

theorem gate_lhs_0 (i : S2048x192.Idx) (q : dot_S2048x64_S64x192_S2048x192_1_0_0_1_n_n.contr.Idx) :
    (dot_S2048x64_S64x192_S2048x192_1_0_0_1_n_n.lhsIdx i q 0).val = (i 0).val := by
  unfold DotDims.lhsIdx
  rw [dif_neg (show ¬(0 : Fin S2048x64.rank) ∈ dot_S2048x64_S64x192_S2048x192_1_0_0_1_n_n.lhsBatch by decide), dif_pos (show (0 : Fin S2048x64.rank) ∈ dot_S2048x64_S64x192_S2048x192_1_0_0_1_n_n.lhsNonContracting by decide)]
  rfl
theorem gate_lhs_1 (i : S2048x192.Idx) (q : dot_S2048x64_S64x192_S2048x192_1_0_0_1_n_n.contr.Idx) :
    (dot_S2048x64_S64x192_S2048x192_1_0_0_1_n_n.lhsIdx i q 1).val = (q ⟨0, by decide⟩).val :=
  dot_S2048x64_S64x192_S2048x192_1_0_0_1_n_n.lhsIdx_val_of_single rfl i q
theorem gate_rhs_0 (i : S2048x192.Idx) (q : dot_S2048x64_S64x192_S2048x192_1_0_0_1_n_n.contr.Idx) :
    (dot_S2048x64_S64x192_S2048x192_1_0_0_1_n_n.rhsIdx i q 0).val = (q ⟨0, by decide⟩).val :=
  dot_S2048x64_S64x192_S2048x192_1_0_0_1_n_n.rhsIdx_val_of_single rfl i q
theorem gate_rhs_1 (i : S2048x192.Idx) (q : dot_S2048x64_S64x192_S2048x192_1_0_0_1_n_n.contr.Idx) :
    (dot_S2048x64_S64x192_S2048x192_1_0_0_1_n_n.rhsIdx i q 1).val = (i 1).val := by
  unfold DotDims.rhsIdx
  rw [dif_neg (show ¬(1 : Fin S64x192.rank) ∈ dot_S2048x64_S64x192_S2048x192_1_0_0_1_n_n.rhsBatch by decide), dif_pos (show (1 : Fin S64x192.rank) ∈ dot_S2048x64_S64x192_S2048x192_1_0_0_1_n_n.rhsNonContracting by decide)]
  rfl

/-- The product into a zero accumulator, at row r and gate column g: the sum over the 64 inputs. -/
theorem gate_matmul_apply {φ₁ φ₂ : FTy} (A : FVec Ideal S2048x64 φ₁) (W : FVec Ideal S64x192 φ₂) (r : Fin 2048) (g : Fin 192) :
    matmul dot_S2048x64_S64x192_S2048x192_1_0_0_1_n_n none A W (constant S2048x192 .f32 0x00000000#32) (ix2 r g)
      = ∑ j : Fin 64, A (ix2 r j) * W (ix2 j g) := by
  simp only [matmul]
  rw [Ideal.matmul_constant_zero_apply, ← Equiv.sum_comp (contrEquiv1 dot_S2048x64_S64x192_S2048x192_1_0_0_1_n_n 64 rfl rfl).symm]
  refine Finset.sum_congr rfl fun k _ => ?_
  have hk := contrEquiv1_symm_val dot_S2048x64_S64x192_S2048x192_1_0_0_1_n_n 64 rfl rfl k
  have el : dot_S2048x64_S64x192_S2048x192_1_0_0_1_n_n.lhsIdx (ix2 r g) ((contrEquiv1 dot_S2048x64_S64x192_S2048x192_1_0_0_1_n_n 64 rfl rfl).symm k) = ix2 r k := funext fun a => Fin.ext (by
    match a with
    | ⟨0, _⟩ => exact gate_lhs_0 _ _
    | ⟨1, _⟩ => exact (gate_lhs_1 _ _).trans hk)
  have er : dot_S2048x64_S64x192_S2048x192_1_0_0_1_n_n.rhsIdx (ix2 r g) ((contrEquiv1 dot_S2048x64_S64x192_S2048x192_1_0_0_1_n_n 64 rfl rfl).symm k) = ix2 k g := funext fun a => Fin.ext (by
    match a with
    | ⟨0, _⟩ => exact (gate_rhs_0 _ _).trans hk
    | ⟨1, _⟩ => exact gate_rhs_1 _ _)
  rw [el, er]

/-- A [192] bias laid along each of the 2048 rows. -/
theorem bias_row_apply (b : Vec Ideal S192 .f32) (r : Fin 2048) (g : Fin 192) :
    broadcastTo S2048x192 (shapeCast S1x192 b shapeCasts_S192_S1x192) broadcasts_S1x192_S2048x192 (ix2 r g) = b (ix1 g) :=
  (broadcastTo_1b_ab_apply _ _ r g).trans (shapeCast_a_1a_apply b _ 0 g)

/-! ## The convolution's output row: aggregation, self loop over the degree, bias -/

/-- A [128,16] array laid along the 64 features. -/
theorem deg_bcast_apply (d : FVec Ideal S128x16 .f32) (bb : Fin 128) (n : Fin 16) (j : Fin 64) :
    broadcastTo S128x16x64 (shapeCast S128x16x1 d shapeCasts_S128x16_S128x16x1) broadcasts_S128x16x1_S128x16x64 (ix3 bb n j)
      = d (ix2 bb n) := by
  refine (broadcastTo_apply _ _ (ix3 bb n j) (ix3 bb n (0 : Fin 1)) fun ax => ?_).trans ?_
  · match ax with
    | ⟨0, _⟩ => rfl
    | ⟨1, _⟩ => rfl
    | ⟨2, _⟩ => rfl
  · exact shapeCast_apply d _ _ _ (by
      rw [Shape.rowMajor_val_three, Shape.rowMajor_val_two]
      show bb.val * 16 + n.val = (bb.val * 16 + n.val) * 1 + 0
      omega)

/-- A [64] bias laid along every node of every environment. -/
theorem bias3_apply (b : Vec Ideal S64 .f32) (bb : Fin 128) (n : Fin 16) (j : Fin 64) :
    broadcastTo S128x16x64 (shapeCast S1x1x64 b shapeCasts_S64_S1x1x64) broadcasts_S1x1x64_S128x16x64 (ix3 bb n j)
      = b (ix1 j) := by
  refine (broadcastTo_apply _ _ (ix3 bb n j) (ix3 (0 : Fin 1) (0 : Fin 1) j) fun ax => ?_).trans ?_
  · match ax with
    | ⟨0, _⟩ => rfl
    | ⟨1, _⟩ => rfl
    | ⟨2, _⟩ => rfl
  · exact shapeCast_apply b _ _ _ (by
      rw [Shape.rowMajor_val_three, Shape.rowMajor_val_one]
      show j.val = (0 * 1 + 0) * 64 + j.val
      omega)

/-- The convolution's output as the kernel forms it. -/
def gin (v12 : FVec Ideal S128x16x64 .f32) (v180 : FVec Ideal S128x16 .f32) (v190 : FVec Ideal S128x16x64 .f32)
    (v195 : Vec Ideal S64 .f32) : FVec Ideal S128x16x64 .f32 :=
  addf (addf v190 (divf v12 (broadcastTo S128x16x64 (shapeCast S128x16x1 v180 shapeCasts_S128x16_S128x16x1) broadcasts_S128x16x1_S128x16x64)))
    (broadcastTo S128x16x64 (shapeCast S1x1x64 v195 shapeCasts_S64_S1x1x64) broadcasts_S1x1x64_S128x16x64)

theorem gin_apply (v12 : FVec Ideal S128x16x64 .f32) (v180 : FVec Ideal S128x16 .f32) (v190 : FVec Ideal S128x16x64 .f32)
    (v195 : Vec Ideal S64 .f32) (bb : Fin 128) (n : Fin 16) (j : Fin 64) :
    gin v12 v180 v190 v195 (ix3 bb n j)
      = (v190 (ix3 bb n j) + Ideal.div (v12 (ix3 bb n j)) (v180 (ix2 bb n))) + v195 (ix1 j) := by
  unfold gin
  rw [addf_apply, addf_apply, divf_apply, deg_bcast_apply, bias3_apply]

/-! ## A gate pre-activation: the rows against a [64,192] weight, plus the bias -/

def gpre (x : Vec Ideal S128x16x64 .f32) (W : Vec Ideal S64x192 .f32) (b : Vec Ideal S192 .f32) : FVec Ideal S2048x192 .f32 :=
  addf (matmul dot_S2048x64_S64x192_S2048x192_1_0_0_1_n_n none
      (truncf .bf16 (shapeCast S2048x64 x shapeCasts_S128x16x64_S2048x64) bitsLt_bf16_f32)
      (truncf .bf16 (shapeCast S64x192 W shapeCasts_S64x192_S64x192) bitsLt_bf16_f32)
      (constant S2048x192 .f32 0x00000000#32))
    (broadcastTo S2048x192 (shapeCast S1x192 b shapeCasts_S192_S1x192) broadcasts_S1x192_S2048x192)

theorem gpre_apply (x : Vec Ideal S128x16x64 .f32) (W : Vec Ideal S64x192 .f32) (b : Vec Ideal S192 .f32)
    (bb : Fin 128) (n : Fin 16) (g : Fin 192) :
    gpre x W b (ix2 (row bb n) g) = Cert.Gnn.gates (fun j => x (ix3 bb n j)) (Cert.Gnn.mat W) (Cert.Gnn.vec b) g := by
  unfold gpre Cert.Gnn.gates Cert.Gnn.mat Cert.Gnn.vec
  rw [addf_apply, gate_matmul_apply, bias_row_apply]
  refine congrArg (· + b (ix1 g)) (Finset.sum_congr rfl fun j _ => ?_)
  rw [truncf_apply, truncf_apply, flat_apply, shapeCast_self]

/-! ## The GRU step from the two pre-activations -/

def gruv (gx gh : FVec Ideal S2048x192 .f32) (v2 : Vec Ideal S128x16x64 .f32) : FVec Ideal S128x16x64 .f32 :=
  shapeCast S128x16x64
    (addf
      (mulf (subf (broadcast S2048x64 (Scalar.ofBits .f32 0x3F800000#32))
          (logistic (addf (extractStridedSlice S2048x64 ![0, 64] gx slices_S2048x192_o0_64_S2048x64)
            (extractStridedSlice S2048x64 ![0, 64] gh slices_S2048x192_o0_64_S2048x64))))
        (tanh (addf (extractStridedSlice S2048x64 ![0, 128] gx slices_S2048x192_o0_128_S2048x64)
          (mulf (logistic (addf (extractStridedSlice S2048x64 ![0, 0] gx slices_S2048x192_o0_0_S2048x64)
              (extractStridedSlice S2048x64 ![0, 0] gh slices_S2048x192_o0_0_S2048x64)))
            (extractStridedSlice S2048x64 ![0, 128] gh slices_S2048x192_o0_128_S2048x64)))))
      (mulf (logistic (addf (extractStridedSlice S2048x64 ![0, 64] gx slices_S2048x192_o0_64_S2048x64)
            (extractStridedSlice S2048x64 ![0, 64] gh slices_S2048x192_o0_64_S2048x64)))
        (shapeCast S2048x64 v2 shapeCasts_S128x16x64_S2048x64)))
    shapeCasts_S2048x64_S128x16x64

/-- A slice of 64 gate columns from column 64 * s reads column gcol s q at q. -/
theorem gate_slice_apply (o : Nat) (s : Fin 3) (ho : o = 64 * s.val) (X : FVec Ideal S2048x192 .f32)
    (h : S2048x192.Slices ![0, o] S2048x64) (r : Fin 2048) (q : Fin 64) :
    extractStridedSlice S2048x64 ![0, o] X h (ix2 r q) = X (ix2 r (Cert.Gnn.gcol s q)) :=
  slice2_axis1_apply o X h r q (Cert.Gnn.gcol s q) (by subst ho; rfl)

theorem gruv_apply (gx gh : FVec Ideal S2048x192 .f32) (v2 : Vec Ideal S128x16x64 .f32) (bb : Fin 128) (n : Fin 16) (q : Fin 64) :
    gruv gx gh v2 (ix3 bb n q)
      = Cert.Gnn.gru (fun g => gx (ix2 (row bb n) g)) (fun g => gh (ix2 (row bb n) g)) (fun q => v2 (ix3 bb n q)) q := by
  unfold gruv
  refine (unflat_apply _ bb n q).trans ?_
  unfold Cert.Gnn.gru
  rw [addf_apply, mulf_apply, mulf_apply, subf_apply, flat_apply]
  show (Ideal.ofBits .f32 0x3F800000#32 - Ideal.logistic (extractStridedSlice S2048x64 ![0, 64] gx slices_S2048x192_o0_64_S2048x64 (ix2 (row bb n) q)
          + extractStridedSlice S2048x64 ![0, 64] gh slices_S2048x192_o0_64_S2048x64 (ix2 (row bb n) q)))
        * Ideal.tanh (extractStridedSlice S2048x64 ![0, 128] gx slices_S2048x192_o0_128_S2048x64 (ix2 (row bb n) q)
          + Ideal.logistic (extractStridedSlice S2048x64 ![0, 0] gx slices_S2048x192_o0_0_S2048x64 (ix2 (row bb n) q)
              + extractStridedSlice S2048x64 ![0, 0] gh slices_S2048x192_o0_0_S2048x64 (ix2 (row bb n) q))
            * extractStridedSlice S2048x64 ![0, 128] gh slices_S2048x192_o0_128_S2048x64 (ix2 (row bb n) q))
      + Ideal.logistic (extractStridedSlice S2048x64 ![0, 64] gx slices_S2048x192_o0_64_S2048x64 (ix2 (row bb n) q)
          + extractStridedSlice S2048x64 ![0, 64] gh slices_S2048x192_o0_64_S2048x64 (ix2 (row bb n) q)) * v2 (ix3 bb n q) = _
  rw [Ideal.ofBits_one_f32,
    gate_slice_apply 0 0 rfl gx, gate_slice_apply 0 0 rfl gh,
    gate_slice_apply 64 1 rfl gx, gate_slice_apply 64 1 rfl gh,
    gate_slice_apply 128 2 rfl gx, gate_slice_apply 128 2 rfl gh]

/-! ## One node's rows out of the block -/

/-- Node m's [128,1,64] slice with the unit axis dropped reads (bb, m, q) at (bb, q). -/
theorem node_slice_apply {α : Type} (m : Nat) (X : S128x16x64.Idx → α) (h : S128x16x64.Slices ![0, m, 0] S128x1x64)
    (nd : Fin 16) (hm : nd.val = m) (bb : Fin 128) (q : Fin 64) :
    shapeCast S128x64 (extractStridedSlice S128x1x64 ![0, m, 0] X h) shapeCasts_S128x1x64_S128x64 (ix2 bb q) = X (ix3 bb nd q) := by
  refine (shapeCast_apply _ _ (ix2 bb q) (ix3 bb (0 : Fin 1) q) ?_).trans ?_
  · rw [Shape.rowMajor_val_three, Shape.rowMajor_val_two]
    show (bb.val * 1 + 0) * 64 + q.val = bb.val * 64 + q.val
    omega
  · exact slice3_axis1_apply m X h bb (0 : Fin 1) q nd (by rw [hm]; rfl)

/-! ## The new hidden state of the block -/

theorem pay26_eq (v2 : Vec Ideal S128x16x64 .f32) (v12 : FVec Ideal S128x16x64 .f32) (v180 : FVec Ideal S128x16 .f32)
    (v190 : FVec Ideal S128x16x64 .f32) (v195 : Vec Ideal S64 .f32) (v203 v206 : Vec Ideal S64x192 .f32) (v210 v215 : Vec Ideal S192 .f32) :
    k0_pay26 (F := Ideal) v2 v12 v180 v190 v195 v203 v206 v210 v215
      = gruv (gpre (gin v12 v180 v190 v195) v203 v210) (gpre v2 v206 v215) v2 := rfl

/-! ## The sixteen new hidden states laid side by side -/

/-- The extents along axis 1 of the first c of sixteen [128,64] pieces add up to 64 * c. -/
theorem cat_pre {α : Type} (xs : List ((s : Shape) × (s.Idx → α))) (hsh : xs.map (·.1) = List.replicate 16 S128x64)
    (c : Nat) (hc : c ≤ 15) :
    (((xs.take c).map (·.1)).map fun s : Shape => if h : s.rank = S128x1024.rank then s.size ((1 : Fin S128x1024.rank).cast h.symm) else 0).sum = 64 * c := by
  rw [List.map_take, hsh, List.take_replicate, List.map_replicate, List.sum_replicate, Nat.min_eq_left (by omega), smul_eq_mul]
  show c * 64 = 64 * c
  omega

/-- Sixteen [128,64] pieces laid along axis 1: position k reads piece k / 64 at k % 64. -/
theorem cat_apply {α : Type} (xs : List ((s : Shape) × (s.Idx → α))) (h : Shape.Concatenates (xs.map (·.1)) S128x1024 1)
    (c : Nat) (hc : c ≤ 15) (x₁ : S128x64.Idx → α) (hxc : xs[c]? = some ⟨S128x64, x₁⟩)
    (hsh : xs.map (·.1) = List.replicate 16 S128x64)
    (bb : Fin 128) (k : Fin 1024) (hk : k.val / 64 = c) :
    concatenate S128x1024 1 xs h (ix2 bb k) = x₁ (ix2 bb ⟨k.val % 64, Nat.mod_lt _ (by decide)⟩) := by
  have hlen : xs.length = 16 := by
    have := congrArg List.length hsh
    rwa [List.length_map, List.length_replicate] at this
  have hcl : c < xs.length := by omega
  have hxc' : xs[c] = ⟨S128x64, x₁⟩ := by
    rw [List.getElem?_eq_getElem hcl] at hxc
    exact Option.some.inj hxc
  exact concatenate_apply_piece 1 xs h (ix2 bb k) c hcl S128x64 x₁ hxc' rfl (64 * c) (cat_pre xs hsh c hc)
    (ix2 bb ⟨k.val % 64, Nat.mod_lt _ (by decide)⟩)
    (fun b hb => by
      match b with
      | ⟨0, _⟩ => rfl
      | ⟨1, _⟩ => exact absurd rfl hb)
    (by show 64 * c + k.val % 64 = k.val; omega)

/-! ## The linear head -/

theorem head_lhs_0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
theorem head_lhs_1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
theorem head_rhs_0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
theorem head_rhs_1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-- The head's product into a zero accumulator, at environment r and output o: the sum over the 1024 laid-out hidden numbers. -/
theorem head_matmul_apply {φ₁ φ₂ : FTy} (A : FVec Ideal S128x1024 φ₁) (W : FVec Ideal S1024x512 φ₂) (r : Fin 128) (g : Fin 512) :
    matmul dot_S128x1024_S1024x512_S128x512_1_0_0_1_n_n none A W (constant S128x512 .f32 0x00000000#32) (ix2 r g)
      = ∑ j : Fin 1024, A (ix2 r j) * W (ix2 j g) := by
  simp only [matmul]
  rw [Ideal.matmul_constant_zero_apply, ← Equiv.sum_comp (contrEquiv1 dot_S128x1024_S1024x512_S128x512_1_0_0_1_n_n 1024 rfl rfl).symm]
  refine Finset.sum_congr rfl fun k _ => ?_
  have hk := contrEquiv1_symm_val dot_S128x1024_S1024x512_S128x512_1_0_0_1_n_n 1024 rfl rfl k
  have el : dot_S128x1024_S1024x512_S128x512_1_0_0_1_n_n.lhsIdx (ix2 r g) ((contrEquiv1 dot_S128x1024_S1024x512_S128x512_1_0_0_1_n_n 1024 rfl rfl).symm k) = ix2 r k := funext fun a => Fin.ext (by
    match a with
    | ⟨0, _⟩ => exact head_lhs_0 _ _
    | ⟨1, _⟩ => exact (head_lhs_1 _ _).trans hk)
  have er : dot_S128x1024_S1024x512_S128x512_1_0_0_1_n_n.rhsIdx (ix2 r g) ((contrEquiv1 dot_S128x1024_S1024x512_S128x512_1_0_0_1_n_n 1024 rfl rfl).symm k) = ix2 k g := funext fun a => Fin.ext (by
    match a with
    | ⟨0, _⟩ => exact (head_rhs_0 _ _).trans hk
    | ⟨1, _⟩ => exact head_rhs_1 _ _)
  rw [el, er]

/-- The [512] bias laid along each of the 128 environments. -/
theorem head_bias_apply (b : Vec Ideal S512 .f32) (r : Fin 128) (o : Fin 512) :
    broadcastTo S128x512 (shapeCast S1x512 b shapeCasts_S512_S1x512) broadcasts_S1x512_S128x512 (ix2 r o) = b (ix1 o) :=
  (broadcastTo_1b_ab_apply _ _ r o).trans (shapeCast_a_1a_apply b _ 0 o)

end KGru

open KGru

/-! ## The four values at an index -/

theorem pay26_apply (v2 : Vec Ideal S128x16x64 .f32) (v12 : FVec Ideal S128x16x64 .f32) (v180 : FVec Ideal S128x16 .f32)
    (v190 : FVec Ideal S128x16x64 .f32) (v195 : Vec Ideal S64 .f32) (v203 v206 : Vec Ideal S64x192 .f32) (v210 v215 : Vec Ideal S192 .f32)
    (bb : Fin 128) (n : Fin 16) (q : Fin 64) :
    k0_pay26 (F := Ideal) v2 v12 v180 v190 v195 v203 v206 v210 v215 (ix3 bb n q)
      = Cert.Gnn.gru (Cert.Gnn.gates (fun j => (v190 (ix3 bb n j) + Ideal.div (v12 (ix3 bb n j)) (v180 (ix2 bb n))) + v195 (ix1 j)) (Cert.Gnn.mat v203) (Cert.Gnn.vec v210))
          (Cert.Gnn.gates (fun j => v2 (ix3 bb n j)) (Cert.Gnn.mat v206) (Cert.Gnn.vec v215)) (fun q => v2 (ix3 bb n q)) q := by
  rw [pay26_eq, gruv_apply]
  have e1 : (fun g => gpre (gin v12 v180 v190 v195) v203 v210 (ix2 (row bb n) g))
      = Cert.Gnn.gates (fun j => (v190 (ix3 bb n j) + Ideal.div (v12 (ix3 bb n j)) (v180 (ix2 bb n))) + v195 (ix1 j)) (Cert.Gnn.mat v203) (Cert.Gnn.vec v210) := by
    funext g
    rw [gpre_apply]
    exact congrArg (fun u => Cert.Gnn.gates u (Cert.Gnn.mat v203) (Cert.Gnn.vec v210) g) (funext fun j => gin_apply v12 v180 v190 v195 bb n j)
  have e2 : (fun g => gpre v2 v206 v215 (ix2 (row bb n) g))
      = Cert.Gnn.gates (fun j => v2 (ix3 bb n j)) (Cert.Gnn.mat v206) (Cert.Gnn.vec v215) := by
    funext g
    exact gpre_apply v2 v206 v215 bb n g
  rw [e1, e2]

/-- Node 0's new hidden state, sliced out and the unit axis dropped. -/
theorem pay27_apply (v2 : Vec Ideal S128x16x64 .f32) (v12 : FVec Ideal S128x16x64 .f32) (v180 : FVec Ideal S128x16 .f32)
    (v190 : FVec Ideal S128x16x64 .f32) (v195 : Vec Ideal S64 .f32) (v203 v206 : Vec Ideal S64x192 .f32) (v210 v215 : Vec Ideal S192 .f32)
    (bb : Fin 128) (q : Fin 64) :
    k0_pay27 (F := Ideal) v2 v12 v180 v190 v195 v203 v206 v210 v215 (ix2 bb q)
      = k0_pay26 (F := Ideal) v2 v12 v180 v190 v195 v203 v206 v210 v215 (ix3 bb 0 q) := by
  unfold k0_pay27
  exact node_slice_apply _ _ _ 0 (by decide) bb q

theorem pay1_apply (v238 : FVec Ideal S128x16x64 .f32) (v240 : FVec Ideal S128x64 .f32)
    (h240 : ∀ (bb : Fin 128) (q : Fin 64), v240 (ix2 bb q) = v238 (ix3 bb 0 q)) (bb : Fin 128) (k : Fin 1024) :
    k0_pay1 (F := Ideal) v238 v240 (ix2 bb k) = Cert.Gnn.hcat (fun n q => v238 (ix3 bb n q)) k := by
  have hlt : k.val / 64 < 16 := by have := k.isLt; omega
  unfold k0_pay1
  obtain ⟨c, hc⟩ : ∃ c, k.val / 64 = c := ⟨_, rfl⟩
  rw [hc] at hlt
  interval_cases c
  · refine (cat_apply _ _ 0 (by decide : 0 ≤ 15) _ rfl rfl bb k hc).trans ?_
    exact (h240 bb _).trans (congrArg (fun nd : Fin 16 => v238 (ix3 bb nd ⟨k.val % 64, Nat.mod_lt _ (by decide)⟩)) (Fin.ext hc.symm))
  · refine (cat_apply _ _ 1 (by decide : 1 ≤ 15) _ rfl rfl bb k hc).trans ?_
    exact node_slice_apply 1 v238 _ ⟨k.val / 64, by omega⟩ hc bb _
  · refine (cat_apply _ _ 2 (by decide : 2 ≤ 15) _ rfl rfl bb k hc).trans ?_
    exact node_slice_apply 2 v238 _ ⟨k.val / 64, by omega⟩ hc bb _
  · refine (cat_apply _ _ 3 (by decide : 3 ≤ 15) _ rfl rfl bb k hc).trans ?_
    exact node_slice_apply 3 v238 _ ⟨k.val / 64, by omega⟩ hc bb _
  · refine (cat_apply _ _ 4 (by decide : 4 ≤ 15) _ rfl rfl bb k hc).trans ?_
    exact node_slice_apply 4 v238 _ ⟨k.val / 64, by omega⟩ hc bb _
  · refine (cat_apply _ _ 5 (by decide : 5 ≤ 15) _ rfl rfl bb k hc).trans ?_
    exact node_slice_apply 5 v238 _ ⟨k.val / 64, by omega⟩ hc bb _
  · refine (cat_apply _ _ 6 (by decide : 6 ≤ 15) _ rfl rfl bb k hc).trans ?_
    exact node_slice_apply 6 v238 _ ⟨k.val / 64, by omega⟩ hc bb _
  · refine (cat_apply _ _ 7 (by decide : 7 ≤ 15) _ rfl rfl bb k hc).trans ?_
    exact node_slice_apply 7 v238 _ ⟨k.val / 64, by omega⟩ hc bb _
  · refine (cat_apply _ _ 8 (by decide : 8 ≤ 15) _ rfl rfl bb k hc).trans ?_
    exact node_slice_apply 8 v238 _ ⟨k.val / 64, by omega⟩ hc bb _
  · refine (cat_apply _ _ 9 (by decide : 9 ≤ 15) _ rfl rfl bb k hc).trans ?_
    exact node_slice_apply 9 v238 _ ⟨k.val / 64, by omega⟩ hc bb _
  · refine (cat_apply _ _ 10 (by decide : 10 ≤ 15) _ rfl rfl bb k hc).trans ?_
    exact node_slice_apply 10 v238 _ ⟨k.val / 64, by omega⟩ hc bb _
  · refine (cat_apply _ _ 11 (by decide : 11 ≤ 15) _ rfl rfl bb k hc).trans ?_
    exact node_slice_apply 11 v238 _ ⟨k.val / 64, by omega⟩ hc bb _
  · refine (cat_apply _ _ 12 (by decide : 12 ≤ 15) _ rfl rfl bb k hc).trans ?_
    exact node_slice_apply 12 v238 _ ⟨k.val / 64, by omega⟩ hc bb _
  · refine (cat_apply _ _ 13 (by decide : 13 ≤ 15) _ rfl rfl bb k hc).trans ?_
    exact node_slice_apply 13 v238 _ ⟨k.val / 64, by omega⟩ hc bb _
  · refine (cat_apply _ _ 14 (by decide : 14 ≤ 15) _ rfl rfl bb k hc).trans ?_
    exact node_slice_apply 14 v238 _ ⟨k.val / 64, by omega⟩ hc bb _
  · refine (cat_apply _ _ 15 (by decide : 15 ≤ 15) _ rfl rfl bb k hc).trans ?_
    exact node_slice_apply 15 v238 _ ⟨k.val / 64, by omega⟩ hc bb _

theorem pay2_apply (v238 : FVec Ideal S128x16x64 .f32) (v240 : FVec Ideal S128x64 .f32) (v274 : Vec Ideal S1024x512 .f32)
    (v278 : Vec Ideal S512 .f32) (bb : Fin 128) (o : Fin 512) :
    k0_pay2 (F := Ideal) v238 v240 v274 v278 (ix2 bb o)
      = (∑ k : Fin 1024, k0_pay1 (F := Ideal) v238 v240 (ix2 bb k) * v274 (ix2 k o)) + v278 (ix1 o) := by
  unfold k0_pay2
  show matmul dot_S128x1024_S1024x512_S128x512_1_0_0_1_n_n none (truncf .bf16 (k0_pay1 v238 v240) bitsLt_bf16_f32)
        (truncf .bf16 (shapeCast S1024x512 v274 shapeCasts_S1024x512_S1024x512) bitsLt_bf16_f32) (constant S128x512 .f32 0x00000000#32) (ix2 bb o)
      + broadcastTo S128x512 (shapeCast S1x512 v278 shapeCasts_S512_S1x512) broadcasts_S1x512_S128x512 (ix2 bb o) = _
  rw [head_matmul_apply, head_bias_apply]
  refine congrArg (· + v278 (ix1 o)) (Finset.sum_congr rfl fun k _ => ?_)
  rw [truncf_apply, truncf_apply, shapeCast_self]

end Cert.KernelIdeal.Hand

end
-- ==== Proof.KHnew.lean ====
/-
  The new hidden state of a block of 128 environments, as the body computes it from the loaded blocks, is the
  specification's new hidden state of each environment of the block: the product with the convolution's weight, the
  matrix of edge counts and the degrees, the normalised aggregation, and the GRU step, each read at an index.
-/
import proofs.«418072_j41214506172575_3_alg».proof.Proof.KNames
import proofs.«418072_j41214506172575_3_alg».proof.Proof.KCount
import proofs.«418072_j41214506172575_3_alg».proof.Proof.KGcn
import proofs.«418072_j41214506172575_3_alg».proof.Proof.KGru
import proofs.«418072_j41214506172575_3_alg».proof.Proof.Spec

noncomputable section

namespace Cert.KernelIdeal.Hand

open Cert.KernelIdeal Cert.KernelIdeal.Gen Idealize.ShloMosaic Idealize.ShloMosaic.TcCoe Idealize.ShloMosaic.ValueIdx

/-- The aggregation of a block at (b, n, j): the specification's sum over the sources of node n of environment b. -/
theorem Agg_apply (v12 : FVec Ideal S128x16x64 .f32) (v1 : Vec Ideal S128x2x128 .i32) (bb : Fin 128) (n : Fin 16) (j : Fin 64) :
    Agg (F := Ideal) v12 v1 (ix3 bb n j)
      = Cert.Gnn.agg (fun e => v1 (ix3 bb 0 e)) (fun e => v1 (ix3 bb 1 e)) (fun m j => v12 (ix3 bb m j)) n j := by
  unfold Agg
  rw [pay25_apply]
  unfold Cert.Gnn.agg Cert.Gnn.dinv
  refine Finset.sum_congr rfl fun mm _ => ?_
  rw [← Mcnt_apply v1 bb n mm, ← Deg_apply v1 bb n, ← Deg_apply v1 bb mm]
  rfl

/-- The convolution's output row of node n of environment b, as the GRU step's input side reads it. -/
theorem gcn_row (x0 : Vec Ideal S128x16x128 .f32) (x1 : Vec Ideal S128x2x128 .i32) (x3 : Vec Ideal S128x64 .f32) (x4 : Vec Ideal S64 .f32)
    (bb : Fin 128) (n : Fin 16) :
    (fun j : Fin 64 => (Agg (F := Ideal) (k0_pay3 x0 x3) x1 (ix3 bb n j)
        + Ideal.div (k0_pay3 (F := Ideal) x0 x3 (ix3 bb n j)) (Deg (F := Ideal) x1 (ix2 bb n))) + x4 (ix1 j))
      = Cert.Gnn.gcn (Cert.Gnn.envRow x1 bb) (Cert.Gnn.envCol x1 bb) (Cert.Gnn.xw (Cert.Gnn.envF x0 bb) (Cert.Gnn.mat x3)) (Cert.Gnn.vec x4) n := by
  funext j
  rw [Agg_apply, pay3_apply, Deg_apply]
  have e : (fun (m : Fin 16) (j : Fin 64) => k0_pay3 (F := Ideal) x0 x3 (ix3 bb m j))
      = Cert.Gnn.xw (Cert.Gnn.envF x0 bb) (Cert.Gnn.mat x3) := by
    funext m j
    exact pay3_apply x0 x3 bb m j
  rw [e]
  rfl

/-- THE BLOCK'S NEW HIDDEN STATE at (b, n, q) is the specification's, of environment b's slices of the loaded blocks. -/
theorem Hnew_apply (x0 : Vec Ideal S128x16x128 .f32) (x1 : Vec Ideal S128x2x128 .i32) (x2 : Vec Ideal S128x16x64 .f32) (x3 : Vec Ideal S128x64 .f32)
    (x4 : Vec Ideal S64 .f32) (x5 : Vec Ideal S64x192 .f32) (x6 : Vec Ideal S192 .f32) (x7 : Vec Ideal S64x192 .f32) (x8 : Vec Ideal S192 .f32)
    (bb : Fin 128) (n : Fin 16) (q : Fin 64) :
    Hnew (F := Ideal) x0 x1 x2 x3 x4 x5 x6 x7 x8 (ix3 bb n q) = Cert.Gnn.hnewB x0 x1 x2 x3 x4 x5 x7 x6 x8 bb n q := by
  unfold Hnew
  rw [pay26_apply, gcn_row x0 x1 x3 x4 bb n]
  rfl

/-- Node 0's slice is the new hidden state at node 0. -/
theorem Hnew0_apply (x0 : Vec Ideal S128x16x128 .f32) (x1 : Vec Ideal S128x2x128 .i32) (x2 : Vec Ideal S128x16x64 .f32) (x3 : Vec Ideal S128x64 .f32)
    (x4 : Vec Ideal S64 .f32) (x5 : Vec Ideal S64x192 .f32) (x6 : Vec Ideal S192 .f32) (x7 : Vec Ideal S64x192 .f32) (x8 : Vec Ideal S192 .f32)
    (bb : Fin 128) (q : Fin 64) :
    Hnew0 (F := Ideal) x0 x1 x2 x3 x4 x5 x6 x7 x8 (ix2 bb q) = Hnew (F := Ideal) x0 x1 x2 x3 x4 x5 x6 x7 x8 (ix3 bb 0 q) := by
  unfold Hnew0 Hnew
  exact pay27_apply _ _ _ _ _ _ _ _ _ bb q

/-- The sixteen new hidden states of environment b laid side by side, at position k. -/
theorem hcat_apply (x0 : Vec Ideal S128x16x128 .f32) (x1 : Vec Ideal S128x2x128 .i32) (x2 : Vec Ideal S128x16x64 .f32) (x3 : Vec Ideal S128x64 .f32)
    (x4 : Vec Ideal S64 .f32) (x5 : Vec Ideal S64x192 .f32) (x6 : Vec Ideal S192 .f32) (x7 : Vec Ideal S64x192 .f32) (x8 : Vec Ideal S192 .f32)
    (bb : Fin 128) (k : Fin 1024) :
    k0_pay1 (F := Ideal) (Hnew x0 x1 x2 x3 x4 x5 x6 x7 x8) (Hnew0 x0 x1 x2 x3 x4 x5 x6 x7 x8) (ix2 bb k)
      = Cert.Gnn.hcat (Cert.Gnn.hnewB x0 x1 x2 x3 x4 x5 x7 x6 x8 bb) k := by
  rw [pay1_apply _ _ (fun b q => Hnew0_apply x0 x1 x2 x3 x4 x5 x6 x7 x8 b q) bb k]
  unfold Cert.Gnn.hcat
  exact Hnew_apply x0 x1 x2 x3 x4 x5 x6 x7 x8 bb _ _

/-- The head of environment b at output o. -/
theorem logits_apply (x0 : Vec Ideal S128x16x128 .f32) (x1 : Vec Ideal S128x2x128 .i32) (x2 : Vec Ideal S128x16x64 .f32) (x3 : Vec Ideal S128x64 .f32)
    (x4 : Vec Ideal S64 .f32) (x5 : Vec Ideal S64x192 .f32) (x6 : Vec Ideal S192 .f32) (x7 : Vec Ideal S64x192 .f32) (x8 : Vec Ideal S192 .f32)
    (x9 : Vec Ideal S1024x512 .f32) (x10 : Vec Ideal S512 .f32) (bb : Fin 128) (o : Fin 512) :
    k0_pay2 (F := Ideal) (Hnew x0 x1 x2 x3 x4 x5 x6 x7 x8) (Hnew0 x0 x1 x2 x3 x4 x5 x6 x7 x8) x9 x10 (ix2 bb o)
      = Cert.Gnn.logit (Cert.Gnn.hnewB x0 x1 x2 x3 x4 x5 x7 x6 x8 bb) (Cert.Gnn.mat x9) (Cert.Gnn.vec x10) o := by
  rw [pay2_apply]
  unfold Cert.Gnn.logit
  refine congrArg₂ (· + ·) (Finset.sum_congr rfl fun k _ => ?_) rfl
  rw [hcat_apply]
  rfl

end Cert.KernelIdeal.Hand

end
-- ==== Proof.SpecG.lean ====
/-
  The two results as functions of the eleven argument arrays: the head's output [16384, 512] and the new hidden state
  [16384, 16, 64], environment by environment (the GRU and head weights enter transposed, as both programs use them).
-/
import proofs.«418072_j41214506172575_3_alg».proof.Proof.Spec

noncomputable section

namespace Cert.Gnn

open Idealize.ShloMosaic Idealize.ShloMosaic.ValueIdx

/-- The new hidden state of environment b, from the argument arrays. -/
def hnewG (x0 : (⟨3, ![16384, 16, 128]⟩ : Shape).Idx → EReal) (x1 : (⟨3, ![16384, 2, 128]⟩ : Shape).Idx → BitVec 32)
    (x2 : (⟨3, ![16384, 16, 64]⟩ : Shape).Idx → EReal) (x3 : (⟨2, ![128, 64]⟩ : Shape).Idx → EReal) (x4 : (⟨1, ![64]⟩ : Shape).Idx → EReal)
    (x5 x6 : (⟨2, ![192, 64]⟩ : Shape).Idx → EReal) (x7 x8 : (⟨1, ![192]⟩ : Shape).Idx → EReal) (b : Fin 16384) : Fin 16 → Fin 64 → EReal :=
  hnew (envF x0 b) (envRow x1 b) (envCol x1 b) (envF x2 b) (mat x3) (vec x4) (matT x5) (matT x6) (vec x7) (vec x8)

/-- The head's output array. -/
def logitsG (x0 : (⟨3, ![16384, 16, 128]⟩ : Shape).Idx → EReal) (x1 : (⟨3, ![16384, 2, 128]⟩ : Shape).Idx → BitVec 32)
    (x2 : (⟨3, ![16384, 16, 64]⟩ : Shape).Idx → EReal) (x3 : (⟨2, ![128, 64]⟩ : Shape).Idx → EReal) (x4 : (⟨1, ![64]⟩ : Shape).Idx → EReal)
    (x5 x6 : (⟨2, ![192, 64]⟩ : Shape).Idx → EReal) (x7 x8 : (⟨1, ![192]⟩ : Shape).Idx → EReal)
    (x9 : (⟨2, ![512, 1024]⟩ : Shape).Idx → EReal) (x10 : (⟨1, ![512]⟩ : Shape).Idx → EReal) : (⟨2, ![16384, 512]⟩ : Shape).Idx → EReal :=
  fun i => logit (hnewG x0 x1 x2 x3 x4 x5 x6 x7 x8 ⟨(i 0).val, (i 0).isLt⟩) (matT x9) (vec x10) ⟨(i 1).val, (i 1).isLt⟩

/-- The new hidden state array. -/
def nexthG (x0 : (⟨3, ![16384, 16, 128]⟩ : Shape).Idx → EReal) (x1 : (⟨3, ![16384, 2, 128]⟩ : Shape).Idx → BitVec 32)
    (x2 : (⟨3, ![16384, 16, 64]⟩ : Shape).Idx → EReal) (x3 : (⟨2, ![128, 64]⟩ : Shape).Idx → EReal) (x4 : (⟨1, ![64]⟩ : Shape).Idx → EReal)
    (x5 x6 : (⟨2, ![192, 64]⟩ : Shape).Idx → EReal) (x7 x8 : (⟨1, ![192]⟩ : Shape).Idx → EReal) : (⟨3, ![16384, 16, 64]⟩ : Shape).Idx → EReal :=
  fun i => hnewG x0 x1 x2 x3 x4 x5 x6 x7 x8 ⟨(i 0).val, (i 0).isLt⟩ ⟨(i 1).val, (i 1).isLt⟩ ⟨(i 2).val, (i 2).isLt⟩

end Cert.Gnn

end
-- ==== Proof.KBlock.lean ====
/-
  From the blocks to the arrays.  Grid point t of the 128 stages environments 128 t .. 128 t + 127 of the three batched
  inputs and the whole of each weight and bias; the body's two stores are the head's outputs and the laid-out new
  hidden states of those environments.  The sixteen-thousand-row result arrays are therefore one function each of the
  argument arrays, row by row; the three weights the region reads transposed are transposed by the host lines before
  it, and the host line after it splits the laid-out hidden states back into [16384, 16, 64].
-/
import proofs.«418072_j41214506172575_3_alg».proof.Proof.FrameKI
import proofs.«418072_j41214506172575_3_alg».proof.Proof.KHnew
import proofs.«418072_j41214506172575_3_alg».proof.Proof.SpecG
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arrays as the region finds them, and the blocks, at their literal types -/

abbrev xA (c : Dev nD) : Vec Ideal S16384x16x128 .f32 := V m c main_arg0
abbrev eA (c : Dev nD) : Vec Ideal S16384x2x128 .i32 := V m c main_arg1
abbrev hA (c : Dev nD) : Vec Ideal S16384x16x64 .f32 := V m c main_arg2
abbrev wgA (c : Dev nD) : Vec Ideal S128x64 .f32 := V m c main_arg3
abbrev bgA (c : Dev nD) : Vec Ideal S64 .f32 := V m c main_arg4
abbrev wihA (c : Dev nD) : Vec Ideal S64x192 .f32 := V m c main_v0
abbrev bihA (c : Dev nD) : Vec Ideal S192 .f32 := V m c main_arg7
abbrev whhA (c : Dev nD) : Vec Ideal S64x192 .f32 := V m c main_v1
abbrev bhhA (c : Dev nD) : Vec Ideal S192 .f32 := V m c main_arg8
abbrev wlinA (c : Dev nD) : Vec Ideal S1024x512 .f32 := V m c main_v2
abbrev blinA (c : Dev nD) : Vec Ideal S512 .f32 := V m c main_arg10

abbrev xB (c : Dev nD) (t : Fin cfg0.N) : Vec Ideal S128x16x128 .f32 := iblk m c 0 t
abbrev eB (c : Dev nD) (t : Fin cfg0.N) : Vec Ideal S128x2x128 .i32 := iblk m c 1 t
abbrev hB (c : Dev nD) (t : Fin cfg0.N) : Vec Ideal S128x16x64 .f32 := iblk m c 2 t
abbrev wgB (c : Dev nD) (t : Fin cfg0.N) : Vec Ideal S128x64 .f32 := iblk m c 3 t
abbrev bgB (c : Dev nD) (t : Fin cfg0.N) : Vec Ideal S64 .f32 := iblk m c 4 t
abbrev wihB (c : Dev nD) (t : Fin cfg0.N) : Vec Ideal S64x192 .f32 := iblk m c 5 t
abbrev bihB (c : Dev nD) (t : Fin cfg0.N) : Vec Ideal S192 .f32 := iblk m c 6 t
abbrev whhB (c : Dev nD) (t : Fin cfg0.N) : Vec Ideal S64x192 .f32 := iblk m c 7 t
abbrev bhhB (c : Dev nD) (t : Fin cfg0.N) : Vec Ideal S192 .f32 := iblk m c 8 t
abbrev wlinB (c : Dev nD) (t : Fin cfg0.N) : Vec Ideal S1024x512 .f32 := iblk m c 9 t
abbrev blinB (c : Dev nD) (t : Fin cfg0.N) : Vec Ideal S512 .f32 := iblk m c 10 t

/-- The 128 grid points. -/
theorem t_lt (t : Fin cfg0.N) : t.val < 128 := lt_of_lt_of_eq t.isLt N_0

/-- Row bb of point t's block is row 128 t + bb of the array. -/
def grow (t : Fin cfg0.N) (bb : Fin 128) : Fin 16384 := ⟨128 * t.val + bb.val, by have := t_lt t; have := bb.isLt; omega⟩

/-- The printed index maps over the grid: the batched windows move one block per point along axis 0, the others stay. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-! ## What a block holds: rows of the arrays -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Environment bb of point t's block of the features is environment 128 t + bb of the array. -/
theorem envF_x (c : Dev nD) (t : Fin cfg0.N) (bb : Fin 128) :
    Cert.Gnn.envF (xB m c t) bb = Cert.Gnn.envF (xA m c) (grow t bb) := by
  funext n k
  show V m c main_arg0 (((cfg0.win 0).blk t).view.emb (ix3 bb n k)) = V m c main_arg0 (ix3 (grow t bb) n k)
  refine congrArg _ (funext fun a => Fin.ext ?_)
  obtain ⟨⟨e0, e1, e2⟩, -⟩ := idx_facts t
  match a with
  | ⟨0, _⟩ => show win0_0.index t (0 : Fin 3) * 128 + 1 * bb.val = 128 * t.val + bb.val; omega
  | ⟨1, _⟩ => show win0_0.index t (1 : Fin 3) * 16 + 1 * n.val = n.val; omega
  | ⟨2, _⟩ => show win0_0.index t (2 : Fin 3) * 128 + 1 * k.val = k.val; omega

/-- The same for the previous hidden state. -/
theorem envF_h (c : Dev nD) (t : Fin cfg0.N) (bb : Fin 128) :
    Cert.Gnn.envF (hB m c t) bb = Cert.Gnn.envF (hA m c) (grow t bb) := by
  funext n k
  show V m c main_arg2 (((cfg0.win 2).blk t).view.emb (ix3 bb n k)) = V m c main_arg2 (ix3 (grow t bb) n k)
  refine congrArg _ (funext fun a => Fin.ext ?_)
  obtain ⟨-, -, ⟨e0, e1, e2⟩, -⟩ := idx_facts t
  match a with
  | ⟨0, _⟩ => show win0_2.index t (0 : Fin 3) * 128 + 1 * bb.val = 128 * t.val + bb.val; omega
  | ⟨1, _⟩ => show win0_2.index t (1 : Fin 3) * 16 + 1 * n.val = n.val; omega
  | ⟨2, _⟩ => show win0_2.index t (2 : Fin 3) * 64 + 1 * k.val = k.val; omega

/-- The same for the edge words, sources and targets. -/
theorem env_e (c : Dev nD) (t : Fin cfg0.N) (bb : Fin 128) (s : Fin 2) (e : Fin 128) :
    eB m c t (ix3 bb s e) = eA m c (ix3 (grow t bb) s e) := by
  show V m c main_arg1 (((cfg0.win 1).blk t).view.emb (ix3 bb s e)) = V m c main_arg1 (ix3 (grow t bb) s e)
  refine congrArg _ (funext fun a => Fin.ext ?_)
  obtain ⟨-, ⟨e0, e1, e2⟩, -⟩ := idx_facts t
  match a with
  | ⟨0, _⟩ => show win0_1.index t (0 : Fin 3) * 128 + 1 * bb.val = 128 * t.val + bb.val; omega
  | ⟨1, _⟩ => show win0_1.index t (1 : Fin 3) * 2 + 1 * s.val = s.val; omega
  | ⟨2, _⟩ => show win0_1.index t (2 : Fin 3) * 128 + 1 * e.val = e.val; omega

theorem envRow_e (c : Dev nD) (t : Fin cfg0.N) (bb : Fin 128) :
    Cert.Gnn.envRow (eB m c t) bb = Cert.Gnn.envRow (eA m c) (grow t bb) := funext fun e => env_e m c t bb 0 e
theorem envCol_e (c : Dev nD) (t : Fin cfg0.N) (bb : Fin 128) :
    Cert.Gnn.envCol (eB m c t) bb = Cert.Gnn.envCol (eA m c) (grow t bb) := funext fun e => env_e m c t bb 1 e

/-- Every point's block of a weight or a bias is the whole array. -/
theorem blk_wg (c : Dev nD) (t : Fin cfg0.N) : wgB m c t = wgA m c := by
  funext y
  show V m c main_arg3 (((cfg0.win 3).blk t).view.emb y) = V m c main_arg3 y
  refine congrArg _ (funext fun a => Fin.ext ?_)
  obtain ⟨-, -, -, ⟨e0, e1⟩, -⟩ := idx_facts t
  match a with
  | ⟨0, _⟩ => show win0_3.index t (0 : Fin 2) * 128 + 1 * (y 0).val = (y 0).val; omega
  | ⟨1, _⟩ => show win0_3.index t (1 : Fin 2) * 64 + 1 * (y 1).val = (y 1).val; omega
theorem blk_bg (c : Dev nD) (t : Fin cfg0.N) : bgB m c t = bgA m c := by
  funext y
  show V m c main_arg4 (((cfg0.win 4).blk t).view.emb y) = V m c main_arg4 y
  refine congrArg _ (funext fun a => Fin.ext ?_)
  obtain ⟨-, -, -, -, e0, -⟩ := idx_facts t
  match a with
  | ⟨0, _⟩ => show win0_4.index t (0 : Fin 1) * 64 + 1 * (y 0).val = (y 0).val; omega
theorem blk_wih (c : Dev nD) (t : Fin cfg0.N) : wihB m c t = wihA m c := by
  funext y
  show V m c main_v0 (((cfg0.win 5).blk t).view.emb y) = V m c main_v0 y
  refine congrArg _ (funext fun a => Fin.ext ?_)
  obtain ⟨-, -, -, -, -, ⟨e0, e1⟩, -⟩ := idx_facts t
  match a with
  | ⟨0, _⟩ => show win0_5.index t (0 : Fin 2) * 64 + 1 * (y 0).val = (y 0).val; omega
  | ⟨1, _⟩ => show win0_5.index t (1 : Fin 2) * 192 + 1 * (y 1).val = (y 1).val; omega
theorem blk_bih (c : Dev nD) (t : Fin cfg0.N) : bihB m c t = bihA m c := by
  funext y
  show V m c main_arg7 (((cfg0.win 6).blk t).view.emb y) = V m c main_arg7 y
  refine congrArg _ (funext fun a => Fin.ext ?_)
  obtain ⟨-, -, -, -, -, -, e0, -⟩ := idx_facts t
  match a with
  | ⟨0, _⟩ => show win0_6.index t (0 : Fin 1) * 192 + 1 * (y 0).val = (y 0).val; omega
theorem blk_whh (c : Dev nD) (t : Fin cfg0.N) : whhB m c t = whhA m c := by
  funext y
  show V m c main_v1 (((cfg0.win 7).blk t).view.emb y) = V m c main_v1 y
  refine congrArg _ (funext fun a => Fin.ext ?_)
  obtain ⟨-, -, -, -, -, -, -, ⟨e0, e1⟩, -⟩ := idx_facts t
  match a with
  | ⟨0, _⟩ => show win0_7.index t (0 : Fin 2) * 64 + 1 * (y 0).val = (y 0).val; omega
  | ⟨1, _⟩ => show win0_7.index t (1 : Fin 2) * 192 + 1 * (y 1).val = (y 1).val; omega
theorem blk_bhh (c : Dev nD) (t : Fin cfg0.N) : bhhB m c t = bhhA m c := by
  funext y
  show V m c main_arg8 (((cfg0.win 8).blk t).view.emb y) = V m c main_arg8 y
  refine congrArg _ (funext fun a => Fin.ext ?_)
  obtain ⟨-, -, -, -, -, -, -, -, e0, -⟩ := idx_facts t
  match a with
  | ⟨0, _⟩ => show win0_8.index t (0 : Fin 1) * 192 + 1 * (y 0).val = (y 0).val; omega
theorem blk_wlin (c : Dev nD) (t : Fin cfg0.N) : wlinB m c t = wlinA m c := by
  funext y
  show V m c main_v2 (((cfg0.win 9).blk t).view.emb y) = V m c main_v2 y
  refine congrArg _ (funext fun a => Fin.ext ?_)
  obtain ⟨-, -, -, -, -, -, -, -, -, ⟨e0, e1⟩, -⟩ := idx_facts t
  match a with
  | ⟨0, _⟩ => show win0_9.index t (0 : Fin 2) * 1024 + 1 * (y 0).val = (y 0).val; omega
  | ⟨1, _⟩ => show win0_9.index t (1 : Fin 2) * 512 + 1 * (y 1).val = (y 1).val; omega
theorem blk_blin (c : Dev nD) (t : Fin cfg0.N) : blinB m c t = blinA m c := by
  funext y
  show V m c main_arg10 (((cfg0.win 10).blk t).view.emb y) = V m c main_arg10 y
  refine congrArg _ (funext fun a => Fin.ext ?_)
  obtain ⟨-, -, -, -, -, -, -, -, -, -, e0, -⟩ := idx_facts t
  match a with
  | ⟨0, _⟩ => show win0_10.index t (0 : Fin 1) * 512 + 1 * (y 0).val = (y 0).val; omega

/-- The new hidden state of environment b, of the arrays as the region finds them. -/
def hnewA (c : Dev nD) (b : Fin 16384) : Fin 16 → Fin 64 → EReal :=
  Cert.Gnn.hnewB (xA m c) (eA m c) (hA m c) (wgA m c) (bgA m c) (wihA m c) (whhA m c) (bihA m c) (bhhA m c) b

/-- Environment bb of point t's blocks has the new hidden state of environment 128 t + bb of the arrays. -/
theorem hnewB_blk (c : Dev nD) (t : Fin cfg0.N) (bb : Fin 128) :
    Cert.Gnn.hnewB (xB m c t) (eB m c t) (hB m c t) (wgB m c t) (bgB m c t) (wihB m c t) (whhB m c t) (bihB m c t) (bhhB m c t) bb
      = hnewA m c (grow t bb) := by
  unfold hnewA Cert.Gnn.hnewB
  rw [envF_x, envF_h, envRow_e, envCol_e, blk_wg, blk_bg, blk_wih, blk_whh, blk_bih, blk_bhh]

/-! ## What each point writes back, and the arrays after the run -/

/-- The head's output array, of the arrays as the region finds them. -/
def logitsA (c : Dev nD) : Vec Ideal S16384x512 .f32 := fun i =>
  Cert.Gnn.logit (hnewA m c ⟨(i 0).val, (i 0).isLt⟩) (Cert.Gnn.mat (wlinA m c)) (Cert.Gnn.vec (blinA m c)) ⟨(i 1).val, (i 1).isLt⟩

/-- The laid-out new hidden states, of the arrays as the region finds them. -/
def hcatA (c : Dev nD) : Vec Ideal S16384x1024 .f32 := fun i =>
  Cert.Gnn.hcat (hnewA m c ⟨(i 0).val, (i 0).isLt⟩) ⟨(i 1).val, (i 1).isLt⟩

/-- WHAT POINT t WRITES BACK to the head's output: rows 128 t .. 128 t + 127 of logitsA. -/
theorem flushed11_eq (c : Dev nD) (t : Fin cfg0.N) :
    (dats m 0 c).flushed 11 t = ((cfg0.win 11).blk t).view.read (Elt Ideal) (logitsA m c) := by
  show (cfg0.win 11).cut (grid0.coords t) ((dats m 0 c).after 11 t) = _
  rw [after0_11]
  unfold out0_11
  rw [View.canon_unit_zero hz2]
  simp only [View.ld_unit_zero (S := S128x16x128) hz3, View.ld_unit_zero (S := S128x2x128) hz3, View.ld_unit_zero (S := S128x16x64) hz3,
    View.ld_unit_zero (S := S128x64) hz2, View.ld_unit_zero (S := S64) hz1, View.ld_unit_zero (S := S64x192) hz2,
    View.ld_unit_zero (S := S192) hz1, View.ld_unit_zero (S := S1024x512) hz2, View.ld_unit_zero (S := S512) hz1]
  funext y
  obtain ⟨bb, o, rfl⟩ : ∃ (bb : Fin 128) (o : Fin 512), y = ix2 bb o := ⟨y 0, y 1, eq_ix2 y⟩
  show k0_pay2 (F := Ideal) (Hnew (xB m c t) (eB m c t) (hB m c t) (wgB m c t) (bgB m c t) (wihB m c t) (bihB m c t) (whhB m c t) (bhhB m c t))
      (Hnew0 (xB m c t) (eB m c t) (hB m c t) (wgB m c t) (bgB m c t) (wihB m c t) (bihB m c t) (whhB m c t) (bhhB m c t))
      (wlinB m c t) (blinB m c t) (ix2 bb o) = logitsA m c (((cfg0.win 11).blk t).view.emb (ix2 bb o))
  refine (logits_apply (xB m c t) (eB m c t) (hB m c t) (wgB m c t) (bgB m c t) (wihB m c t) (bihB m c t) (whhB m c t) (bhhB m c t)
    (wlinB m c t) (blinB m c t) bb o).trans ?_
  rw [hnewB_blk, blk_wlin, blk_blin]
  obtain ⟨-, -, -, -, -, -, -, -, -, -, -, ⟨e0, e1⟩, -⟩ := idx_facts t
  unfold logitsA
  have hr : (⟨((((cfg0.win 11).blk t).view.emb (ix2 bb o)) 0).val, ((((cfg0.win 11).blk t).view.emb (ix2 bb o)) 0).isLt⟩ : Fin 16384) = grow t bb :=
    Fin.ext (by show win0_11.index t (0 : Fin 2) * 128 + 1 * bb.val = 128 * t.val + bb.val; omega)
  have ho : (⟨((((cfg0.win 11).blk t).view.emb (ix2 bb o)) 1).val, ((((cfg0.win 11).blk t).view.emb (ix2 bb o)) 1).isLt⟩ : Fin 512) = o :=
    Fin.ext (by show win0_11.index t (1 : Fin 2) * 512 + 1 * o.val = o.val; omega)
  rw [hr, ho]

/-- WHAT POINT t WRITES BACK to the laid-out hidden states: rows 128 t .. 128 t + 127 of hcatA. -/
theorem flushed12_eq (c : Dev nD) (t : Fin cfg0.N) :
    (dats m 0 c).flushed 12 t = ((cfg0.win 12).blk t).view.read (Elt Ideal) (hcatA m c) := by
  show (cfg0.win 12).cut (grid0.coords t) ((dats m 0 c).after 12 t) = _
  rw [after0_12]
  unfold out0_12
  rw [View.canon_unit_zero hz2]
  simp only [View.ld_unit_zero (S := S128x16x128) hz3, View.ld_unit_zero (S := S128x2x128) hz3, View.ld_unit_zero (S := S128x16x64) hz3,
    View.ld_unit_zero (S := S128x64) hz2, View.ld_unit_zero (S := S64) hz1, View.ld_unit_zero (S := S64x192) hz2,
    View.ld_unit_zero (S := S192) hz1]
  funext y
  obtain ⟨bb, k, rfl⟩ : ∃ (bb : Fin 128) (k : Fin 1024), y = ix2 bb k := ⟨y 0, y 1, eq_ix2 y⟩
  show k0_pay1 (F := Ideal) (Hnew (xB m c t) (eB m c t) (hB m c t) (wgB m c t) (bgB m c t) (wihB m c t) (bihB m c t) (whhB m c t) (bhhB m c t))
      (Hnew0 (xB m c t) (eB m c t) (hB m c t) (wgB m c t) (bgB m c t) (wihB m c t) (bihB m c t) (whhB m c t) (bhhB m c t))
      (ix2 bb k) = hcatA m c (((cfg0.win 12).blk t).view.emb (ix2 bb k))
  refine (hcat_apply (xB m c t) (eB m c t) (hB m c t) (wgB m c t) (bgB m c t) (wihB m c t) (bihB m c t) (whhB m c t) (bhhB m c t) bb k).trans ?_
  rw [hnewB_blk]
  obtain ⟨-, -, -, -, -, -, -, -, -, -, -, -, ⟨e0, e1⟩⟩ := idx_facts t
  unfold hcatA
  have hr : (⟨((((cfg0.win 12).blk t).view.emb (ix2 bb k)) 0).val, ((((cfg0.win 12).blk t).view.emb (ix2 bb k)) 0).isLt⟩ : Fin 16384) = grow t bb :=
    Fin.ext (by show win0_12.index t (0 : Fin 2) * 128 + 1 * bb.val = 128 * t.val + bb.val; omega)
  have hk : (⟨((((cfg0.win 12).blk t).view.emb (ix2 bb k)) 1).val, ((((cfg0.win 12).blk t).view.emb (ix2 bb k)) 1).isLt⟩ : Fin 1024) = k :=
    Fin.ext (by show win0_12.index t (1 : Fin 2) * 1024 + 1 * k.val = k.val; omega)
  rw [hr, hk]

/-- Row r of either output lies in point r / 128's block. -/
theorem cover11 (c : Dev nD) (i : S16384x512.Idx) :
    ∃ t : Fin cfg0.N, (cfg0.win 11).flush t = true ∧ i ∈ ((cfg0.win 11).blk t).view.set := by
  have h0 : (i 0).val < 16384 := (i 0).isLt
  have h1 : (i 1).val < 512 := (i 1).isLt
  let t : Fin cfg0.N := ⟨(i 0).val / 128, by rw [show cfg0.N = 128 from N_0]; omega⟩
  refine ⟨t, flush0_11 t, ?_⟩
  show i ∈ ((View.whole main_v3_0).slice (win0_11.rect t)).set
  rw [View.set_slice_whole, Rect.mem_set_unit]
  obtain ⟨-, -, -, -, -, -, -, -, -, -, -, ⟨e0, e1⟩, -⟩ := idx_facts t
  have ht : t.val = (i 0).val / 128 := rfl
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 512 ≤ (i 1).val ∧ (i 1).val < win0_11.index t (1 : Fin 2) * 512 + 512; omega

theorem cover12 (c : Dev nD) (i : S16384x1024.Idx) :
    ∃ t : Fin cfg0.N, (cfg0.win 12).flush t = true ∧ i ∈ ((cfg0.win 12).blk t).view.set := by
  have h0 : (i 0).val < 16384 := (i 0).isLt
  have h1 : (i 1).val < 1024 := (i 1).isLt
  let t : Fin cfg0.N := ⟨(i 0).val / 128, by rw [show cfg0.N = 128 from N_0]; omega⟩
  refine ⟨t, flush0_12 t, ?_⟩
  show i ∈ ((View.whole main_v3_1).slice (win0_12.rect t)).set
  rw [View.set_slice_whole, Rect.mem_set_unit]
  obtain ⟨-, -, -, -, -, -, -, -, -, -, -, -, ⟨e0, e1⟩⟩ := idx_facts t
  have ht : t.val = (i 0).val / 128 := rfl
  intro a
  match a with
  | ⟨0, _⟩ => show win0_12.index t (0 : Fin 2) * 128 ≤ (i 0).val ∧ (i 0).val < win0_12.index t (0 : Fin 2) * 128 + 128; omega
  | ⟨1, _⟩ => show win0_12.index t (1 : Fin 2) * 1024 ≤ (i 1).val ∧ (i 1).val < win0_12.index t (1 : Fin 2) * 1024 + 1024; omega

/-- THE ARRAYS after the run. -/
theorem final11 (c : Dev nD) : (dats m 0 c).arrAt 11 cfg0.N = logitsA m c :=
  (dats m 0 c).arrAt_eq_of_cover 11 (logitsA m c) (fun t _ => flushed11_eq m c t) (cover11 c)
theorem final12 (c : Dev nD) : (dats m 0 c).arrAt 12 cfg0.N = hcatA m c :=
  (dats m 0 c).arrAt_eq_of_cover 12 (hcatA m c) (fun t _ => flushed12_eq m c t) (cover12 c)

/-! ## The host lines around the region -/

/-- The three weights the region reads transposed are the arguments' transposes (the host lines before the region). -/
theorem wih_eq (c : Dev nD) : wihA m c = transpose S64x192 [1, 0] (m ((c : Thread nD τ).loc main_arg5)) transposes_S192x64_S64x192_1_0 := by
  show StableHlo.after hostOps0 (fun b => m (c, b)) (Proc.devRef .tc main_v0) = _
  after_results
theorem whh_eq (c : Dev nD) : whhA m c = transpose S64x192 [1, 0] (m ((c : Thread nD τ).loc main_arg6)) transposes_S192x64_S64x192_1_0 := by
  show StableHlo.after hostOps0 (fun b => m (c, b)) (Proc.devRef .tc main_v1) = _
  after_results
theorem wlin_eq (c : Dev nD) : wlinA m c = transpose S1024x512 [1, 0] (m ((c : Thread nD τ).loc main_arg9)) transposes_S512x1024_S1024x512_1_0 := by
  show StableHlo.after hostOps0 (fun b => m (c, b)) (Proc.devRef .tc main_v2) = _
  after_results

theorem mat_wih (c : Dev nD) : Cert.Gnn.mat (wihA m c) = Cert.Gnn.matT (m ((c : Thread nD τ).loc main_arg5) : S192x64.Idx → EReal) := by
  funext j g
  unfold Cert.Gnn.mat Cert.Gnn.matT
  rw [wih_eq]
  exact transpose_apply [1, 0] _ transposes_S192x64_S64x192_1_0 (ix2 j g) (ix2 g j) (fun b => match b with
    | ⟨0, _⟩ => rfl
    | ⟨1, _⟩ => rfl)
theorem mat_whh (c : Dev nD) : Cert.Gnn.mat (whhA m c) = Cert.Gnn.matT (m ((c : Thread nD τ).loc main_arg6) : S192x64.Idx → EReal) := by
  funext j g
  unfold Cert.Gnn.mat Cert.Gnn.matT
  rw [whh_eq]
  exact transpose_apply [1, 0] _ transposes_S192x64_S64x192_1_0 (ix2 j g) (ix2 g j) (fun b => match b with
    | ⟨0, _⟩ => rfl
    | ⟨1, _⟩ => rfl)
theorem mat_wlin (c : Dev nD) : Cert.Gnn.mat (wlinA m c) = Cert.Gnn.matT (m ((c : Thread nD τ).loc main_arg9) : S512x1024.Idx → EReal) := by
  funext k o
  unfold Cert.Gnn.mat Cert.Gnn.matT
  rw [wlin_eq]
  exact transpose_apply [1, 0] _ transposes_S512x1024_S1024x512_1_0 (ix2 k o) (ix2 o k) (fun b => match b with
    | ⟨0, _⟩ => rfl
    | ⟨1, _⟩ => rfl)

theorem xA_eq (c : Dev nD) : xA m c = m ((c : Thread nD τ).loc main_arg0) := V_main_arg0 m c
theorem eA_eq (c : Dev nD) : eA m c = m ((c : Thread nD τ).loc main_arg1) := V_main_arg1 m c
theorem hA_eq (c : Dev nD) : hA m c = m ((c : Thread nD τ).loc main_arg2) := V_main_arg2 m c
theorem wgA_eq (c : Dev nD) : wgA m c = m ((c : Thread nD τ).loc main_arg3) := V_main_arg3 m c
theorem bgA_eq (c : Dev nD) : bgA m c = m ((c : Thread nD τ).loc main_arg4) := V_main_arg4 m c
theorem bihA_eq (c : Dev nD) : bihA m c = m ((c : Thread nD τ).loc main_arg7) := V_main_arg7 m c
theorem bhhA_eq (c : Dev nD) : bhhA m c = m ((c : Thread nD τ).loc main_arg8) := V_main_arg8 m c
theorem blinA_eq (c : Dev nD) : blinA m c = m ((c : Thread nD τ).loc main_arg10) := V_main_arg10 m c

/-- The new hidden state of environment b, from the argument arrays. -/
theorem hnewA_eq (c : Dev nD) (b : Fin 16384) :
    hnewA m c b = Cert.Gnn.hnewG (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) b := by
  unfold hnewA Cert.Gnn.hnewG Cert.Gnn.hnewB
  rw [mat_wih, mat_whh, xA_eq, eA_eq, hA_eq, wgA_eq, bgA_eq, bihA_eq, bhhA_eq]

/-- The head's output array, from the argument arrays. -/
theorem logitsA_eq (c : Dev nD) :
    logitsA m c = Cert.Gnn.logitsG (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) := by
  funext i
  unfold logitsA Cert.Gnn.logitsG
  rw [hnewA_eq, mat_wlin, blinA_eq]

/-- Position 64 n + q of environment b's laid-out hidden states is node n's feature q. -/
theorem hcatA_apply (c : Dev nD) (b : Fin 16384) (n : Fin 16) (q : Fin 64) :
    hcatA m c (ix2 b (⟨64 * n.val + q.val, by have := n.isLt; have := q.isLt; omega⟩ : Fin 1024)) = hnewA m c b n q := by
  unfold hcatA Cert.Gnn.hcat
  have hn := n.isLt
  have hq := q.isLt
  show hnewA m c ⟨b.val, _⟩ ⟨(64 * n.val + q.val) / 64, _⟩ ⟨(64 * n.val + q.val) % 64, _⟩ = hnewA m c b n q
  have e1 : (64 * n.val + q.val) / 64 = n.val := by omega
  have e2 : (64 * n.val + q.val) % 64 = q.val := by omega
  simp only [e1, e2]

/-- The host line after the region splits the laid-out hidden states into [16384, 16, 64]: the new hidden state array. -/
theorem tail_v4 (c : Dev nD) :
    Pipeline.afterTail₀ cfgs (dats m) 0 (V0 m) [hostOps1] c main_v4
      = Cert.Gnn.nexthG (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3_1) = hcatA m c :=
    (Pipeline.withArrays_arr spec0 launch0.win.arr_inj c (V0 m c) (fun w => (dats m 0 c).arrAt w cfg0.N) 12).trans (final12 m c)
  funext i
  obtain ⟨b, n, q, rfl⟩ : ∃ (b : Fin 16384) (n : Fin 16) (q : Fin 64), i = ix3 b n q := ⟨i 0, i 1, i 2, eq_ix3 i⟩
  show shapeCast S16384x16x64 (Pipeline.withArrays (cfgs 0).spec c (V0 m c) (fun w => (dats m 0 c).arrAt w (cfgs 0).N) (Proc.devRef .tc main_v3_1))
    shapeCasts_S16384x1024_S16384x16x64 (ix3 b n q) = _
  rw [hw]
  have hn := n.isLt
  have hq := q.isLt
  rw [shapeCast_apply (hcatA m c) shapeCasts_S16384x1024_S16384x16x64 (ix3 b n q) (ix2 b (⟨64 * n.val + q.val, by omega⟩ : Fin 1024))
    (by rw [Shape.rowMajor_val_two, Shape.rowMajor_val_three]
        show b.val * 1024 + (64 * n.val + q.val) = (b.val * 16 + n.val) * 64 + q.val
        omega)]
  rw [hcatA_apply]
  unfold Cert.Gnn.nexthG
  rw [hnewA_eq]

/-! ## The run, read -/

/-- Every weakly fair execution of the program ends with the head's output and the new hidden state at their functions
    of the argument arrays, and the arguments unchanged. -/
theorem kernel_run : θ_run defs (onTc (τ := τ) (main (F := Ideal))) ⟨m, fun _ => 0, ρ⟩ (fun r => ∀ c : Dev nD,
      r.2.mem ((c.tc : Thread nD τ).loc main_v3_0) = Cert.Gnn.logitsG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v4) = Cert.Gnn.nexthG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 11).trans ((final11 m c).trans (logitsA_eq m c)),
      ((h c).2 main_v4 (Pipeline.mem_restRefs_of main_v4 (by decide) (by decide))).trans (tail_v4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c))),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c)))⟩)
    (run_main m ρ)

end Cert.KernelIdeal.Hand

end
-- ==== Proof.RGru.lean ====
/-
  The reference program away from its scatters and gathers, read at one node of one environment: the feature product,
  the convolution's sum (aggregation + self loop + bias), the GRU step and the linear head.
-/
import proofs.«418072_j41214506172575_3_alg».proof.Proof.Gen.ReferenceIdeal.Read
import proofs.«418072_j41214506172575_3_alg».proof.Proof.Spec
import Idealize.ShloMosaic.Lib.IdealHost
import Idealize.ShloMosaic.Lib.ValueIdx
import Idealize.ShloMosaic.PureOps.Ideal

noncomputable section

namespace Cert.ReferenceIdeal.Hand

open Cert.ReferenceIdeal Cert.ReferenceIdeal.Gen Cert.ReferenceIdeal.Read Idealize.ShloMosaic Idealize.ShloMosaic.TcCoe Idealize.ShloMosaic.ValueIdx

/-- Row 16 * b + n of the flattened arrays: node n of environment b. -/
abbrev nodeRow (b : Fin 16384) (n : Fin 16) : Fin 262144 :=
  ⟨16 * b.val + n.val, by have := b.isLt; have := n.isLt; omega⟩

variable (x0 : (⟨S16384x16x128, .f32⟩ : BufTy).Contents (Elt Ideal)) (x1 : (⟨S16384x2x128, .i32⟩ : BufTy).Contents (Elt Ideal))
  (x2 : (⟨S16384x16x64, .f32⟩ : BufTy).Contents (Elt Ideal)) (x3 : (⟨S128x64, .f32⟩ : BufTy).Contents (Elt Ideal))
  (x4 : (⟨S64, .f32⟩ : BufTy).Contents (Elt Ideal)) (x5 x6 : (⟨S192x64, .f32⟩ : BufTy).Contents (Elt Ideal))
  (x7 x8 : (⟨S192, .f32⟩ : BufTy).Contents (Elt Ideal)) (x9 : (⟨S512x1024, .f32⟩ : BufTy).Contents (Elt Ideal))
  (x10 : (⟨S512, .f32⟩ : BufTy).Contents (Elt Ideal))

/-! ## The feature product -/

theorem idx_v0_node (b : Fin 16384) (n : Fin 16) (j : Fin 64) (k : Fin 128) :
    idx_main_v0 (lidx_main_v13 (ix2 (nodeRow b n) j) k) = ix3 b n k := by
  have hb := b.isLt; have hn := n.isLt; have hk := k.isLt
  funext a
  match a with
  | ⟨0, _⟩ => exact Fin.ext (by show ((16 * b.val + n.val) * 128 + k.val) / 2048 = b.val; omega)
  | ⟨1, _⟩ => exact Fin.ext (by show ((16 * b.val + n.val) * 128 + k.val) / 128 % 16 = n.val; omega)
  | ⟨2, _⟩ => exact Fin.ext (by show ((16 * b.val + n.val) * 128 + k.val) % 128 = k.val; omega)

theorem ridx_v13_eq (r : Fin 262144) (j : Fin 64) (k : Fin 128) :
    ridx_main_v13 (ix2 r j) k = ix2 k j := by
  funext a
  match a with
  | ⟨0, _⟩ => rfl
  | ⟨1, _⟩ => rfl

/-- The feature product at node n of environment b. -/
theorem v13_node (b : Fin 16384) (n : Fin 16) (j : Fin 64) :
    val_main_v13 (F := Ideal) x0 x3 (ix2 (nodeRow b n) j) = Cert.Gnn.xw (Cert.Gnn.envF x0 b) (Cert.Gnn.mat x3) n j := by
  rw [val_main_v13_apply]
  unfold Cert.Gnn.xw Cert.Gnn.envF Cert.Gnn.mat
  refine Finset.sum_congr rfl fun k _ => ?_
  rw [val_main_v0_apply, idx_v0_node, ridx_v13_eq]

/-! ## The convolution's sum -/

theorem idx_v54_eq (r : Fin 262144) (j : Fin 64) :
    idx_main_v54 (idx_main_v55 (ix2 r j)) = ix1 r := by
  funext a
  match a with
  | ⟨0, _⟩ => rfl

theorem idx_v58_eq (r : Fin 262144) (j : Fin 64) :
    idx_main_v58 (idx_main_v59 (ix2 r j)) = ix1 j := by
  funext a
  match a with
  | ⟨0, _⟩ => rfl

/-- The convolution's output at a row: the scattered sum, the row's own product over its degree, the bias. -/
theorem v60_row (r : Fin 262144) (j : Fin 64) :
    val_main_v60 (F := Ideal) x0 x1 x3 x4 (ix2 r j)
      = (val_main_v53 (F := Ideal) x0 x1 x3 (ix2 r j)
          + Ideal.div (val_main_v13 (F := Ideal) x0 x3 (ix2 r j)) (val_main_v19 (F := Ideal) x1 (ix1 r))) + x4 (ix1 j) := by
  rw [val_main_v60_apply, val_main_v57_apply, val_main_v56_apply, val_main_v59_apply, val_main_v58_apply,
    val_main_v55_apply, val_main_v54_apply, idx_v54_eq, idx_v58_eq]
  rfl

/-! ## The GRU pre-activations -/

theorem lidx_v63_eq (r : Fin 262144) (g : Fin 192) (k : Fin 64) :
    lidx_main_v63 (ix2 r g) k = ix2 r k := by
  funext a
  match a with
  | ⟨0, _⟩ => rfl
  | ⟨1, _⟩ => rfl

theorem idx_v62_eq (r : Fin 262144) (g : Fin 192) (k : Fin 64) :
    idx_main_v62 (ridx_main_v63 (ix2 r g) k) = ix2 g k := by
  funext a
  match a with
  | ⟨0, _⟩ => rfl
  | ⟨1, _⟩ => rfl

theorem idx_v64_eq (r : Fin 262144) (g : Fin 192) :
    idx_main_v64 (idx_main_v65 (ix2 r g)) = ix1 g := by
  funext a
  match a with
  | ⟨0, _⟩ => rfl

/-- The input-side pre-activation of a row: the convolution's output against the transposed weight, plus the bias. -/
theorem v66_row (r : Fin 262144) (g : Fin 192) :
    val_main_v66 (F := Ideal) x0 x1 x3 x4 x5 x7 (ix2 r g)
      = Cert.Gnn.gates (fun j => val_main_v60 (F := Ideal) x0 x1 x3 x4 (ix2 r j)) (Cert.Gnn.matT x5) (Cert.Gnn.vec x7) g := by
  rw [val_main_v66_apply, val_main_v63_apply, val_main_v65_apply, val_main_v64_apply, idx_v64_eq]
  unfold Cert.Gnn.gates Cert.Gnn.matT Cert.Gnn.vec
  rw [Ideal.addf_def]
  refine congrArg₂ (· + ·) (Finset.sum_congr rfl fun k _ => ?_) rfl
  rw [val_main_v62_apply, lidx_v63_eq, idx_v62_eq]

theorem lidx_v68_eq (r : Fin 262144) (g : Fin 192) (k : Fin 64) :
    lidx_main_v68 (ix2 r g) k = ix2 r k := by
  funext a
  match a with
  | ⟨0, _⟩ => rfl
  | ⟨1, _⟩ => rfl

theorem idx_v67_eq (r : Fin 262144) (g : Fin 192) (k : Fin 64) :
    idx_main_v67 (ridx_main_v68 (ix2 r g) k) = ix2 g k := by
  funext a
  match a with
  | ⟨0, _⟩ => rfl
  | ⟨1, _⟩ => rfl

theorem idx_v69_eq (r : Fin 262144) (g : Fin 192) :
    idx_main_v69 (idx_main_v70 (ix2 r g)) = ix1 g := by
  funext a
  match a with
  | ⟨0, _⟩ => rfl

/-- The hidden-side pre-activation of a row. -/
theorem v71_row (r : Fin 262144) (g : Fin 192) :
    val_main_v71 (F := Ideal) x2 x6 x8 (ix2 r g)
      = Cert.Gnn.gates (fun j => val_main_v61 (F := Ideal) x2 (ix2 r j)) (Cert.Gnn.matT x6) (Cert.Gnn.vec x8) g := by
  rw [val_main_v71_apply, val_main_v68_apply, val_main_v70_apply, val_main_v69_apply, idx_v69_eq]
  unfold Cert.Gnn.gates Cert.Gnn.matT Cert.Gnn.vec
  rw [Ideal.addf_def]
  refine congrArg₂ (· + ·) (Finset.sum_congr rfl fun k _ => ?_) rfl
  rw [val_main_v67_apply, lidx_v68_eq, idx_v67_eq]

/-- The previous hidden state at node n of environment b. -/
theorem v61_node (b : Fin 16384) (n : Fin 16) (q : Fin 64) :
    val_main_v61 (F := Ideal) x2 (ix2 (nodeRow b n) q) = Cert.Gnn.envF x2 b n q := by
  have hb := b.isLt; have hn := n.isLt; have hq := q.isLt
  rw [val_main_v61_apply]
  unfold Cert.Gnn.envF
  congr 1
  funext a
  match a with
  | ⟨0, _⟩ => exact Fin.ext (by show ((16 * b.val + n.val) * 64 + q.val) / 1024 = b.val; omega)
  | ⟨1, _⟩ => exact Fin.ext (by show ((16 * b.val + n.val) * 64 + q.val) / 64 % 16 = n.val; omega)
  | ⟨2, _⟩ => exact Fin.ext (by show ((16 * b.val + n.val) * 64 + q.val) % 64 = q.val; omega)

/-! ## The gate columns -/

theorem idx_slice0_eq (r : Fin 262144) (q : Fin 64) : idx_main_v72 (ix2 r q) = ix2 r (Cert.Gnn.gcol 0 q) := by
  funext a
  match a with
  | ⟨0, _⟩ => rfl
  | ⟨1, _⟩ => exact Fin.ext (by show q.val = 64 * 0 + q.val; omega)

theorem idx_slice1_eq (r : Fin 262144) (q : Fin 64) : idx_main_v73 (ix2 r q) = ix2 r (Cert.Gnn.gcol 1 q) := by
  funext a
  match a with
  | ⟨0, _⟩ => rfl
  | ⟨1, _⟩ => exact Fin.ext (by show 64 + q.val = 64 * 1 + q.val; omega)

theorem idx_slice2_eq (r : Fin 262144) (q : Fin 64) : idx_main_v74 (ix2 r q) = ix2 r (Cert.Gnn.gcol 2 q) := by
  funext a
  match a with
  | ⟨0, _⟩ => rfl
  | ⟨1, _⟩ => exact Fin.ext (by show 128 + q.val = 64 * 2 + q.val; omega)

theorem v72_row (r : Fin 262144) (q : Fin 64) :
    val_main_v72 (F := Ideal) x0 x1 x3 x4 x5 x7 (ix2 r q) = val_main_v66 (F := Ideal) x0 x1 x3 x4 x5 x7 (ix2 r (Cert.Gnn.gcol 0 q)) := by
  rw [val_main_v72_apply, idx_slice0_eq]

theorem v73_row (r : Fin 262144) (q : Fin 64) :
    val_main_v73 (F := Ideal) x0 x1 x3 x4 x5 x7 (ix2 r q) = val_main_v66 (F := Ideal) x0 x1 x3 x4 x5 x7 (ix2 r (Cert.Gnn.gcol 1 q)) := by
  rw [val_main_v73_apply, idx_slice1_eq]

theorem v74_row (r : Fin 262144) (q : Fin 64) :
    val_main_v74 (F := Ideal) x0 x1 x3 x4 x5 x7 (ix2 r q) = val_main_v66 (F := Ideal) x0 x1 x3 x4 x5 x7 (ix2 r (Cert.Gnn.gcol 2 q)) := by
  rw [val_main_v74_apply, idx_slice2_eq]

theorem v75_row (r : Fin 262144) (q : Fin 64) :
    val_main_v75 (F := Ideal) x2 x6 x8 (ix2 r q) = val_main_v71 (F := Ideal) x2 x6 x8 (ix2 r (Cert.Gnn.gcol 0 q)) := by
  rw [val_main_v75_apply]
  exact congrArg _ (idx_slice0_eq r q)

theorem v76_row (r : Fin 262144) (q : Fin 64) :
    val_main_v76 (F := Ideal) x2 x6 x8 (ix2 r q) = val_main_v71 (F := Ideal) x2 x6 x8 (ix2 r (Cert.Gnn.gcol 1 q)) := by
  rw [val_main_v76_apply]
  exact congrArg _ (idx_slice1_eq r q)

theorem v77_row (r : Fin 262144) (q : Fin 64) :
    val_main_v77 (F := Ideal) x2 x6 x8 (ix2 r q) = val_main_v71 (F := Ideal) x2 x6 x8 (ix2 r (Cert.Gnn.gcol 2 q)) := by
  rw [val_main_v77_apply]
  exact congrArg _ (idx_slice2_eq r q)

/-! ## The gates and the new hidden state -/

/-- The logistic function spelt 1 / (1 + exp (-x)) in the host's operations. -/
theorem logistic_spelt (x y : Ideal .f32) :
    FloatOps.hostDivf (F := Ideal) (FloatOps.ofBits .f32 0x3F800000#32)
        (FloatOps.addf (FloatOps.ofBits .f32 0x3F800000#32) (FloatOps.hostUnary .exp (FloatOps.hostNegf (FloatOps.addf x y))))
      = Ideal.logistic (x + y) := by
  simp only [Ideal.ofBits_def, Ideal.ofBits_one_f32]
  rfl

/-- The GRU's combination (1 - z) * tanh (c + r * d) + z * h in the host's operations. -/
theorem gru_spelt (z r c d h : Ideal .f32) :
    FloatOps.addf (FloatOps.mulf (FloatOps.subf (F := Ideal) (FloatOps.ofBits .f32 0x3F800000#32) z)
        (FloatOps.hostUnary .tanh (FloatOps.addf c (FloatOps.mulf r d)))) (FloatOps.mulf z h)
      = (1 - z) * Ideal.tanh (c + r * d) + z * h := by
  simp only [Ideal.ofBits_def, Ideal.ofBits_one_f32]
  rfl

/-- The reset gate: the logistic function, spelt 1 / (1 + exp (-x)). -/
theorem v84_pt (i : S262144x64.Idx) :
    val_main_v84 (F := Ideal) x0 x1 x2 x3 x4 x5 x6 x7 x8 i
      = Ideal.logistic (val_main_v72 (F := Ideal) x0 x1 x3 x4 x5 x7 i + val_main_v75 (F := Ideal) x2 x6 x8 i) := by
  rw [val_main_v84_apply, val_main_v83_apply, val_main_cst_12_apply, val_main_v82_apply, val_main_v81_apply,
    val_main_cst_11_apply, val_main_v80_apply, val_main_v79_apply, val_main_v78_apply]
  exact logistic_spelt _ _

/-- The update gate. -/
theorem v91_pt (i : S262144x64.Idx) :
    val_main_v91 (F := Ideal) x0 x1 x2 x3 x4 x5 x6 x7 x8 i
      = Ideal.logistic (val_main_v73 (F := Ideal) x0 x1 x3 x4 x5 x7 i + val_main_v76 (F := Ideal) x2 x6 x8 i) := by
  rw [val_main_v91_apply, val_main_v90_apply, val_main_cst_14_apply, val_main_v89_apply, val_main_v88_apply,
    val_main_cst_13_apply, val_main_v87_apply, val_main_v86_apply, val_main_v85_apply]
  exact logistic_spelt _ _

/-- The new hidden state, pointwise in the gate slices. -/
theorem v99_pt (i : S262144x64.Idx) :
    val_main_v99 (F := Ideal) x0 x1 x2 x3 x4 x5 x6 x7 x8 i
      = (1 - Ideal.logistic (val_main_v73 (F := Ideal) x0 x1 x3 x4 x5 x7 i + val_main_v76 (F := Ideal) x2 x6 x8 i))
          * Ideal.tanh (val_main_v74 (F := Ideal) x0 x1 x3 x4 x5 x7 i
              + Ideal.logistic (val_main_v72 (F := Ideal) x0 x1 x3 x4 x5 x7 i + val_main_v75 (F := Ideal) x2 x6 x8 i)
                * val_main_v77 (F := Ideal) x2 x6 x8 i)
        + Ideal.logistic (val_main_v73 (F := Ideal) x0 x1 x3 x4 x5 x7 i + val_main_v76 (F := Ideal) x2 x6 x8 i)
          * val_main_v61 (F := Ideal) x2 i := by
  rw [val_main_v99_apply, val_main_v97_apply, val_main_v98_apply, val_main_v96_apply, val_main_v95_apply,
    val_main_cst_15_apply, val_main_v94_apply, val_main_v93_apply, val_main_v92_apply, v91_pt, v84_pt]
  exact gru_spelt _ _ _ _ _

/-- The new hidden state of a row: the GRU step of its two pre-activations and its previous state. -/
theorem v99_row (r : Fin 262144) (q : Fin 64) :
    val_main_v99 (F := Ideal) x0 x1 x2 x3 x4 x5 x6 x7 x8 (ix2 r q)
      = Cert.Gnn.gru (Cert.Gnn.gates (fun j => val_main_v60 (F := Ideal) x0 x1 x3 x4 (ix2 r j)) (Cert.Gnn.matT x5) (Cert.Gnn.vec x7))
          (Cert.Gnn.gates (fun j => val_main_v61 (F := Ideal) x2 (ix2 r j)) (Cert.Gnn.matT x6) (Cert.Gnn.vec x8))
          (fun j => val_main_v61 (F := Ideal) x2 (ix2 r j)) q := by
  rw [v99_pt, v72_row, v73_row, v74_row, v75_row, v76_row, v77_row]
  simp only [v66_row, v71_row]
  rfl

/-- The new hidden state at node n of environment b. -/
theorem v99_node (b : Fin 16384) (n : Fin 16) (q : Fin 64) :
    val_main_v99 (F := Ideal) x0 x1 x2 x3 x4 x5 x6 x7 x8 (ix2 (nodeRow b n) q)
      = Cert.Gnn.gru (Cert.Gnn.gates (fun j => val_main_v60 (F := Ideal) x0 x1 x3 x4 (ix2 (nodeRow b n) j)) (Cert.Gnn.matT x5) (Cert.Gnn.vec x7))
          (Cert.Gnn.gates (Cert.Gnn.envF x2 b n) (Cert.Gnn.matT x6) (Cert.Gnn.vec x8)) (Cert.Gnn.envF x2 b n) q := by
  rw [v99_row]
  have h : (fun j => val_main_v61 (F := Ideal) x2 (ix2 (nodeRow b n) j)) = Cert.Gnn.envF x2 b n :=
    funext fun j => v61_node x2 b n j
  rw [h]

/-! ## The head and the two results -/

/-- Column k of environment b's laid-out hidden states is feature k % 64 of node k / 64. -/
theorem idx_v100_eq (b : Fin 16384) (o : Fin 512) (k : Fin 1024) :
    idx_main_v100 (lidx_main_v102 (ix2 b o) k)
      = ix2 (nodeRow b ⟨k.val / 64, by have := k.isLt; omega⟩) (⟨k.val % 64, Nat.mod_lt _ (by decide)⟩ : Fin 64) := by
  have hb := b.isLt; have hk := k.isLt
  funext a
  match a with
  | ⟨0, _⟩ => exact Fin.ext (by show (b.val * 1024 + k.val) / 64 = 16 * b.val + k.val / 64; omega)
  | ⟨1, _⟩ => exact Fin.ext (by show (b.val * 1024 + k.val) % 64 = k.val % 64; omega)

theorem idx_v101_eq (b : Fin 16384) (o : Fin 512) (k : Fin 1024) :
    idx_main_v101 (ridx_main_v102 (ix2 b o) k) = ix2 o k := by
  funext a
  match a with
  | ⟨0, _⟩ => rfl
  | ⟨1, _⟩ => rfl

theorem idx_v103_eq (b : Fin 16384) (o : Fin 512) :
    idx_main_v103 (idx_main_v104 (ix2 b o)) = ix1 o := by
  funext a
  match a with
  | ⟨0, _⟩ => rfl

/-- The logits of environment b: the head over its 16 new hidden states laid side by side. -/
theorem v105_env (b : Fin 16384) (o : Fin 512) :
    val_main_v105 (F := Ideal) x0 x1 x2 x3 x4 x5 x6 x7 x8 x9 x10 (ix2 b o)
      = Cert.Gnn.logit (fun n q => val_main_v99 (F := Ideal) x0 x1 x2 x3 x4 x5 x6 x7 x8 (ix2 (nodeRow b n) q))
          (Cert.Gnn.matT x9) (Cert.Gnn.vec x10) o := by
  rw [val_main_v105_apply, val_main_v102_apply, val_main_v104_apply, val_main_v103_apply, idx_v103_eq]
  unfold Cert.Gnn.logit Cert.Gnn.hcat Cert.Gnn.matT Cert.Gnn.vec
  rw [Ideal.addf_def]
  refine congrArg₂ (· + ·) (Finset.sum_congr rfl fun k _ => ?_) rfl
  rw [val_main_v100_apply, val_main_v101_apply, idx_v100_eq, idx_v101_eq]

/-- The second result is the new hidden state, environment by environment. -/
theorem v106_env (b : Fin 16384) (n : Fin 16) (q : Fin 64) :
    val_main_v106 (F := Ideal) x0 x1 x2 x3 x4 x5 x6 x7 x8 (ix3 b n q)
      = val_main_v99 (F := Ideal) x0 x1 x2 x3 x4 x5 x6 x7 x8 (ix2 (nodeRow b n) q) := by
  have hb := b.isLt; have hn := n.isLt; have hq := q.isLt
  rw [val_main_v106_apply]
  congr 1
  funext a
  match a with
  | ⟨0, _⟩ => exact Fin.ext (by show ((b.val * 16 + n.val) * 64 + q.val) / 64 = 16 * b.val + n.val; omega)
  | ⟨1, _⟩ => exact Fin.ext (by show ((b.val * 16 + n.val) * 64 + q.val) % 64 = q.val; omega)

end Cert.ReferenceIdeal.Hand

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.Alg.lean ====
/-
  The graph convolution written edge by edge equals the graph convolution written over the matrix of edge counts.

  An edge e has a source row e and a target col e, both 32-bit words below 16.  Its pair number 16 * col e + row e does
  not wrap (16 * 15 + 15 < 2^32), so it equals 16 * n + m exactly when col e = n and row e = m.  Hence the count
  cnt n m is the number of edges from m to n, the sum over m of cnt n m is the number of edges into n (exchange the two
  finite sums; for a fixed edge exactly one m matches), and the two degrees agree.

  The degree is one plus a natural number: a real number at least 1, so its reciprocal square root is a real number.  With
  the products real too, every factor of the aggregation is real, and the identity

      ∑ m, ((cnt n m * dinv n) * dinv m) * y m  =  ∑ e, [col e = n] (dinv (row e) * dinv (col e)) * y (row e)

  is the image under the coercion of the same identity over ℝ: expand cnt n m as a sum of indicators, distribute,
  exchange the two sums, and for a fixed edge keep the single m = row e.
-/
import proofs.«418072_j41214506172575_3_alg».proof.Proof.Spec
import proofs.«418072_j41214506172575_3_alg».proof.Proof.LibPropagate
import Mathlib.Data.EReal.Operations
import Mathlib.Algebra.BigOperators.Ring.Finset
import Mathlib.Tactic.Ring
import Mathlib.Tactic.SplitIfs

open scoped BigOperators

noncomputable section

namespace Cert.Gnn

open Idealize.ShloMosaic Cert.Lib.Propagate

/-! ## The pair number of an edge -/

/-- The pair number of an edge is 16 * n + m exactly when its target is n and its source is m. -/
theorem pid_eq (rowE colE : Fin 128 → BitVec 32) (hr : ∀ e, (rowE e).toNat < 16) (hc : ∀ e, (colE e).toNat < 16)
    (e : Fin 128) (n m : Fin 16) :
    pid rowE colE e = BitVec.ofNat 32 (16 * n.val + m.val) ↔ (nodeOf (colE e) = n ∧ nodeOf (rowE e) = m) := by
  have h1 := hr e
  have h2 := hc e
  have hn := n.isLt
  have hm := m.isLt
  rw [← BitVec.toNat_inj]
  unfold pid nodeOf
  rw [BitVec.toNat_add, BitVec.toNat_mul, Fin.ext_iff, Fin.ext_iff]
  simp only [BitVec.toNat_ofNat]
  omega

/-! ## The degree -/

/-- The edges into n, counted through the matrix of counts or one by one. -/
theorem degEdge_eq (rowE colE : Fin 128 → BitVec 32) (hr : ∀ e, (rowE e).toNat < 16) (hc : ∀ e, (colE e).toNat < 16)
    (n : Fin 16) : degEdge colE n = deg rowE colE n := by
  unfold degEdge deg cnt
  congr 1
  symm
  rw [Finset.sum_comm]
  refine Finset.sum_congr rfl fun e _ => ?_
  have hterm : ∀ m : Fin 16,
      (if pid rowE colE e = BitVec.ofNat 32 (16 * n.val + m.val) then (1 : EReal) else 0)
        = if nodeOf (rowE e) = m then (if nodeOf (colE e) = n then (1 : EReal) else 0) else 0 := by
    intro m
    rw [if_congr (pid_eq rowE colE hr hc e n m) rfl rfl]
    by_cases h1 : nodeOf (colE e) = n <;> by_cases h2 : nodeOf (rowE e) = m <;> simp [h1, h2]
  simp only [hterm]
  rw [Finset.sum_ite_eq]
  simp

/-- The count of edges from m to n as a real number. -/
def cntR (rowE colE : Fin 128 → BitVec 32) (n m : Fin 16) : ℝ :=
  ∑ e : Fin 128, if pid rowE colE e = BitVec.ofNat 32 (16 * n.val + m.val) then (1 : ℝ) else 0

/-- The degree as a real number. -/
def degR (rowE colE : Fin 128 → BitVec 32) (n : Fin 16) : ℝ := 1 + ∑ m : Fin 16, cntR rowE colE n m

/-- The reciprocal square root of the degree as a real number. -/
def dinvR (rowE colE : Fin 128 → BitVec 32) (n : Fin 16) : ℝ := (Real.sqrt (degR rowE colE n))⁻¹

theorem ite_one_coe (p : Prop) [Decidable p] :
    (if p then (1 : EReal) else 0) = (((if p then (1 : ℝ) else 0) : ℝ) : EReal) := by
  split_ifs <;> simp

theorem cnt_coe (rowE colE : Fin 128 → BitVec 32) (n m : Fin 16) :
    cnt rowE colE n m = ((cntR rowE colE n m : ℝ) : EReal) := by
  unfold cnt cntR
  rw [coe_finsetSum]
  exact Finset.sum_congr rfl fun e _ => ite_one_coe _

theorem deg_coe (rowE colE : Fin 128 → BitVec 32) (n : Fin 16) :
    deg rowE colE n = ((degR rowE colE n : ℝ) : EReal) := by
  unfold deg degR
  rw [EReal.coe_add, coe_finsetSum, EReal.coe_one]
  congr 1
  exact Finset.sum_congr rfl fun m _ => cnt_coe rowE colE n m

theorem cntR_nonneg (rowE colE : Fin 128 → BitVec 32) (n m : Fin 16) : 0 ≤ cntR rowE colE n m := by
  unfold cntR
  refine Finset.sum_nonneg fun e _ => ?_
  split_ifs <;> norm_num

theorem one_le_degR (rowE colE : Fin 128 → BitVec 32) (n : Fin 16) : 1 ≤ degR rowE colE n := by
  unfold degR
  have : 0 ≤ ∑ m : Fin 16, cntR rowE colE n m := Finset.sum_nonneg fun m _ => cntR_nonneg rowE colE n m
  linarith

/-- The degree is a real number at least 1. -/
theorem deg_real (rowE colE : Fin 128 → BitVec 32) (n : Fin 16) : ∃ r : ℝ, 1 ≤ r ∧ deg rowE colE n = (r : EReal) :=
  ⟨degR rowE colE n, one_le_degR rowE colE n, deg_coe rowE colE n⟩

theorem rsqrt_deg_coe (rowE colE : Fin 128 → BitVec 32) (n : Fin 16) :
    Ideal.rsqrt (deg rowE colE n) = ((dinvR rowE colE n : ℝ) : EReal) := by
  have h := one_le_degR rowE colE n
  rw [deg_coe, Ideal.rsqrt_coe, if_neg (by linarith), if_neg (by linarith)]
  rfl

theorem dinv_coe (rowE colE : Fin 128 → BitVec 32) (n : Fin 16) :
    dinv rowE colE n = ((dinvR rowE colE n : ℝ) : EReal) := rsqrt_deg_coe rowE colE n

/-- The reciprocal square root of the degree is a real number. -/
theorem dinv_real (rowE colE : Fin 128 → BitVec 32) (n : Fin 16) : ∃ r : ℝ, dinv rowE colE n = (r : EReal) :=
  ⟨dinvR rowE colE n, dinv_coe rowE colE n⟩

/-- Real features against a real weight give real products. -/
theorem xw_real (xE : Fin 16 → Fin 128 → EReal) (Wg : Fin 128 → Fin 64 → EReal)
    (hx : ∀ n k, ∃ r : ℝ, xE n k = (r : EReal)) (hW : ∀ k j, ∃ r : ℝ, Wg k j = (r : EReal))
    (n : Fin 16) (j : Fin 64) : ∃ r : ℝ, xw xE Wg n j = (r : EReal) :=
  sum_real _ fun k => mul_real (hx n k) (hW k j)

/-! ## The aggregation -/

/-- Over ℝ: the sum over the edges into n of (d source * d target) * y source equals the sum over the sources m of
    ((count of edges from m to n) * d n * d m) * y m. -/
theorem agg_identity_real {E N : Type} [Fintype E] [Fintype N] [DecidableEq N] (c r : E → N) (d y : N → ℝ) (n : N) :
    (∑ e : E, if c e = n then (d (r e) * d (c e)) * y (r e) else 0)
      = ∑ m : N, (((∑ e : E, if (c e = n ∧ r e = m) then (1 : ℝ) else 0) * d n) * d m) * y m := by
  have hR : ∀ m : N, (((∑ e : E, if (c e = n ∧ r e = m) then (1 : ℝ) else 0) * d n) * d m) * y m
      = ∑ e : E, if r e = m then (if c e = n then (d m * d n) * y m else 0) else 0 := by
    intro m
    rw [Finset.sum_mul, Finset.sum_mul, Finset.sum_mul]
    refine Finset.sum_congr rfl fun e _ => ?_
    by_cases h1 : c e = n
    · by_cases h2 : r e = m
      · rw [if_pos ⟨h1, h2⟩, if_pos h2, if_pos h1]; ring
      · rw [if_neg (fun h => h2 h.2), if_neg h2]; ring
    · by_cases h2 : r e = m
      · rw [if_neg (fun h => h1 h.1), if_pos h2, if_neg h1]; ring
      · rw [if_neg (fun h => h1 h.1), if_neg h2]; ring
  simp only [hR]
  rw [Finset.sum_comm]
  refine Finset.sum_congr rfl fun e _ => ?_
  rw [Finset.sum_ite_eq]
  by_cases h : c e = n
  · simp [h]
  · simp [h]

/-- The aggregation edge by edge is the aggregation over the matrix of counts. -/
theorem aggEdge_eq (rowE colE : Fin 128 → BitVec 32) (hr : ∀ e, (rowE e).toNat < 16) (hc : ∀ e, (colE e).toNat < 16)
    (xwE : Fin 16 → Fin 64 → EReal) (hxw : ∀ m j, ∃ r : ℝ, xwE m j = (r : EReal)) (n : Fin 16) (j : Fin 64) :
    aggEdge rowE colE xwE n j = agg rowE colE xwE n j := by
  choose y hy using hxw
  have hagg : agg rowE colE xwE n j
      = ((∑ m : Fin 16, ((cntR rowE colE n m * dinvR rowE colE n) * dinvR rowE colE m) * y m j : ℝ) : EReal) := by
    unfold agg
    simp only [cnt_coe, dinv_coe, hy, EReal.coe_mul, coe_finsetSum]
  have hedge : aggEdge rowE colE xwE n j
      = ((∑ e : Fin 128, if nodeOf (colE e) = n then
            (dinvR rowE colE (nodeOf (rowE e)) * dinvR rowE colE (nodeOf (colE e))) * y (nodeOf (rowE e)) j
          else 0 : ℝ) : EReal) := by
    unfold aggEdge
    rw [coe_finsetSum]
    refine Finset.sum_congr rfl fun e _ => ?_
    by_cases h : nodeOf (colE e) = n
    · rw [if_pos h, if_pos h, degEdge_eq rowE colE hr hc, degEdge_eq rowE colE hr hc, rsqrt_deg_coe, rsqrt_deg_coe,
        hy, EReal.coe_mul, EReal.coe_mul]
    · rw [if_neg h, if_neg h, EReal.coe_zero]
  have hcnt : ∀ m : Fin 16, cntR rowE colE n m
      = ∑ e : Fin 128, if (nodeOf (colE e) = n ∧ nodeOf (rowE e) = m) then (1 : ℝ) else 0 := by
    intro m
    unfold cntR
    exact Finset.sum_congr rfl fun e _ => if_congr (pid_eq rowE colE hr hc e n m) rfl rfl
  rw [hagg, hedge]
  simp only [hcnt]
  rw [agg_identity_real (fun e => nodeOf (colE e)) (fun e => nodeOf (rowE e)) (dinvR rowE colE) (fun m => y m j) n]

/-- The graph convolution edge by edge is the graph convolution over the matrix of counts. -/
theorem gcnEdge_eq (rowE colE : Fin 128 → BitVec 32) (hr : ∀ e, (rowE e).toNat < 16) (hc : ∀ e, (colE e).toNat < 16)
    (xwE : Fin 16 → Fin 64 → EReal) (hxw : ∀ m j, ∃ r : ℝ, xwE m j = (r : EReal)) (bg : Fin 64 → EReal)
    (n : Fin 16) (j : Fin 64) :
    gcnEdge rowE colE xwE bg n j = gcn rowE colE xwE bg n j := by
  unfold gcnEdge gcn
  rw [aggEdge_eq rowE colE hr hc xwE hxw n j, degEdge_eq rowE colE hr hc n]

end Cert.Gnn

end
-- ==== Proof.RIdx.lean ====
/-
  The reference's integer index vectors.  Edge e of environment b sits at position 128 * b + e of the flattened edge
  arrays; under the hypothesis that every word of edge_index has a signed value in [0, 16), the source ("row") and
  target ("col") words found there, after the shift by 16 * b and the wrap of negative indices, name row
  16 * b + (the node the word names) of the flattened node arrays.
-/
import proofs.«418072_j41214506172575_3_alg».proof.Proof.Gen.ReferenceIdeal.Read
import proofs.«418072_j41214506172575_3_alg».proof.Proof.Spec
import Idealize.ShloMosaic.Lib.ValueIdx
import Idealize.ShloMosaic.Lib.StableHlo.Predicate

noncomputable section

namespace Cert.ReferenceIdeal.Hand

open Cert.ReferenceIdeal Cert.ReferenceIdeal.Gen Cert.ReferenceIdeal.Read Idealize.ShloMosaic Idealize.ShloMosaic.TcCoe
  Idealize.ShloMosaic.ValueIdx

/-! ## Words -/

/-- A word whose signed value is in [0, 16) has unsigned value below 16. -/
theorem toNat_lt (w : BitVec 32) (h : 0 ≤ w.toInt ∧ w.toInt < 16) : w.toNat < 16 := by
  have hlt := w.isLt
  rw [BitVec.toInt_eq_toNat_cond] at h
  split at h <;> omega

/-- For such a word the signed and unsigned values agree. -/
theorem toInt_eq_toNat (w : BitVec 32) (h : 0 ≤ w.toInt ∧ w.toInt < 16) : w.toInt = (w.toNat : Int) := by
  have hlt := w.isLt
  have h' := h
  rw [BitVec.toInt_eq_toNat_cond] at h' ⊢
  split at h' <;> omega

/-- The node such a word names is the word's value. -/
theorem nodeOf_val (w : BitVec 32) (h : 0 ≤ w.toInt ∧ w.toInt < 16) : ((Cert.Gnn.nodeOf w).val : Int) = w.toInt := by
  have h1 := toNat_lt w h
  rw [toInt_eq_toNat w h]
  show ((w.toNat % 16 : Nat) : Int) = (w.toNat : Int)
  rw [Nat.mod_eq_of_lt h1]

/-- A node word plus 16 times an environment number: its signed value is 16 * b + the node. -/
theorem toInt_shift (w : BitVec 32) (h : 0 ≤ w.toInt ∧ w.toInt < 16) (b : Nat) (hb : b < 16384) :
    (IntOp.addi w (IntOp.muli (BitVec.ofNat 32 b) 16#32)).toInt = ((16 * b + (Cert.Gnn.nodeOf w).val : Nat) : Int) := by
  have h1 := toNat_lt w h
  have hn : (IntOp.addi w (IntOp.muli (BitVec.ofNat 32 b) 16#32)).toNat = 16 * b + w.toNat := by
    show (w + BitVec.ofNat 32 b * 16#32).toNat = 16 * b + w.toNat
    rw [BitVec.toNat_add, BitVec.toNat_mul, BitVec.toNat_ofNat]
    show (w.toNat + b % 2 ^ 32 * 16 % 2 ^ 32) % 2 ^ 32 = 16 * b + w.toNat
    omega
  rw [StableHlo.Predicate.toInt_eq_toNat_of_lt (by rw [hn]; omega), hn]
  show ((16 * b + w.toNat : Nat) : Int) = ((16 * b + w.toNat % 16 : Nat) : Int)
  rw [Nat.mod_eq_of_lt h1]

/-- A word with a non-negative signed value is kept by the wrap of negative indices. -/
theorem wrap_keep (w : BitVec 32) (h : 0 ≤ w.toInt) :
    Scalar.select (IntOp.cmpi .slt w 0#32) (IntOp.addi w 262144#32) w = w := by
  have hc : IntOp.cmpi .slt w 0#32 = 0#1 := by
    show BitVec.ofBool (w.slt 0#32) = 0#1
    have hs : w.slt 0#32 = false := by
      rw [BitVec.slt]
      simpa using h
    rw [hs]; rfl
  rw [hc, select_zero]

/-! ## The shifted edge words, and their flattening -/

section
variable (x1 : (⟨S16384x2x128, .i32⟩ : BufTy).Contents (Elt Ideal)) (b : Fin 16384) (e : Fin 128)

/-- The edge word of environment b after the shift: the word plus 16 * b. -/
theorem v6_at (s : Fin 2) :
    val_main_v6 (F := Ideal) x1 (ix3 b s e) = IntOp.addi (x1 (ix3 b s e)) (IntOp.muli (BitVec.ofNat 32 b.val) 16#32) := by
  rw [val_main_v6_apply, val_main_v5_apply, val_main_v4_apply, val_main_v3_apply, val_main_v1_apply, val_main_v2_apply,
    val_main_c_apply]

/-- Position 128 * b + e of the flattened sources is the source word of edge e of environment b. -/
theorem v9_at :
    val_main_v9 (F := Ideal) x1 (ix1 (⟨128 * b.val + e.val, by have := b.isLt; have := e.isLt; omega⟩ : Fin 2097152))
      = val_main_v6 (F := Ideal) x1 (ix3 b 0 e) := by
  have hb := b.isLt
  have he := e.isLt
  rw [val_main_v9_apply, val_main_v8_apply, val_main_v7_apply]
  congr 1
  funext a
  match a with
  | ⟨0, _⟩ =>
    exact Fin.ext (by
      show ((128 * b.val + e.val) / 128 * 128 + (128 * b.val + e.val) % 128) / 128 = b.val
      omega)
  | ⟨1, _⟩ => rfl
  | ⟨2, _⟩ =>
    exact Fin.ext (by
      show ((128 * b.val + e.val) / 128 * 128 + (128 * b.val + e.val) % 128) % 128 = e.val
      omega)

/-- Position 128 * b + e of the flattened targets is the target word of edge e of environment b. -/
theorem v12_at :
    val_main_v12 (F := Ideal) x1 (ix1 (⟨128 * b.val + e.val, by have := b.isLt; have := e.isLt; omega⟩ : Fin 2097152))
      = val_main_v6 (F := Ideal) x1 (ix3 b 1 e) := by
  have hb := b.isLt
  have he := e.isLt
  rw [val_main_v12_apply, val_main_v11_apply, val_main_v10_apply]
  congr 1
  funext a
  match a with
  | ⟨0, _⟩ =>
    exact Fin.ext (by
      show ((128 * b.val + e.val) / 128 * 128 + (128 * b.val + e.val) % 128) / 128 = b.val
      omega)
  | ⟨1, _⟩ => rfl
  | ⟨2, _⟩ =>
    exact Fin.ext (by
      show ((128 * b.val + e.val) / 128 * 128 + (128 * b.val + e.val) % 128) % 128 = e.val
      omega)

/-- The one column of the [2097152, 1] array of start indices reads the flat array at the same position. -/
theorem col17 (E : Fin 2097152) : idx_main_v17 (ix2 E (0 : Fin 1)) = ix1 E := by
  funext a
  match a with
  | ⟨0, _⟩ => rfl

/-- The one column of the [2097152, 1] array of start indices reads the flat array at the same position. -/
theorem col26 (E : Fin 2097152) : idx_main_v26 (ix2 E (0 : Fin 1)) = ix1 E := by
  funext a
  match a with
  | ⟨0, _⟩ => rfl

/-- The one column of the [2097152, 1] array of start indices reads the flat array at the same position. -/
theorem col33 (E : Fin 2097152) : idx_main_v33 (ix2 E (0 : Fin 1)) = ix1 E := by
  funext a
  match a with
  | ⟨0, _⟩ => rfl

/-- The one column of the [2097152, 1] array of start indices reads the flat array at the same position. -/
theorem col42 (E : Fin 2097152) : idx_main_v42 (ix2 E (0 : Fin 1)) = ix1 E := by
  funext a
  match a with
  | ⟨0, _⟩ => rfl

/-- The one column of the [2097152, 1] array of start indices reads the flat array at the same position. -/
theorem col52 (E : Fin 2097152) : idx_main_v52 (ix2 E (0 : Fin 1)) = ix1 E := by
  funext a
  match a with
  | ⟨0, _⟩ => rfl

variable (hx1 : ∀ i, 0 ≤ (x1 i).toInt ∧ (x1 i).toInt < 16)
include hx1

/-- The flattened source word's signed value. -/
theorem v9_toInt :
    (val_main_v9 (F := Ideal) x1 (ix1 (⟨128 * b.val + e.val, by have := b.isLt; have := e.isLt; omega⟩ : Fin 2097152))).toInt
      = ((16 * b.val + (Cert.Gnn.nodeOf (x1 (ix3 b 0 e))).val : Nat) : Int) := by
  rw [v9_at, v6_at, toInt_shift _ (hx1 _) _ b.isLt]

/-- The flattened target word's signed value. -/
theorem v12_toInt :
    (val_main_v12 (F := Ideal) x1 (ix1 (⟨128 * b.val + e.val, by have := b.isLt; have := e.isLt; omega⟩ : Fin 2097152))).toInt
      = ((16 * b.val + (Cert.Gnn.nodeOf (x1 (ix3 b 1 e))).val : Nat) : Int) := by
  rw [v12_at, v6_at, toInt_shift _ (hx1 _) _ b.isLt]

/-! ## The index columns -/

/-- Targets, not wrapped: the start indices of the degree scatter. -/
theorem v17_pos :
    (val_main_v17 (F := Ideal) x1
        (ix2 (⟨128 * b.val + e.val, by have := b.isLt; have := e.isLt; omega⟩ : Fin 2097152) (0 : Fin 1))).toInt
      = ((16 * b.val + (Cert.Gnn.nodeOf (x1 (ix3 b 1 e))).val : Nat) : Int) := by
  rw [val_main_v17_apply, col17]
  exact v12_toInt x1 b e hx1

/-- Sources, wrapped: the start indices of the gather of the sources' normalisers. -/
theorem v26_pos :
    (val_main_v26 (F := Ideal) x1
        (ix2 (⟨128 * b.val + e.val, by have := b.isLt; have := e.isLt; omega⟩ : Fin 2097152) (0 : Fin 1))).toInt
      = ((16 * b.val + (Cert.Gnn.nodeOf (x1 (ix3 b 0 e))).val : Nat) : Int) := by
  have h := v9_toInt x1 b e hx1
  rw [val_main_v26_apply, col26, val_main_v25_apply, val_main_v22_apply, val_main_v24_apply, val_main_v21_apply,
    val_main_v23_apply, val_main_c_2_apply, val_main_c_3_apply]
  rw [wrap_keep _ (by rw [h]; exact Int.natCast_nonneg _)]
  exact h

/-- Targets, wrapped: the start indices of the gather of the targets' normalisers. -/
theorem v33_pos :
    (val_main_v33 (F := Ideal) x1
        (ix2 (⟨128 * b.val + e.val, by have := b.isLt; have := e.isLt; omega⟩ : Fin 2097152) (0 : Fin 1))).toInt
      = ((16 * b.val + (Cert.Gnn.nodeOf (x1 (ix3 b 1 e))).val : Nat) : Int) := by
  have h := v12_toInt x1 b e hx1
  rw [val_main_v33_apply, col33, val_main_v32_apply, val_main_v29_apply, val_main_v31_apply, val_main_v28_apply,
    val_main_v30_apply, val_main_c_4_apply, val_main_c_5_apply]
  rw [wrap_keep _ (by rw [h]; exact Int.natCast_nonneg _)]
  exact h

/-- Sources, wrapped: the start indices of the gather of the sources' feature rows. -/
theorem v42_pos :
    (val_main_v42 (F := Ideal) x1
        (ix2 (⟨128 * b.val + e.val, by have := b.isLt; have := e.isLt; omega⟩ : Fin 2097152) (0 : Fin 1))).toInt
      = ((16 * b.val + (Cert.Gnn.nodeOf (x1 (ix3 b 0 e))).val : Nat) : Int) := by
  have h := v9_toInt x1 b e hx1
  rw [val_main_v42_apply, col42, val_main_v41_apply, val_main_v38_apply, val_main_v40_apply, val_main_v37_apply,
    val_main_v39_apply, val_main_c_6_apply, val_main_c_7_apply]
  rw [wrap_keep _ (by rw [h]; exact Int.natCast_nonneg _)]
  exact h

/-- Targets, wrapped: the start indices of the scatter of the messages. -/
theorem v52_pos :
    (val_main_v52 (F := Ideal) x1
        (ix2 (⟨128 * b.val + e.val, by have := b.isLt; have := e.isLt; omega⟩ : Fin 2097152) (0 : Fin 1))).toInt
      = ((16 * b.val + (Cert.Gnn.nodeOf (x1 (ix3 b 1 e))).val : Nat) : Int) := by
  have h := v12_toInt x1 b e hx1
  rw [val_main_v52_apply, col52, val_main_v51_apply, val_main_v48_apply, val_main_v50_apply, val_main_v47_apply,
    val_main_v49_apply, val_main_c_9_apply, val_main_c_10_apply]
  rw [wrap_keep _ (by rw [h]; exact Int.natCast_nonneg _)]
  exact h

end

end Cert.ReferenceIdeal.Hand

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.RNode.lean ====
/-
  The reference's degree and aggregation at one node, edge by edge.

  The reference numbers the nodes of all environments consecutively (node n of environment b is row 16·b + n) and the
  edges too (edge e of environment b is position 128·b + e), and scatters over all 2097152 positions at once.  A
  position of environment b' names a node of environment b', so in the scatter's sum at a row of environment b every
  tile of 128 positions but tile b vanishes, and tile b is the spec's sum over the environment's 128 edges.  The
  gathers read the normalisers and the feature rows at rows of the same environment, never clamped.
-/
import proofs.«418072_j41214506172575_3_alg».proof.Proof.Gen.ReferenceIdeal.Read
import proofs.«418072_j41214506172575_3_alg».proof.Proof.Spec
import proofs.«418072_j41214506172575_3_alg».proof.Proof.LibScatterAdd
import proofs.«418072_j41214506172575_3_alg».proof.Proof.LibGatherRows
import proofs.«418072_j41214506172575_3_alg».proof.Proof.LibTileSum
import proofs.«418072_j41214506172575_3_alg».proof.Proof.RIdx
import Idealize.ShloMosaic.PureOps.ShapeOps
import Idealize.ShloMosaic.PureOps.Ideal.Laws
import Idealize.ShloMosaic.Lib.ValueIdx
import Idealize.ShloMosaic.Lib.IdealHost

noncomputable section

namespace Cert.ReferenceIdeal.Hand

open Cert.ReferenceIdeal Cert.ReferenceIdeal.Gen Cert.ReferenceIdeal.Read Idealize.ShloMosaic Idealize.ShloMosaic.TcCoe
  Idealize.ShloMosaic.ValueIdx Cert.Lib

/-! ## A gather of single entries read at a position -/

/-- The dimension numbers of a gather of single entries: operand [N], start indices [E, 1], result [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of single entries read at e: the operand at r, r the start index of position e read signed and
    clamped into [0, N − 1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Sums over all positions, by tiles of one environment's edges -/

/-- A sum over all 128·16384 positions whose terms vanish outside tile b is the sum over tile b. -/
theorem sum_positions_tile {M : Type*} [AddCommMonoid M] (H : Fin 2097152 → M) (b : Fin 16384)
    (hz : ∀ (b' : Fin 16384) (e : Fin 128), b' ≠ b →
      H ⟨128 * b'.val + e.val, by have := b'.isLt; have := e.isLt; omega⟩ = 0) :
    ∑ p : Fin 2097152, H p
      = ∑ e : Fin 128, H ⟨128 * b.val + e.val, by have := b.isLt; have := e.isLt; omega⟩ := by
  have hb := b.isLt
  have h1 : ∑ p : Fin 2097152, H p
      = ∑ p : Fin (128 * 16384), (fun k : ℕ => if h : k < 2097152 then H ⟨k, h⟩ else 0) p.val := by
    refine Finset.sum_congr rfl fun p _ => ?_
    show H p = if h : p.val < 2097152 then H ⟨p.val, h⟩ else 0
    rw [dif_pos p.isLt]
  rw [h1, ← sum_fin_tiles 128 16384 (fun k : ℕ => if h : k < 2097152 then H ⟨k, h⟩ else 0),
    Finset.sum_eq_single b.val]
  · refine Finset.sum_congr rfl fun e _ => ?_
    have := e.isLt
    show (if h : 128 * b.val + e.val < 2097152 then H ⟨128 * b.val + e.val, h⟩ else 0) = _
    rw [dif_pos (by omega)]
  · intro s hs hsb
    have hs' : s < 16384 := Finset.mem_range.mp hs
    refine Finset.sum_eq_zero fun e _ => ?_
    have := e.isLt
    show (if h : 128 * s + e.val < 2097152 then H ⟨128 * s + e.val, h⟩ else 0) = 0
    rw [dif_pos (by omega)]
    exact hz ⟨s, hs'⟩ e (fun h => hsb (congrArg Fin.val h))
  · intro h
    exact absurd (Finset.mem_range.mpr hb) h

/-- The scatter's sum at row 16·b + n: position 128·b' + e names row 16·b' + nd b' e, so the sum over all positions of
    the updates landing on the row is the sum over environment b's edges whose node is n. -/
theorem sum_positions_node {M : Type*} [AddCommMonoid M] (pos : Fin 2097152 → Int) (nd : Fin 16384 → Fin 128 → Fin 16)
    (hpos : ∀ (b' : Fin 16384) (e : Fin 128),
      pos ⟨128 * b'.val + e.val, by have := b'.isLt; have := e.isLt; omega⟩ = ((16 * b'.val + (nd b' e).val : ℕ) : Int))
    (upd : Fin 2097152 → M) (b : Fin 16384) (n : Fin 16) :
    (∑ p : Fin 2097152, if pos p = ((16 * b.val + n.val : ℕ) : Int) then upd p else 0)
      = ∑ e : Fin 128, if nd b e = n then upd ⟨128 * b.val + e.val, by have := b.isLt; have := e.isLt; omega⟩ else 0 := by
  rw [sum_positions_tile (fun p => if pos p = ((16 * b.val + n.val : ℕ) : Int) then upd p else 0) b]
  · refine Finset.sum_congr rfl fun e _ => ?_
    show (if pos ⟨128 * b.val + e.val, _⟩ = ((16 * b.val + n.val : ℕ) : Int) then _ else 0) = _
    rw [hpos b e]
    have hm := (nd b e).isLt
    have hn := n.isLt
    by_cases h : nd b e = n
    · rw [if_pos h, if_pos (by rw [h])]
    · rw [if_neg h, if_neg]
      intro h'
      have h'' : 16 * b.val + (nd b e).val = 16 * b.val + n.val := by exact_mod_cast h'
      exact h (Fin.ext (by omega))
  · intro b' e hb'
    show (if pos ⟨128 * b'.val + e.val, _⟩ = ((16 * b.val + n.val : ℕ) : Int) then _ else 0) = 0
    rw [hpos b' e, if_neg]
    intro h'
    have hm := (nd b' e).isLt
    have hn := n.isLt
    have h'' : 16 * b'.val + (nd b' e).val = 16 * b.val + n.val := by exact_mod_cast h'
    exact hb' (Fin.ext (by omega))

/-! ## The program's gathers and its row scatter, read at a position -/

/-- The program's record for the gathers of single entries is the library's. -/
theorem gatherVec_eq :
    (gather_S262144_S2097152x1_S2097152_n_0_n_n_0_1_1 : GatherDims S262144 S2097152x1 S2097152)
      = vecGatherDims 262144 2097152 gather_S262144_S2097152x1_S2097152_n_0_n_n_0_1_1_wf := rfl

/-- The program's record for the gather of rows is the library's. -/
theorem gatherRows_eq :
    (gather_S262144x64_S2097152x1_S2097152x64_1_0_n_n_0_1_164 : GatherDims S262144x64 S2097152x1 S2097152x64)
      = rowGatherDims 262144 64 2097152 gather_S262144x64_S2097152x1_S2097152x64_1_0_n_n_0_1_164_wf := rfl

/-- The program's record for the scatter of rows is the library's. -/
theorem scatterRows_eq :
    (scatter_S262144x64_S2097152x1_S2097152x64_1_0_0_1 : ScatterDims S262144x64 S2097152x1 S2097152x64)
      = rowScatterDims 262144 64 2097152 scatter_S262144x64_S2097152x1_S2097152x64_1_0_0_1_wf := rfl

/-- The gather of single entries at position p: the operand at p's start index, read signed and clamped. -/
theorem gather_vec_read {α : Type} (x : S262144.Idx → α) (idx : IVec S2097152x1 32) (p : Fin 2097152) :
    Host.gather gather_S262144_S2097152x1_S2097152_n_0_n_n_0_1_1 x idx (ix1 p)
      = x (ix1 (⟨min (idx (ix2 p (0 : Fin 1))).toInt.toNat (262144 - 1), by omega⟩ : Fin 262144)) := by
  rw [gatherVec_eq]
  exact gather_vec_apply (by decide) _ x idx p

/-- The gather of rows at (p, j): the operand's row at p's start index, read signed and clamped, entry j. -/
theorem gather_rows_read {α : Type} (x : S262144x64.Idx → α) (idx : IVec S2097152x1 32) (p : Fin 2097152) (j : Fin 64) :
    Host.gather gather_S262144x64_S2097152x1_S2097152x64_1_0_n_n_0_1_164 x idx (ix2 p j)
      = x (ix2 (⟨min (idx (ix2 p (0 : Fin 1))).toInt.toNat (262144 - 1), by omega⟩ : Fin 262144) j) := by
  rw [gatherRows_eq]
  exact gather_rows_apply (by decide) _ x idx p j

/-- The scatter of rows at (r, j): the operand's entry plus the updates' entries j of the positions whose start
    index is r. -/
theorem scatter_rows_read (x : FVec Ideal S262144x64 .f32) (idx : IVec S2097152x1 32) (upd : FVec Ideal S2097152x64 .f32)
    (r : Fin 262144) (j : Fin 64) :
    Host.scatterAdd (F := Ideal) scatter_S262144x64_S2097152x1_S2097152x64_1_0_0_1 x idx upd (ix2 r j)
      = x (ix2 r j) + ∑ p : Fin 2097152, if (idx (ix2 p (0 : Fin 1))).toInt = (r.val : Int) then upd (ix2 p j) else 0 := by
  rw [scatterRows_eq]
  exact scatterAdd_rows_apply _ x idx upd r j

/-- A start index that names row 16·b + m is not moved by the clamp into [0, 262143]. -/
theorem clamp_row (b : Fin 16384) (m : Fin 16) (z : Int) (hz : z = ((16 * b.val + m.val : ℕ) : Int))
    (h : min z.toNat (262144 - 1) < 262144) :
    (⟨min z.toNat (262144 - 1), h⟩ : Fin 262144)
      = ⟨16 * b.val + m.val, by have := b.isLt; have := m.isLt; omega⟩ := by
  have hb := b.isLt
  have hm := m.isLt
  refine Fin.ext ?_
  show min z.toNat (262144 - 1) = 16 * b.val + m.val
  rw [hz, Int.toNat_natCast]
  omega

/-! ## The degree -/

/-- The program's record for the scatter into a vector is the library's. -/
theorem scatterVec_eq :
    (scatter_S262144_S2097152x1_S2097152_n_0_0_1 : ScatterDims S262144 S2097152x1 S2097152)
      = vecScatterDims 262144 2097152 scatter_S262144_S2097152x1_S2097152_n_0_0_1_wf := rfl

/-- The scatter into a vector at r: the operand's entry plus the updates of the positions whose start index is r. -/
theorem scatter_vec_read (x : FVec Ideal S262144 .f32) (idx : IVec S2097152x1 32) (upd : FVec Ideal S2097152 .f32)
    (r : Fin 262144) :
    Host.scatterAdd (F := Ideal) scatter_S262144_S2097152x1_S2097152_n_0_0_1 x idx upd (ix1 r)
      = x (ix1 r) + ∑ p : Fin 2097152, if (idx (ix2 p (0 : Fin 1))).toInt = (r.val : Int) then upd (ix1 p) else 0 := by
  rw [scatterVec_eq]
  exact scatterAdd_vec_apply _ x idx upd r

section
variable (x1 : (⟨S16384x2x128, .i32⟩ : BufTy).Contents (Elt Ideal))

/-- The scatter of ones at row r: the number of positions whose target is r. -/
theorem v18_at (r : Fin 262144) :
    val_main_v18 (F := Ideal) x1 (ix1 r)
      = ∑ p : Fin 2097152,
          if (val_main_v17 (F := Ideal) x1 (ix2 p (0 : Fin 1))).toInt = (r.val : Int) then (1 : EReal) else 0 := by
  unfold val_main_v18
  rw [scatter_vec_read, val_main_v16_apply, val_main_cst_1_apply, Ideal.ofBits_def, Ideal.ofBits_zero_f32, zero_add]
  refine Finset.sum_congr rfl fun p _ => ?_
  rw [val_main_v14_apply, val_main_cst_apply, Ideal.ofBits_def, Ideal.ofBits_one_f32]

variable (hx1 : ∀ i, 0 ≤ (x1 i).toInt ∧ (x1 i).toInt < 16)
include hx1

/-- THE DEGREE at node n of environment b: one plus the number of the environment's edges into n. -/
theorem v19_node (b : Fin 16384) (n : Fin 16) :
    val_main_v19 (F := Ideal) x1 (ix1 (⟨16 * b.val + n.val, by have := b.isLt; have := n.isLt; omega⟩ : Fin 262144))
      = Cert.Gnn.degEdge (Cert.Gnn.envCol x1 b) n := by
  rw [val_main_v19_apply, val_main_v15_apply, val_main_cst_0_apply, Ideal.ofBits_def, Ideal.ofBits_one_f32,
    Ideal.addf_def, v18_at]
  rw [sum_positions_node (fun p => (val_main_v17 (F := Ideal) x1 (ix2 p (0 : Fin 1))).toInt)
    (fun b' e => Cert.Gnn.nodeOf (x1 (ix3 b' 1 e))) (fun b' e => v17_pos x1 b' e hx1) (fun _ => (1 : EReal)) b n]
  rfl

end

/-! ## The gathers at an edge -/

section
variable (x1 : (⟨S16384x2x128, .i32⟩ : BufTy).Contents (Elt Ideal))
variable (hx1 : ∀ i, 0 ≤ (x1 i).toInt ∧ (x1 i).toInt < 16)
include hx1

/-- The normaliser at node m of environment b. -/
theorem v20_node (b : Fin 16384) (m : Fin 16) :
    val_main_v20 (F := Ideal) x1 (ix1 (⟨16 * b.val + m.val, by have := b.isLt; have := m.isLt; omega⟩ : Fin 262144))
      = Ideal.rsqrt (Cert.Gnn.degEdge (Cert.Gnn.envCol x1 b) m) := by
  rw [val_main_v20_apply, Ideal.hostUnary_rsqrt_def, v19_node x1 hx1]

/-- The source's normaliser at edge e of environment b. -/
theorem v27_at (b : Fin 16384) (e : Fin 128) :
    val_main_v27 (F := Ideal) x1 (ix1 (⟨128 * b.val + e.val, by have := b.isLt; have := e.isLt; omega⟩ : Fin 2097152))
      = Ideal.rsqrt (Cert.Gnn.degEdge (Cert.Gnn.envCol x1 b) (Cert.Gnn.nodeOf (x1 (ix3 b 0 e)))) := by
  unfold val_main_v27
  rw [gather_vec_read, clamp_row b _ _ (v26_pos x1 b e hx1), v20_node x1 hx1]

/-- The target's normaliser at edge e of environment b. -/
theorem v34_at (b : Fin 16384) (e : Fin 128) :
    val_main_v34 (F := Ideal) x1 (ix1 (⟨128 * b.val + e.val, by have := b.isLt; have := e.isLt; omega⟩ : Fin 2097152))
      = Ideal.rsqrt (Cert.Gnn.degEdge (Cert.Gnn.envCol x1 b) (Cert.Gnn.nodeOf (x1 (ix3 b 1 e)))) := by
  unfold val_main_v34
  rw [gather_vec_read, clamp_row b _ _ (v33_pos x1 b e hx1), v20_node x1 hx1]

end

/-! ## The messages and their scatter -/

section
variable (x0 : (⟨S16384x16x128, .f32⟩ : BufTy).Contents (Elt Ideal)) (x1 : (⟨S16384x2x128, .i32⟩ : BufTy).Contents (Elt Ideal))
  (x3 : (⟨S128x64, .f32⟩ : BufTy).Contents (Elt Ideal))

/-- The scatter of the messages at (r, j): the sum of the messages of the positions whose target is r. -/
theorem v53_at (r : Fin 262144) (j : Fin 64) :
    val_main_v53 (F := Ideal) x0 x1 x3 (ix2 r j)
      = ∑ p : Fin 2097152,
          if (val_main_v52 (F := Ideal) x1 (ix2 p (0 : Fin 1))).toInt = (r.val : Int)
            then val_main_v45 (F := Ideal) x0 x1 x3 (ix2 p j) else 0 := by
  unfold val_main_v53
  rw [scatter_rows_read, val_main_v46_apply, val_main_cst_8_apply, Ideal.ofBits_def, Ideal.ofBits_zero_f32, zero_add]

variable (hx1 : ∀ i, 0 ≤ (x1 i).toInt ∧ (x1 i).toInt < 16)
include hx1

/-- The source's feature row at edge e of environment b. -/
theorem v43_at (b : Fin 16384) (e : Fin 128) (j : Fin 64) :
    val_main_v43 (F := Ideal) x0 x1 x3
        (ix2 (⟨128 * b.val + e.val, by have := b.isLt; have := e.isLt; omega⟩ : Fin 2097152) j)
      = val_main_v13 (F := Ideal) x0 x3
          (ix2 (⟨16 * b.val + (Cert.Gnn.nodeOf (x1 (ix3 b 0 e))).val,
            by have := b.isLt; have := (Cert.Gnn.nodeOf (x1 (ix3 b 0 e))).isLt; omega⟩ : Fin 262144) j) := by
  unfold val_main_v43
  rw [gather_rows_read, clamp_row b _ _ (v42_pos x1 b e hx1)]

/-- The message of edge e of environment b, feature j. -/
theorem v45_at (b : Fin 16384) (e : Fin 128) (j : Fin 64) :
    val_main_v45 (F := Ideal) x0 x1 x3
        (ix2 (⟨128 * b.val + e.val, by have := b.isLt; have := e.isLt; omega⟩ : Fin 2097152) j)
      = (Ideal.rsqrt (Cert.Gnn.degEdge (Cert.Gnn.envCol x1 b) (Cert.Gnn.nodeOf (x1 (ix3 b 0 e))))
          * Ideal.rsqrt (Cert.Gnn.degEdge (Cert.Gnn.envCol x1 b) (Cert.Gnn.nodeOf (x1 (ix3 b 1 e)))))
        * val_main_v13 (F := Ideal) x0 x3
          (ix2 (⟨16 * b.val + (Cert.Gnn.nodeOf (x1 (ix3 b 0 e))).val,
            by have := b.isLt; have := (Cert.Gnn.nodeOf (x1 (ix3 b 0 e))).isLt; omega⟩ : Fin 262144) j) := by
  have hi : idx_main_v36 (idx_main_v44
      (ix2 (⟨128 * b.val + e.val, by have := b.isLt; have := e.isLt; omega⟩ : Fin 2097152) j))
      = ix1 (⟨128 * b.val + e.val, by have := b.isLt; have := e.isLt; omega⟩ : Fin 2097152) := by
    funext a
    match a with
    | ⟨0, _⟩ => rfl
  rw [val_main_v45_apply, val_main_v44_apply, val_main_v36_apply, val_main_v35_apply, hi, Ideal.mulf_def, Ideal.mulf_def,
    v27_at x1 hx1, v34_at x1 hx1, v43_at x0 x1 x3 hx1]

/-- THE AGGREGATION at node n of environment b, feature j: the sum over the environment's edges into n of the two
    normalisers times the source's feature product. -/
theorem v53_node (b : Fin 16384) (n : Fin 16) (j : Fin 64) :
    val_main_v53 (F := Ideal) x0 x1 x3
        (ix2 (⟨16 * b.val + n.val, by have := b.isLt; have := n.isLt; omega⟩ : Fin 262144) j)
      = Cert.Gnn.aggEdge (Cert.Gnn.envRow x1 b) (Cert.Gnn.envCol x1 b)
          (fun m j => val_main_v13 (F := Ideal) x0 x3
            (ix2 (⟨16 * b.val + m.val, by have := b.isLt; have := m.isLt; omega⟩ : Fin 262144) j)) n j := by
  rw [v53_at]
  rw [sum_positions_node (fun p => (val_main_v52 (F := Ideal) x1 (ix2 p (0 : Fin 1))).toInt)
    (fun b' e => Cert.Gnn.nodeOf (x1 (ix3 b' 1 e))) (fun b' e => v52_pos x1 b' e hx1)
    (fun p => val_main_v45 (F := Ideal) x0 x1 x3 (ix2 p j)) b n]
  unfold Cert.Gnn.aggEdge
  refine Finset.sum_congr rfl fun e _ => ?_
  unfold Cert.Gnn.envRow Cert.Gnn.envCol
  by_cases h : Cert.Gnn.nodeOf (x1 (ix3 b 1 e)) = n
  · rw [if_pos h, if_pos h, v45_at x0 x1 x3 hx1]
    rfl
  · rw [if_neg h, if_neg h]

end

end Cert.ReferenceIdeal.Hand

end
-- ==== Proof.RRun.lean ====
/-
  The reference's two results as the specification's functions of the eleven argument arrays: the convolution's output
  at a node is the count-matrix form of the graph convolution (through its edge-by-edge form), the new hidden state is
  the GRU step of it, and the head reads the 16 new hidden states of an environment laid side by side.
-/
import proofs.«418072_j41214506172575_3_alg».proof.Proof.RGru
import proofs.«418072_j41214506172575_3_alg».proof.Proof.SpecG
import proofs.«418072_j41214506172575_3_alg».proof.Proof.Alg
import proofs.«418072_j41214506172575_3_alg».proof.Proof.RIdx
import proofs.«418072_j41214506172575_3_alg».proof.Proof.RNode

noncomputable section

namespace Cert.ReferenceIdeal.Hand

open Cert.ReferenceIdeal Cert.ReferenceIdeal.Gen Cert.ReferenceIdeal.Read Idealize.ShloMosaic Idealize.ShloMosaic.TcCoe Idealize.ShloMosaic.ValueIdx

section
variable (x0 : (⟨S16384x16x128, .f32⟩ : BufTy).Contents (Elt Ideal)) (x1 : (⟨S16384x2x128, .i32⟩ : BufTy).Contents (Elt Ideal))
  (x2 : (⟨S16384x16x64, .f32⟩ : BufTy).Contents (Elt Ideal)) (x3 : (⟨S128x64, .f32⟩ : BufTy).Contents (Elt Ideal))
  (x4 : (⟨S64, .f32⟩ : BufTy).Contents (Elt Ideal)) (x5 x6 : (⟨S192x64, .f32⟩ : BufTy).Contents (Elt Ideal))
  (x7 x8 : (⟨S192, .f32⟩ : BufTy).Contents (Elt Ideal)) (x9 : (⟨S512x1024, .f32⟩ : BufTy).Contents (Elt Ideal))
  (x10 : (⟨S512, .f32⟩ : BufTy).Contents (Elt Ideal))

/-- The convolution's output at node n of environment b is the graph convolution of the specification, given the
    degree and the scattered sum there in their edge-by-edge forms. -/
theorem v60_node_of (hx0 : ∀ i, ∃ r : ℝ, x0 i = (r : EReal)) (hx3 : ∀ i, ∃ r : ℝ, x3 i = (r : EReal))
    (hx1 : ∀ i, 0 ≤ (x1 i).toInt ∧ (x1 i).toInt < 16)
    (h19 : ∀ (b : Fin 16384) (n : Fin 16),
      val_main_v19 (F := Ideal) x1 (ix1 (nodeRow b n)) = Cert.Gnn.degEdge (Cert.Gnn.envCol x1 b) n)
    (h53 : ∀ (b : Fin 16384) (n : Fin 16) (j : Fin 64),
      val_main_v53 (F := Ideal) x0 x1 x3 (ix2 (nodeRow b n) j)
        = Cert.Gnn.aggEdge (Cert.Gnn.envRow x1 b) (Cert.Gnn.envCol x1 b)
            (fun m j => val_main_v13 (F := Ideal) x0 x3 (ix2 (nodeRow b m) j)) n j)
    (b : Fin 16384) (n : Fin 16) (j : Fin 64) :
    val_main_v60 (F := Ideal) x0 x1 x3 x4 (ix2 (nodeRow b n) j)
      = Cert.Gnn.gcn (Cert.Gnn.envRow x1 b) (Cert.Gnn.envCol x1 b) (Cert.Gnn.xw (Cert.Gnn.envF x0 b) (Cert.Gnn.mat x3))
          (Cert.Gnn.vec x4) n j := by
  have hr : ∀ e, (Cert.Gnn.envRow x1 b e).toNat < 16 := fun e => toNat_lt _ (hx1 (ix3 b 0 e))
  have hc : ∀ e, (Cert.Gnn.envCol x1 b e).toNat < 16 := fun e => toNat_lt _ (hx1 (ix3 b 1 e))
  have hxw : ∀ m j, ∃ r : ℝ, Cert.Gnn.xw (Cert.Gnn.envF x0 b) (Cert.Gnn.mat x3) m j = (r : EReal) :=
    Cert.Gnn.xw_real (Cert.Gnn.envF x0 b) (Cert.Gnn.mat x3) (fun n k => hx0 (ix3 b n k)) (fun k j => hx3 (ix2 k j))
  have hfun : (fun m j => val_main_v13 (F := Ideal) x0 x3 (ix2 (nodeRow b m) j))
      = Cert.Gnn.xw (Cert.Gnn.envF x0 b) (Cert.Gnn.mat x3) :=
    funext fun m => funext fun j => v13_node x0 x3 b m j
  rw [← Cert.Gnn.gcnEdge_eq (Cert.Gnn.envRow x1 b) (Cert.Gnn.envCol x1 b) hr hc _ hxw (Cert.Gnn.vec x4) n j]
  unfold Cert.Gnn.gcnEdge Cert.Gnn.vec
  rw [v60_row, h53, h19, v13_node, hfun]

/-- The new hidden state at node n of environment b is the specification's. -/
theorem v99_node_of (hx0 : ∀ i, ∃ r : ℝ, x0 i = (r : EReal)) (hx3 : ∀ i, ∃ r : ℝ, x3 i = (r : EReal))
    (hx1 : ∀ i, 0 ≤ (x1 i).toInt ∧ (x1 i).toInt < 16)
    (h19 : ∀ (b : Fin 16384) (n : Fin 16),
      val_main_v19 (F := Ideal) x1 (ix1 (nodeRow b n)) = Cert.Gnn.degEdge (Cert.Gnn.envCol x1 b) n)
    (h53 : ∀ (b : Fin 16384) (n : Fin 16) (j : Fin 64),
      val_main_v53 (F := Ideal) x0 x1 x3 (ix2 (nodeRow b n) j)
        = Cert.Gnn.aggEdge (Cert.Gnn.envRow x1 b) (Cert.Gnn.envCol x1 b)
            (fun m j => val_main_v13 (F := Ideal) x0 x3 (ix2 (nodeRow b m) j)) n j)
    (b : Fin 16384) (n : Fin 16) (q : Fin 64) :
    val_main_v99 (F := Ideal) x0 x1 x2 x3 x4 x5 x6 x7 x8 (ix2 (nodeRow b n) q)
      = Cert.Gnn.hnewG x0 x1 x2 x3 x4 x5 x6 x7 x8 b n q := by
  have h60 : (fun j => val_main_v60 (F := Ideal) x0 x1 x3 x4 (ix2 (nodeRow b n) j))
      = Cert.Gnn.gcn (Cert.Gnn.envRow x1 b) (Cert.Gnn.envCol x1 b) (Cert.Gnn.xw (Cert.Gnn.envF x0 b) (Cert.Gnn.mat x3))
          (Cert.Gnn.vec x4) n :=
    funext fun j => v60_node_of x0 x1 x3 x4 hx0 hx3 hx1 h19 h53 b n j
  rw [v99_node, h60]
  unfold Cert.Gnn.hnewG Cert.Gnn.hnew
  rfl

/-- The second result, given the degree and the scattered sum in their edge-by-edge forms. -/
theorem ref_nexth_of (hx0 : ∀ i, ∃ r : ℝ, x0 i = (r : EReal)) (hx3 : ∀ i, ∃ r : ℝ, x3 i = (r : EReal))
    (hx1 : ∀ i, 0 ≤ (x1 i).toInt ∧ (x1 i).toInt < 16)
    (h19 : ∀ (b : Fin 16384) (n : Fin 16),
      val_main_v19 (F := Ideal) x1 (ix1 (nodeRow b n)) = Cert.Gnn.degEdge (Cert.Gnn.envCol x1 b) n)
    (h53 : ∀ (b : Fin 16384) (n : Fin 16) (j : Fin 64),
      val_main_v53 (F := Ideal) x0 x1 x3 (ix2 (nodeRow b n) j)
        = Cert.Gnn.aggEdge (Cert.Gnn.envRow x1 b) (Cert.Gnn.envCol x1 b)
            (fun m j => val_main_v13 (F := Ideal) x0 x3 (ix2 (nodeRow b m) j)) n j) :
    val_main_v106 (F := Ideal) x0 x1 x2 x3 x4 x5 x6 x7 x8 = Cert.Gnn.nexthG x0 x1 x2 x3 x4 x5 x6 x7 x8 := by
  funext i
  obtain ⟨b, n, q, rfl⟩ : ∃ (b : Fin 16384) (n : Fin 16) (q : Fin 64), i = ix3 b n q := ⟨i 0, i 1, i 2, eq_ix3 i⟩
  rw [v106_env, v99_node_of x0 x1 x2 x3 x4 x5 x6 x7 x8 hx0 hx3 hx1 h19 h53]
  rfl

/-- The first result, given the degree and the scattered sum in their edge-by-edge forms. -/
theorem ref_logits_of (hx0 : ∀ i, ∃ r : ℝ, x0 i = (r : EReal)) (hx3 : ∀ i, ∃ r : ℝ, x3 i = (r : EReal))
    (hx1 : ∀ i, 0 ≤ (x1 i).toInt ∧ (x1 i).toInt < 16)
    (h19 : ∀ (b : Fin 16384) (n : Fin 16),
      val_main_v19 (F := Ideal) x1 (ix1 (nodeRow b n)) = Cert.Gnn.degEdge (Cert.Gnn.envCol x1 b) n)
    (h53 : ∀ (b : Fin 16384) (n : Fin 16) (j : Fin 64),
      val_main_v53 (F := Ideal) x0 x1 x3 (ix2 (nodeRow b n) j)
        = Cert.Gnn.aggEdge (Cert.Gnn.envRow x1 b) (Cert.Gnn.envCol x1 b)
            (fun m j => val_main_v13 (F := Ideal) x0 x3 (ix2 (nodeRow b m) j)) n j) :
    val_main_v105 (F := Ideal) x0 x1 x2 x3 x4 x5 x6 x7 x8 x9 x10 = Cert.Gnn.logitsG x0 x1 x2 x3 x4 x5 x6 x7 x8 x9 x10 := by
  funext i
  obtain ⟨b, o, rfl⟩ : ∃ (b : Fin 16384) (o : Fin 512), i = ix2 b o := ⟨i 0, i 1, eq_ix2 i⟩
  have h99 : (fun n q => val_main_v99 (F := Ideal) x0 x1 x2 x3 x4 x5 x6 x7 x8 (ix2 (nodeRow b n) q))
      = Cert.Gnn.hnewG x0 x1 x2 x3 x4 x5 x6 x7 x8 b :=
    funext fun n => funext fun q => v99_node_of x0 x1 x2 x3 x4 x5 x6 x7 x8 hx0 hx3 hx1 h19 h53 b n q
  rw [v105_env, h99]
  rfl

/-- The reference's first result is the specification's head output. -/
theorem ref_logits (hx0 : ∀ i, ∃ r : ℝ, x0 i = (r : EReal)) (hx3 : ∀ i, ∃ r : ℝ, x3 i = (r : EReal))
    (hx1 : ∀ i, 0 ≤ (x1 i).toInt ∧ (x1 i).toInt < 16) :
    val_main_v105 (F := Ideal) x0 x1 x2 x3 x4 x5 x6 x7 x8 x9 x10 = Cert.Gnn.logitsG x0 x1 x2 x3 x4 x5 x6 x7 x8 x9 x10 :=
  ref_logits_of x0 x1 x2 x3 x4 x5 x6 x7 x8 x9 x10 hx0 hx3 hx1 (fun b n => v19_node x1 hx1 b n)
    (fun b n j => v53_node x0 x1 x3 hx1 b n j)

/-- The reference's second result is the specification's new hidden state. -/
theorem ref_nexth (hx0 : ∀ i, ∃ r : ℝ, x0 i = (r : EReal)) (hx3 : ∀ i, ∃ r : ℝ, x3 i = (r : EReal))
    (hx1 : ∀ i, 0 ≤ (x1 i).toInt ∧ (x1 i).toInt < 16) :
    val_main_v106 (F := Ideal) x0 x1 x2 x3 x4 x5 x6 x7 x8 = Cert.Gnn.nexthG x0 x1 x2 x3 x4 x5 x6 x7 x8 :=
  ref_nexth_of x0 x1 x2 x3 x4 x5 x6 x7 x8 hx0 hx3 hx1 (fun b n => v19_node x1 hx1 b n)
    (fun b n j => v53_node x0 x1 x3 hx1 b n j)

end

end Cert.ReferenceIdeal.Hand

end
-- ==== Proof.PreFacts.lean ====
/-
  The precondition decoded. The predicate is a conjunction, over every float input, of "all |x| < +∞", followed by
  "all a1 ≥ 0" and "all a1 < 16" over the integer input. When it is 1, every element of a0 and of a3 is a real
  number (an extended real x with max x (-x) < ⊤ is neither ⊤ nor ⊥), and every word of a1 lies in [0, 16) as a signed
  integer.
-/
import proofs.«418072_j41214506172575_3_alg».proof.Pre_finite_inputs
import Idealize.ShloMosaic.Lib.ReduceAll
import Idealize.ShloMosaic.Lib.Affine
import Idealize.ShloMosaic.Lib.ValueIdx
import Idealize.ShloMosaic.Lib.StableHlo.Predicate
import Idealize.ShloMosaic.PureOps.Ideal

noncomputable section

namespace Cert.PreFacts

open Idealize.ShloMosaic
open Cert.Pre_finite_inputs Cert.Pre_finite_inputs.Facts

variable [Cert.Pre_finite_inputs.Facts]

instance : Subsingleton S_.Idx := ⟨fun a b => funext fun d => d.elim0⟩

/-- The f32 pattern 0x7F800000 denotes +∞. -/
theorem inf_bits : Ideal.ofBits .f32 0x7F800000#32 = (⊤ : EReal) := by
  simp [Ideal.ofBits, Ideal.ieee]

/-- An extended real whose absolute value max x (-x) is strictly below +∞ is a real number. -/
theorem real_of_abs_lt (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- jnp.all (|x| < +∞) being 1 says every element of x is a real number. -/
theorem finite_of_all {s : Shape} {axes : List (Fin s.rank)} (x : FVec Ideal s .f32) (hb : S_.BroadcastsInDim s (![] : Fin 0 → Fin s.rank))
    (hr : s.ReducesTo axes S_) (h0 : 0 < S_.numel) (j : S_.Idx)
    (e : Host.reduce IntOp.andi (cmpf .olt (Host.absf x) (broadcastInDim s ![] hb (constant S_ .f32 0x7F800000#32)))
      (constantI S_ 1 1#1) hr h0 j = 1#1) (i : s.Idx) : ∃ r : ℝ, x i = (r : EReal) :=
  real_of_abs_lt (x i) (Host.reduce_andi_all _ _ hr h0 j e i)

/-- A 32-bit word that is ≥ 0 and < 16 as a signed integer. -/
theorem range_of_cmp (w : BitVec 32) (h0 : IntOp.cmpi .sge w 0#32 = 1#1) (h16 : IntOp.cmpi .slt w 16#32 = 1#1) :
    0 ≤ w.toInt ∧ w.toInt < 16 := by
  unfold IntOp.cmpi at h0 h16
  rw [StableHlo.Predicate.ofBool_eq_one_iff] at h0 h16
  simp only [BitVec.slt, BitVec.sle, decide_eq_true_eq] at h0 h16
  have e0 : (0#32 : BitVec 32).toInt = 0 := by decide
  have e16 : (16#32 : BitVec 32).toInt = 16 := by decide
  rw [e0] at h0; rw [e16] at h16
  exact ⟨h0, h16⟩

theorem of_pre (a0 : FVec Ideal S16384x16x128 .f32) (a1 : IVec S16384x2x128 32) (a2 : FVec Ideal S16384x16x64 .f32)
    (a3 : FVec Ideal S128x64 .f32) (a4 : FVec Ideal S64 .f32) (a5 a6 : FVec Ideal S192x64 .f32) (a7 a8 : FVec Ideal S192 .f32)
    (a9 : FVec Ideal S512x1024 .f32) (a10 : FVec Ideal S512 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a3 i = (r : EReal)) ∧ (∀ i, 0 ≤ (a1 i).toInt ∧ (a1 i).toInt < 16) := by
  have e := congrFun h ValueIdx.ix0
  dsimp only [fn, fn_part1, fn_part2, fn_part3, andi] at e
  obtain ⟨e, h16⟩ := IntOp.andi_eq_one.mp e
  obtain ⟨e, h0⟩ := IntOp.andi_eq_one.mp e
  obtain ⟨e, -⟩ := IntOp.andi_eq_one.mp e
  obtain ⟨e, -⟩ := IntOp.andi_eq_one.mp e
  obtain ⟨e, -⟩ := IntOp.andi_eq_one.mp e
  obtain ⟨e, -⟩ := IntOp.andi_eq_one.mp e
  obtain ⟨e, -⟩ := IntOp.andi_eq_one.mp e
  obtain ⟨e, -⟩ := IntOp.andi_eq_one.mp e
  obtain ⟨e, -⟩ := IntOp.andi_eq_one.mp e
  obtain ⟨e, h3⟩ := IntOp.andi_eq_one.mp e
  obtain ⟨ha0, -⟩ := IntOp.andi_eq_one.mp e
  refine ⟨fun i => finite_of_all a0 _ _ _ _ ha0 i, fun i => finite_of_all a3 _ _ _ _ h3 i, fun i => ?_⟩
  exact range_of_cmp (a1 i) (Host.reduce_andi_all _ _ _ _ _ h0 i) (Host.reduce_andi_all _ _ _ _ _ h16 i)

end Cert.PreFacts

end
-- ==== Proof.lean ====
/-
  The certificate of the graph-convolution / GRU / linear-head kernel against its jnp reference, over the extended reals.

  Both programs compute, for each of the 16384 environments, the function of Proof/Spec.lean and Proof/SpecG.lean.  The
  kernel forms the 16 x 16 matrix of edge counts of an environment and multiplies it, normalised, with the feature
  products; the reference scatters one message per edge.  The two agree where the edge words are node numbers in
  [0, 16) (the added precondition: the reference's own block-offset arithmetic presupposes it) and the feature products
  are real numbers (finite inputs), since then a count times a real is that real added the counted number of times.
  Everything after the convolution is the same sequence of operations on both sides, read at an index.

  The two programs' frames are the generated frame certificates, in the copies Proof/FrameK.lean and Proof/FrameKI.lean.
  The kernel side: Proof/KCount.lean, KGcn.lean, KGru.lean (the body's values at an index), KHnew.lean, KBlock.lean (blocks to
  arrays, the host lines around the region, the run).  The reference side: Proof/RIdx.lean, RNode.lean (the scatters and
  gathers at a node), RGru.lean, RRun.lean.  Proof/Alg.lean joins the two forms of the convolution; Proof/PreFacts.lean
  reads the precondition.
-/
import proofs.«418072_j41214506172575_3_alg».proof.Defs
import proofs.«418072_j41214506172575_3_alg».proof.Proof.Gen.Kernel
import proofs.«418072_j41214506172575_3_alg».proof.Proof.Gen.Kernel.Skeleton
import proofs.«418072_j41214506172575_3_alg».proof.Proof.Gen.Kernel.Launch
import proofs.«418072_j41214506172575_3_alg».proof.Proof.Gen.Kernel.Points
import proofs.«418072_j41214506172575_3_alg».proof.Proof.FrameK
import proofs.«418072_j41214506172575_3_alg».proof.Proof.Gen.KernelIdeal
import proofs.«418072_j41214506172575_3_alg».proof.Proof.Gen.KernelIdeal.Skeleton
import proofs.«418072_j41214506172575_3_alg».proof.Proof.Gen.KernelIdeal.Launch
import proofs.«418072_j41214506172575_3_alg».proof.Proof.Gen.KernelIdeal.Points
import proofs.«418072_j41214506172575_3_alg».proof.Proof.FrameKI
import proofs.«418072_j41214506172575_3_alg».proof.Proof.Gen.ReferenceIdeal
import proofs.«418072_j41214506172575_3_alg».proof.Proof.Gen.ReferenceIdeal.Run
import proofs.«418072_j41214506172575_3_alg».proof.Proof.Gen.ReferenceIdeal.Read
import proofs.«418072_j41214506172575_3_alg».proof.Proof.Gen.Pre_finite_inputs
import proofs.«418072_j41214506172575_3_alg».proof.Proof.KBlock
import proofs.«418072_j41214506172575_3_alg».proof.Proof.RRun
import proofs.«418072_j41214506172575_3_alg».proof.Proof.PreFacts
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel := fun m ρ _ => Cert.Kernel.GenP.frame m ρ
theorem frame_ki [Cert.KernelIdeal.Facts] [Cert.Pre_finite_inputs.Facts] : Cert.frame_KernelIdeal := fun m ρ _ => Cert.KernelIdeal.GenP.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- Run from memories that agree on the arguments, under the precondition, both programs end with the head's output at
    logitsG and the new hidden state at nexthG of the arguments. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.Gnn.logitsG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Gnn.nexthG (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Hand.kernel_run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10⟩ := hagree c
  obtain ⟨hx0, hx3, hx1⟩ := Cert.PreFacts.of_pre _ _ _ _ _ _ _ _ _ _ _ (hpre c)
  refine ⟨(h c).1.trans ?_, (h c).2.1.trans ?_, (h c).2.2⟩
  · rw [Cert.ReferenceIdeal.Read.val_main_v105_eq, a0, a1, a2, a3, a4, a5, a6, a7, a8, a9, a10]
    exact Cert.ReferenceIdeal.Hand.ref_logits _ _ _ _ _ _ _ _ _ _ _ hx0 hx3 hx1
  · rw [Cert.ReferenceIdeal.Read.val_main_v106_eq, a0, a1, a2, a3, a4, a5, a6, a7, a8]
    exact Cert.ReferenceIdeal.Hand.ref_nexth _ _ _ _ _ _ _ _ _ hx0 hx3 hx1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
